-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S3x1x64 : Shape := ⟨3, ![3, 1, 64]⟩
abbrev S3x64 : Shape := ⟨2, ![3, 64]⟩
abbrev S3x128x64 : Shape := ⟨3, ![3, 128, 64]⟩
abbrev S64x1 : Shape := ⟨2, ![64, 1]⟩
abbrev S1 : Shape := ⟨1, ![1]⟩
abbrev S2x800000 : Shape := ⟨2, ![2, 800000]⟩
abbrev S50000 : Shape := ⟨1, ![50000]⟩
abbrev S_ : Shape := ⟨0, ![]⟩
abbrev S1x800000 : Shape := ⟨2, ![1, 800000]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S3x1x64 : S_.BroadcastsInDim S3x1x64 (![] : Fin 0 → Fin S3x1x64.rank)
  reducesTo_S3x1x64_S_d0_1_2 : S3x1x64.ReducesTo [0, 1, 2] S_
  bcast_S_S3x64 : S_.BroadcastsInDim S3x64 (![] : Fin 0 → Fin S3x64.rank)
  reducesTo_S3x64_S_d0_1 : S3x64.ReducesTo [0, 1] S_
  bcast_S_S3x128x64 : S_.BroadcastsInDim S3x128x64 (![] : Fin 0 → Fin S3x128x64.rank)
  reducesTo_S3x128x64_S_d0_1_2 : S3x128x64.ReducesTo [0, 1, 2] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  slices_S2x800000_S1x800000_0_0 : S2x800000.Slices ![0, 0] S1x800000
  shapeCasts_S1x800000_S800000 : S1x800000.ShapeCasts S800000

variable [Facts]

def fn_part2 {F : FTy → Type} [FloatOps F] (main_arg7 : FVec F S1 .f32) (main_arg8 : IVec S2x800000 32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : IVec S1x800000 32 := (extractStridedSlice S1x800000 ![0, 0] · slices_S2x800000_S1x800000_0_0) main_arg8
  let main_v40 : IVec S800000 32 := shapeCast S800000 main_v39 shapeCasts_S1x800000_S800000
  let main_c_14 : IVec S_ 32 := constantI S_ 32 0#32
  let main_v41 : IVec S800000 32 := broadcastInDim S800000 ![] bcast_S_S800000 main_c_14
  let main_v42 : IVec S800000 1 := cmpi .sge main_v40 main_v41
  let main_v43 : IVec S1x800000 32 := (extractStridedSlice S1x800000 ![0, 0] · slices_S2x800000_S1x800000_0_0) main_arg8
  let main_v44 : IVec S800000 32 := shapeCast S800000 main_v43 shapeCasts_S1x800000_S800000
  let main_c_15 : IVec S_ 32 := constantI S_ 32 50000#32
  let main_v45 : IVec S800000 32 := broadcastInDim S800000 ![] bcast_S_S800000 main_c_15
  let main_v46 : IVec S800000 1 := cmpi .slt main_v44 main_v45
  let main_v47 : IVec S800000 1 := andi main_v42 main_v46
  let main_c_16 : IVec S_ 1 := constantI S_ 1 1#1
  let main_v48 : IVec S_ 1 := (fun x v => Host.reduce IntOp.andi x v reducesTo_S800000_S_d0 h_S_) main_v47 main_c_16
  let main_v49 : IVec S_ 1 := andi main_v38 main_v48
  main_v49

def fn_part1 {F : FTy → Type} [FloatOps F] (main_arg4 : FVec F S3x128x64 .f32) (main_arg5 : FVec F S3x64 .f32) (main_arg6 : FVec F S64x1 .f32) (main_arg7 : FVec F S1 .f32) (main_arg8 : IVec S2x800000 32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S3x128x64 .f32 := Host.absf main_arg4
  let main_cst_6 : FVec F S_ .f32 := constant S_ .f32 0x7F800000#32
  let main_v20 : FVec F S3x128x64 .f32 := broadcastInDim S3x128x64 ![] bcast_S_S3x128x64 main_cst_6
  let main_v21 : IVec S3x128x64 1 := cmpf .olt main_v19 main_v20
  let main_c_7 : IVec S_ 1 := constantI S_ 1 1#1
  let main_v22 : IVec S_ 1 := (fun x v => Host.reduce IntOp.andi x v reducesTo_S3x128x64_S_d0_1_2 h_S_) main_v21 main_c_7
  let main_v23 : IVec S_ 1 := andi main_v18 main_v22
  let main_v24 : FVec F S3x64 .f32 := Host.absf main_arg5
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S64x1 .f32 := Host.absf main_arg6
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  fn_part2 (F := F) main_arg7 main_arg8 main_v33

def fn {F : FTy → Type} [FloatOps F] (main_arg0 : FVec F S50000x64 .f32) (main_arg1 : FVec F S800000 .f32) (main_arg2 : FVec F S3x1x64 .f32) (main_arg3 : FVec F S3x64 .f32) (main_arg4 : FVec F S3x128x64 .f32) (main_arg5 : FVec F S3x64 .f32) (main_arg6 : FVec F S64x1 .f32) (main_arg7 : FVec F S1 .f32) (main_arg8 : IVec S2x800000 32) (main_arg9 : IVec S50000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg1
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S3x1x64 .f32 := Host.absf main_arg2
  let main_cst_2 : FVec F S_ .f32 := constant S_ .f32 0x7F800000#32
  let main_v10 : FVec F S3x1x64 .f32 := broadcastInDim S3x1x64 ![] bcast_S_S3x1x64 main_cst_2
  let main_v11 : IVec S3x1x64 1 := cmpf .olt main_v9 main_v10
  let main_c_3 : IVec S_ 1 := constantI S_ 1 1#1
  let main_v12 : IVec S_ 1 := (fun x v => Host.reduce IntOp.andi x v reducesTo_S3x1x64_S_d0_1_2 h_S_) main_v11 main_c_3
  let main_v13 : IVec S_ 1 := andi main_v8 main_v12
  let main_v14 : FVec F S3x64 .f32 := Host.absf main_arg3
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg4 main_arg5 main_arg6 main_arg7 main_arg8 main_v13 main_v16
-- ==== Kernel.lean ====
abbrev S50000x64 : Shape := ⟨2, ![50000, 64]⟩
abbrev S800000 : Shape := ⟨1, ![800000]⟩
abbrev S3x1x64 : Shape := ⟨3, ![3, 1, 64]⟩
abbrev S3x64 : Shape := ⟨2, ![3, 64]⟩
abbrev S3x128x64 : Shape := ⟨3, ![3, 128, 64]⟩
abbrev S64x1 : Shape := ⟨2, ![64, 1]⟩
abbrev S1 : Shape := ⟨1, ![1]⟩
abbrev S2x800000 : Shape := ⟨2, ![2, 800000]⟩
abbrev S50000 : Shape := ⟨1, ![50000]⟩
abbrev S1x800000 : Shape := ⟨2, ![1, 800000]⟩
abbrev S800000x1 : Shape := ⟨2, ![800000, 1]⟩
abbrev S1x1x64 : Shape := ⟨3, ![1, 1, 64]⟩
abbrev S1x64 : Shape := ⟨2, ![1, 64]⟩
abbrev S64 : Shape := ⟨1, ![64]⟩
abbrev S800000x64 : Shape := ⟨2, ![800000, 64]⟩
abbrev S16000x1 : Shape := ⟨2, ![16000, 1]⟩
abbrev S16000x64 : Shape := ⟨2, ![16000, 64]⟩
abbrev S_ : Shape := ⟨0, ![]⟩
abbrev S1x1 : Shape := ⟨2, ![1, 1]⟩
abbrev S800000x128 : Shape := ⟨2, ![800000, 128]⟩
abbrev S50000x128 : Shape := ⟨2, ![50000, 128]⟩
abbrev S1x128x64 : Shape := ⟨3, ![1, 128, 64]⟩
abbrev S128x64 : Shape := ⟨2, ![128, 64]⟩
abbrev S10000x128 : Shape := ⟨2, ![10000, 128]⟩
abbrev S10000x64 : Shape := ⟨2, ![10000, 64]⟩
abbrev S64x64 : Shape := ⟨2, ![64, 64]⟩
abbrev S50000x1 : Shape := ⟨2, ![50000, 1]⟩

abbrev nBuf : Space → Nat
  | .hbm => 152
  | .vmem => 40
  | .smem => 0
  | _ => 0

abbrev hbmTy0_0 (i : Nat) : BufTy := match i % 128 with
  | 0 => ⟨S50000x64, .f32⟩
  | 1 => ⟨S800000, .f32⟩
  | 2 => ⟨S3x1x64, .f32⟩
  | 3 => ⟨S3x64, .f32⟩
  | 4 => ⟨S3x128x64, .f32⟩
  | 5 => ⟨S3x64, .f32⟩
  | 6 => ⟨S64x1, .f32⟩
  | 7 => ⟨S1, .f32⟩
  | 8 => ⟨S2x800000, .i32⟩
  | 9 => ⟨S50000, .i32⟩
  | 10 => ⟨S1x800000, .i32⟩
  | 11 => ⟨S800000, .i32⟩
  | 12 => ⟨S1x800000, .i32⟩
  | 13 => ⟨S800000, .i32⟩
  | 14 => ⟨S800000x1, .f32⟩
  | 15 => ⟨S1x1x64, .f32⟩
  | 16 => ⟨S1x64, .f32⟩
  | 17 => ⟨S1x64, .f32⟩
  | 18 => ⟨S64, .f32⟩
  | 19 => ⟨S1x64, .f32⟩
  | 20 => ⟨S800000x64, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S1, .i32⟩
  | 30 => ⟨S_, .i32⟩
  | 31 => ⟨S800000x1, .i32⟩
  | 32 => ⟨S800000x1, .i1⟩
  | 33 => ⟨S1x1, .i32⟩
  | 34 => ⟨S800000x1, .i32⟩
  | 35 => ⟨S800000x1, .i1⟩
  | 36 => ⟨S800000x1, .i1⟩
  | 37 => ⟨S_, .i1⟩
  | 38 => ⟨S800000, .i1⟩
  | 39 => ⟨S800000x64, .f32⟩
  | 40 => ⟨S800000x64, .i1⟩
  | 41 => ⟨S_, .f32⟩
  | 42 => ⟨S800000x64, .f32⟩
  | 43 => ⟨S800000x64, .f32⟩
  | 44 => ⟨S800000x128, .f32⟩
  | 45 => ⟨S_, .f32⟩
  | 46 => ⟨S50000x128, .f32⟩
  | 47 => ⟨S800000x1, .i32⟩
  | 48 => ⟨S50000x128, .f32⟩
  | 49 => ⟨S1x128x64, .f32⟩
  | 50 => ⟨S128x64, .f32⟩
  | 51 => ⟨S1x64, .f32⟩
  | 52 => ⟨S64, .f32⟩
  | 53 => ⟨S1x64, .f32⟩
  | 54 => ⟨S50000x64, .f32⟩
  | 55 => ⟨S1x1x64, .f32⟩
  | 56 => ⟨S1x64, .f32⟩
  | 57 => ⟨S1x64, .f32⟩
  | 58 => ⟨S64, .f32⟩
  | 59 => ⟨S1x64, .f32⟩
  | 60 => ⟨S800000x64, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S1, .i32⟩
  | 70 => ⟨S_, .i32⟩
  | 71 => ⟨S800000x1, .i32⟩
  | 72 => ⟨S800000x1, .i1⟩
  | 73 => ⟨S1x1, .i32⟩
  | 74 => ⟨S800000x1, .i32⟩
  | 75 => ⟨S800000x1, .i1⟩
  | 76 => ⟨S800000x1, .i1⟩
  | 77 => ⟨S_, .i1⟩
  | 78 => ⟨S800000, .i1⟩
  | 79 => ⟨S800000x64, .f32⟩
  | 80 => ⟨S800000x64, .i1⟩
  | 81 => ⟨S_, .f32⟩
  | 82 => ⟨S800000x64, .f32⟩
  | 83 => ⟨S800000x64, .f32⟩
  | 84 => ⟨S800000x128, .f32⟩
  | 85 => ⟨S_, .f32⟩
  | 86 => ⟨S50000x128, .f32⟩
  | 87 => ⟨S800000x1, .i32⟩
  | 88 => ⟨S50000x128, .f32⟩
  | 89 => ⟨S1x128x64, .f32⟩
  | 90 => ⟨S128x64, .f32⟩
  | 91 => ⟨S1x64, .f32⟩
  | 92 => ⟨S64, .f32⟩
  | 93 => ⟨S1x64, .f32⟩
  | 94 => ⟨S50000x64, .f32⟩
  | 95 => ⟨S1x1x64, .f32⟩
  | 96 => ⟨S1x64, .f32⟩
  | 97 => ⟨S1x64, .f32⟩
  | 98 => ⟨S64, .f32⟩
  | 99 => ⟨S1x64, .f32⟩
  | 100 => ⟨S800000x64, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S1, .i32⟩
  | 110 => ⟨S_, .i32⟩
  | 111 => ⟨S800000x1, .i32⟩
  | 112 => ⟨S800000x1, .i1⟩
  | 113 => ⟨S1x1, .i32⟩
  | 114 => ⟨S800000x1, .i32⟩
  | 115 => ⟨S800000x1, .i1⟩
  | 116 => ⟨S800000x1, .i1⟩
  | 117 => ⟨S_, .i1⟩
  | 118 => ⟨S800000, .i1⟩
  | 119 => ⟨S800000x64, .f32⟩
  | 120 => ⟨S800000x64, .i1⟩
  | 121 => ⟨S_, .f32⟩
  | 122 => ⟨S800000x64, .f32⟩
  | 123 => ⟨S800000x64, .f32⟩
  | 124 => ⟨S800000x128, .f32⟩
  | 125 => ⟨S_, .f32⟩
  | 126 => ⟨S50000x128, .f32⟩
  | 127 => ⟨S800000x1, .i32⟩
  | _ => ⟨S50000x64, .f32⟩

abbrev hbmTy0_1 (i : Nat) : BufTy := match i % 128 with
  | 0 => ⟨S50000x128, .f32⟩
  | 1 => ⟨S1x128x64, .f32⟩
  | 2 => ⟨S128x64, .f32⟩
  | 3 => ⟨S1x64, .f32⟩
  | 4 => ⟨S64, .f32⟩
  | 5 => ⟨S1x64, .f32⟩
  | 6 => ⟨S50000x64, .f32⟩
  | 7 => ⟨S_, .f32⟩
  | 8 => ⟨S64x64, .f32⟩
  | 9 => ⟨S50000x1, .i32⟩
  | 10 => ⟨S64x64, .f32⟩
  | 11 => ⟨S_, .f32⟩
  | 12 => ⟨S50000x1, .f32⟩
  | 13 => ⟨S_, .f32⟩
  | 14 => ⟨S64x1, .f32⟩
  | 15 => ⟨S50000x1, .i32⟩
  | 16 => ⟨S64x1, .f32⟩
  | 17 => ⟨S_, .f32⟩
  | 18 => ⟨S64x1, .f32⟩
  | 19 => ⟨S64x1, .f32⟩
  | 20 => ⟨S64x64, .f32⟩
  | 21 => ⟨S64x64, .f32⟩
  | 22 => ⟨S1x1, .f32⟩
  | 23 => ⟨S64x1, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S16000x1, .f32⟩
  | .local _ .vmem, ⟨1, _⟩ => ⟨S16000x1, .f32⟩
  | .local _ .vmem, ⟨2, _⟩ => ⟨S1x64, .f32⟩
  | .local _ .vmem, ⟨3, _⟩ => ⟨S1x64, .f32⟩
  | .local _ .vmem, ⟨4, _⟩ => ⟨S16000x64, .f32⟩
  | .local _ .vmem, ⟨5, _⟩ => ⟨S16000x64, .f32⟩
  | .local _ .vmem, ⟨6, _⟩ => ⟨S10000x128, .f32⟩
  | .local _ .vmem, ⟨7, _⟩ => ⟨S10000x128, .f32⟩
  | .local _ .vmem, ⟨8, _⟩ => ⟨S128x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | .local _ .vmem, ⟨12, _⟩ => ⟨S16000x1, .f32⟩
  | .local _ .vmem, ⟨13, _⟩ => ⟨S16000x1, .f32⟩
  | .local _ .vmem, ⟨14, _⟩ => ⟨S1x64, .f32⟩
  | .local _ .vmem, ⟨15, _⟩ => ⟨S1x64, .f32⟩
  | .local _ .vmem, ⟨16, _⟩ => ⟨S16000x64, .f32⟩
  | .local _ .vmem, ⟨17, _⟩ => ⟨S16000x64, .f32⟩
  | .local _ .vmem, ⟨18, _⟩ => ⟨S10000x128, .f32⟩
  | .local _ .vmem, ⟨19, _⟩ => ⟨S10000x128, .f32⟩
  | .local _ .vmem, ⟨20, _⟩ => ⟨S128x64, .f32⟩
  | .local _ .vmem, ⟨21, _⟩ => ⟨S1x64, .f32⟩
  | .local _ .vmem, ⟨22, _⟩ => ⟨S10000x64, .f32⟩
  | .local _ .vmem, ⟨23, _⟩ => ⟨S10000x64, .f32⟩
  | .local _ .vmem, ⟨24, _⟩ => ⟨S16000x1, .f32⟩
  | .local _ .vmem, ⟨25, _⟩ => ⟨S16000x1, .f32⟩
  | .local _ .vmem, ⟨26, _⟩ => ⟨S1x64, .f32⟩
  | .local _ .vmem, ⟨27, _⟩ => ⟨S1x64, .f32⟩
  | .local _ .vmem, ⟨28, _⟩ => ⟨S16000x64, .f32⟩
  | .local _ .vmem, ⟨29, _⟩ => ⟨S16000x64, .f32⟩
  | .local _ .vmem, ⟨30, _⟩ => ⟨S10000x128, .f32⟩
  | .local _ .vmem, ⟨31, _⟩ => ⟨S10000x128, .f32⟩
  | .local _ .vmem, ⟨32, _⟩ => ⟨S128x64, .f32⟩
  | .local _ .vmem, ⟨33, _⟩ => ⟨S1x64, .f32⟩
  | .local _ .vmem, ⟨34, _⟩ => ⟨S10000x64, .f32⟩
  | .local _ .vmem, ⟨35, _⟩ => ⟨S10000x64, .f32⟩
  | .local _ .vmem, ⟨36, _⟩ => ⟨S64x64, .f32⟩
  | .local _ .vmem, ⟨37, _⟩ => ⟨S64x1, .f32⟩
  | .local _ .vmem, ⟨38, _⟩ => ⟨S1x1, .f32⟩
  | .local _ .vmem, ⟨39, _⟩ => ⟨S64x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v11 : Ref sig .tc := ⟨.hbm, 43, rfl⟩
abbrev main_v12 : Ref sig .tc := ⟨.hbm, 44, rfl⟩
abbrev main_cst : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_call1_c : Ref sig .tc := ⟨.hbm, 61, rfl⟩
abbrev main_call1_v0 : Ref sig .tc := ⟨.hbm, 62, rfl⟩
abbrev main_call1_v1 : Ref sig .tc := ⟨.hbm, 63, rfl⟩
abbrev main_call1_c_0 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_v5 : Ref sig .tc := ⟨.hbm, 68, rfl⟩
abbrev main_call1_c_1 : Ref sig .tc := ⟨.hbm, 69, rfl⟩
abbrev main_call1_c_2 : Ref sig .tc := ⟨.hbm, 70, rfl⟩
abbrev main_call1_v6 : Ref sig .tc := ⟨.hbm, 71, rfl⟩
abbrev main_call1_v7 : Ref sig .tc := ⟨.hbm, 72, rfl⟩
abbrev main_call1_v8 : Ref sig .tc := ⟨.hbm, 73, rfl⟩
abbrev main_call1_v9 : Ref sig .tc := ⟨.hbm, 74, rfl⟩
abbrev main_call1_v10 : Ref sig .tc := ⟨.hbm, 75, rfl⟩
abbrev main_call1_v11 : Ref sig .tc := ⟨.hbm, 76, rfl⟩
abbrev main_call1_c_3 : Ref sig .tc := ⟨.hbm, 77, rfl⟩
abbrev main_call1_v12 : Ref sig .tc := ⟨.hbm, 78, rfl⟩
abbrev main_call1_v13 : Ref sig .tc := ⟨.hbm, 79, rfl⟩
abbrev main_call1_v14 : Ref sig .tc := ⟨.hbm, 80, rfl⟩
abbrev main_call1_cst : Ref sig .tc := ⟨.hbm, 81, rfl⟩
abbrev main_call1_v15 : Ref sig .tc := ⟨.hbm, 82, rfl⟩
abbrev main_v28 : Ref sig .tc := ⟨.hbm, 83, rfl⟩
abbrev main_v29 : Ref sig .tc := ⟨.hbm, 84, rfl⟩
abbrev main_cst_0 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_call2_c : Ref sig .tc := ⟨.hbm, 101, rfl⟩
abbrev main_call2_v0 : Ref sig .tc := ⟨.hbm, 102, rfl⟩
abbrev main_call2_v1 : Ref sig .tc := ⟨.hbm, 103, rfl⟩
abbrev main_call2_c_0 : Ref sig .tc := ⟨.hbm, 104, rfl⟩
abbrev main_call2_v2 : Ref sig .tc := ⟨.hbm, 105, rfl⟩
abbrev main_call2_v3 : Ref sig .tc := ⟨.hbm, 106, rfl⟩
abbrev main_call2_v4 : Ref sig .tc := ⟨.hbm, 107, rfl⟩
abbrev main_call2_v5 : Ref sig .tc := ⟨.hbm, 108, rfl⟩
abbrev main_call2_c_1 : Ref sig .tc := ⟨.hbm, 109, rfl⟩
abbrev main_call2_c_2 : Ref sig .tc := ⟨.hbm, 110, rfl⟩
abbrev main_call2_v6 : Ref sig .tc := ⟨.hbm, 111, rfl⟩
abbrev main_call2_v7 : Ref sig .tc := ⟨.hbm, 112, rfl⟩
abbrev main_call2_v8 : Ref sig .tc := ⟨.hbm, 113, rfl⟩
abbrev main_call2_v9 : Ref sig .tc := ⟨.hbm, 114, rfl⟩
abbrev main_call2_v10 : Ref sig .tc := ⟨.hbm, 115, rfl⟩
abbrev main_call2_v11 : Ref sig .tc := ⟨.hbm, 116, rfl⟩
abbrev main_call2_c_3 : Ref sig .tc := ⟨.hbm, 117, rfl⟩
abbrev main_call2_v12 : Ref sig .tc := ⟨.hbm, 118, rfl⟩
abbrev main_call2_v13 : Ref sig .tc := ⟨.hbm, 119, rfl⟩
abbrev main_call2_v14 : Ref sig .tc := ⟨.hbm, 120, rfl⟩
abbrev main_call2_cst : Ref sig .tc := ⟨.hbm, 121, rfl⟩
abbrev main_call2_v15 : Ref sig .tc := ⟨.hbm, 122, rfl⟩
abbrev main_v45 : Ref sig .tc := ⟨.hbm, 123, rfl⟩
abbrev main_v46 : Ref sig .tc := ⟨.hbm, 124, rfl⟩
abbrev main_cst_1 : Ref sig .tc := ⟨.hbm, 125, rfl⟩
abbrev main_v47 : Ref sig .tc := ⟨.hbm, 126, rfl⟩
abbrev main_v48 : Ref sig .tc := ⟨.hbm, 127, rfl⟩
abbrev main_v49 : Ref sig .tc := ⟨.hbm, 128, rfl⟩
abbrev main_v50 : Ref sig .tc := ⟨.hbm, 129, rfl⟩
abbrev main_v51 : Ref sig .tc := ⟨.hbm, 130, rfl⟩
abbrev main_v52 : Ref sig .tc := ⟨.hbm, 131, rfl⟩
abbrev main_v53 : Ref sig .tc := ⟨.hbm, 132, rfl⟩
abbrev main_v54 : Ref sig .tc := ⟨.hbm, 133, rfl⟩
abbrev main_v55 : Ref sig .tc := ⟨.hbm, 134, rfl⟩
abbrev main_cst_2 : Ref sig .tc := ⟨.hbm, 135, rfl⟩
abbrev main_v56 : Ref sig .tc := ⟨.hbm, 136, rfl⟩
abbrev main_v57 : Ref sig .tc := ⟨.hbm, 137, rfl⟩
abbrev main_v58 : Ref sig .tc := ⟨.hbm, 138, rfl⟩
abbrev main_cst_3 : Ref sig .tc := ⟨.hbm, 139, rfl⟩
abbrev main_v59 : Ref sig .tc := ⟨.hbm, 140, rfl⟩
abbrev main_cst_4 : Ref sig .tc := ⟨.hbm, 141, rfl⟩
abbrev main_v60 : Ref sig .tc := ⟨.hbm, 142, rfl⟩
abbrev main_v61 : Ref sig .tc := ⟨.hbm, 143, rfl⟩
abbrev main_v62 : Ref sig .tc := ⟨.hbm, 144, rfl⟩
abbrev main_cst_5 : Ref sig .tc := ⟨.hbm, 145, rfl⟩
abbrev main_v63 : Ref sig .tc := ⟨.hbm, 146, rfl⟩
abbrev main_v64 : Ref sig .tc := ⟨.hbm, 147, rfl⟩
abbrev main_v65 : Ref sig .tc := ⟨.hbm, 148, rfl⟩
abbrev main_v66 : Ref sig .tc := ⟨.hbm, 149, rfl⟩
abbrev main_v67 : Ref sig .tc := ⟨.hbm, 150, rfl⟩
abbrev main_v68 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg1_0 : Ref sig .tc := ⟨.vmem, 37, rfl⟩
abbrev cc6_stg2_0 : Ref sig .tc := ⟨.vmem, 38, rfl⟩
abbrev cc6_stg3_0 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem1_0 : DmaSem sig := 37
abbrev cc6_sem2_0 : DmaSem sig := 38
abbrev cc6_sem3_0 : DmaSem sig := 39

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S16000x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S16000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S16000x1 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S16000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S64x64 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S64x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S800000_S800000x1 : S800000.ShapeCasts S800000x1
  slices_S3x1x64_S1x1x64_0_0_0 : S3x1x64.Slices ![0, 0, 0] S1x1x64
  shapeCasts_S1x1x64_S1x64 : S1x1x64.ShapeCasts S1x64
  slices_S3x64_S1x64_0_0 : S3x64.Slices ![0, 0] S1x64
  shapeCasts_S1x64_S64 : S1x64.ShapeCasts S64
  shapeCasts_S64_S1x64 : S64.ShapeCasts S1x64
  inb_S16000x1_S16000x1_0_0 : ∀ a, (![0, 0] : Fin 2 → Nat) a + S16000x1.size a ≤ S16000x1.size a
  h_S16000x1 : 0 < S16000x1.numel
  shapeCasts_S16000x1_S16000x1 : S16000x1.ShapeCasts S16000x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S16000x1_S16000x64 : S16000x1.Broadcasts S16000x64
  broadcasts_S1x64_S16000x64 : S1x64.Broadcasts S16000x64
  inb_S16000x64_S16000x64_0_0 : ∀ a, (![0, 0] : Fin 2 → Nat) a + S16000x64.size a ≤ S16000x64.size a
  h_S16000x64 : 0 < S16000x64.numel
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  concatenates_S800000x64_S800000x64_S800000x128_d1 : Shape.Concatenates [S800000x64, S800000x64] S800000x128 1
  bcast_S_S50000x128 : S_.BroadcastsInDim S50000x128 (![] : Fin 0 → Fin S50000x128.rank)
  slices_S3x128x64_S1x128x64_0_0_0 : S3x128x64.Slices ![0, 0, 0] S1x128x64
  shapeCasts_S1x128x64_S128x64 : S1x128x64.ShapeCasts S128x64
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  slices_S3x1x64_S1x1x64_1_0_0 : S3x1x64.Slices ![1, 0, 0] S1x1x64
  slices_S3x64_S1x64_1_0 : S3x64.Slices ![1, 0] S1x64
  slices_S3x128x64_S1x128x64_1_0_0 : S3x128x64.Slices ![1, 0, 0] S1x128x64
  slices_S3x1x64_S1x1x64_2_0_0 : S3x1x64.Slices ![2, 0, 0] S1x1x64
  slices_S3x64_S1x64_2_0 : S3x64.Slices ![2, 0] S1x64
  slices_S3x128x64_S1x128x64_2_0_0 : S3x128x64.Slices ![2, 0, 0] S1x128x64
  bcast_S_S64x64 : S_.BroadcastsInDim S64x64 (![] : Fin 0 → Fin S64x64.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S_S64x1 : S_.BroadcastsInDim S64x1 (![] : Fin 0 → Fin S64x1.rank)
  bcast_S64x1_S64x64_0_1 : S64x1.BroadcastsInDim S64x64 (![0, 1] : Fin 2 → Fin S64x64.rank)
  shapeCasts_S1_S1x1 : S1.ShapeCasts S1x1
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  gather_S50000x64_S800000x1_S800000x64_1_0_n_n_0_1_164_wf : GatherDims.WF S50000x64 S800000x1 S800000x64 [1] [0] [] [0] [] 1 ![1, 64]
  scatter_S50000x128_S800000x1_S800000x128_1_0_0_1_wf : ScatterDims.WF S50000x128 S800000x1 S800000x128 [1] [0] [0] 1
  dot_S10000x128_S128x64_S10000x64_1_0_0_1_n_n_wf : DotDims.WF S10000x128 S128x64 S10000x64 [1] [0] [0] [1] [] []
  scatter_S64x64_S50000x1_S50000x64_1_0_0_1_wf : ScatterDims.WF S64x64 S50000x1 S50000x64 [1] [0] [0] 1
  scatter_S64x1_S50000x1_S50000x1_1_0_0_1_wf : ScatterDims.WF S64x1 S50000x1 S50000x1 [1] [0] [0] 1
  dot_S64x64_S64x1_S64x1_1_0_0_1_n_n_wf : DotDims.WF S64x64 S64x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x1.size a ≤ S800000x1.size a
  hwx0_0 : ∀ i : grid0.Coords, EltTy.bits .f32 = 32 ∨ (Rect.block (s := S800000x1) S16000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16000x64.size a ≤ S800000x64.size a
  hwx0_3 : ∀ i : grid0.Coords, EltTy.bits .f32 = 32 ∨ (Rect.block (s := S800000x64) S16000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S50000x64.size a
  hwx1_3 : ∀ i : grid1.Coords, EltTy.bits .f32 = 32 ∨ (Rect.block (s := S50000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S16000x1.size a ≤ S800000x1.size a
  hwx2_0 : ∀ i : grid2.Coords, EltTy.bits .f32 = 32 ∨ (Rect.block (s := S800000x1) S16000x1.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S16000x64.size a ≤ S800000x64.size a
  hwx2_3 : ∀ i : grid2.Coords, EltTy.bits .f32 = 32 ∨ (Rect.block (s := S800000x64) S16000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .f32 = 32 ∨ (Rect.block (s := S50000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S50000x64.size a
  hwx3_3 : ∀ i : grid3.Coords, EltTy.bits .f32 = 32 ∨ (Rect.block (s := S50000x64) S10000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S16000x1.size a ≤ S800000x1.size a
  hwx4_0 : ∀ i : grid4.Coords, EltTy.bits .f32 = 32 ∨ (Rect.block (s := S800000x1) S16000x1.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S16000x64.size a ≤ S800000x64.size a
  hwx4_3 : ∀ i : grid4.Coords, EltTy.bits .f32 = 32 ∨ (Rect.block (s := S800000x64) S16000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S50000x128.size a
  hwx5_0 : ∀ i : grid5.Coords, EltTy.bits .f32 = 32 ∨ (Rect.block (s := S50000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x64.size a ≤ S128x64.size a
  hwx5_1 : ∀ i : grid5.Coords, EltTy.bits .f32 = 32 ∨ (Rect.block (s := S128x64) S128x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x64.size a ≤ S50000x64.size a
  hwx5_3 : ∀ i : grid5.Coords, EltTy.bits .f32 = 32 ∨ (Rect.block (s := S50000x64) S10000x64.size (cc5_transform_3 i) (hinb5_3 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S64x64.size a ≤ S64x64.size a
  hwx6_0 : ∀ i : grid6.Coords, EltTy.bits .f32 = 32 ∨ (Rect.block (s := S64x64) S64x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x1.size a ≤ S64x1.size a
  hwx6_1 : ∀ i : grid6.Coords, EltTy.bits .f32 = 32 ∨ (Rect.block (s := S64x1) S64x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x1.size a ≤ S1x1.size a
  hwx6_2 : ∀ i : grid6.Coords, EltTy.bits .f32 = 32 ∨ (Rect.block (s := S1x1) S1x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x1.size a ≤ S64x1.size a
  hwx6_3 : ∀ i : grid6.Coords, EltTy.bits .f32 = 32 ∨ (Rect.block (s := S64x1) S64x1.size (cc6_transform_3 i) (hinb6_3 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def scatter_S64x1_S50000x1_S50000x1_1_0_0_1 : ScatterDims S64x1 S50000x1 S50000x1 where
  updateWindowDims := [1]
  insertedWindowDims := [0]
  scatterDimsToOperandDims := [0]
  indexVectorDim := 1
  wf := scatter_S64x1_S50000x1_S50000x1_1_0_0_1_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

abbrev win0_0 : Pipeline.Window sig grid0 :=
  Pipeline.Window.ofSpec (Memref.whole main_v4) S16000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S16000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v15) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v4) S16000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v26) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v27) S16000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v32) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v34) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v37) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v38) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v4) S16000x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v40) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v43) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v44) S16000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v49) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v51) S128x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v54) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v55) S10000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v66) S64x64.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg6) S64x1.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v67) S1x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v68) S64x1.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S50000x64 : Shape := ⟨2, ![50000, 64]⟩
abbrev S800000 : Shape := ⟨1, ![800000]⟩
abbrev S3x1x64 : Shape := ⟨3, ![3, 1, 64]⟩
abbrev S3x64 : Shape := ⟨2, ![3, 64]⟩
abbrev S3x128x64 : Shape := ⟨3, ![3, 128, 64]⟩
abbrev S64x1 : Shape := ⟨2, ![64, 1]⟩
abbrev S1 : Shape := ⟨1, ![1]⟩
abbrev S2x800000 : Shape := ⟨2, ![2, 800000]⟩
abbrev S50000 : Shape := ⟨1, ![50000]⟩
abbrev S1x800000 : Shape := ⟨2, ![1, 800000]⟩
abbrev S800000x1 : Shape := ⟨2, ![800000, 1]⟩
abbrev S1x1x64 : Shape := ⟨3, ![1, 1, 64]⟩
abbrev S1x64 : Shape := ⟨2, ![1, 64]⟩
abbrev S800000x64 : Shape := ⟨2, ![800000, 64]⟩
abbrev S64 : Shape := ⟨1, ![64]⟩
abbrev S_ : Shape := ⟨0, ![]⟩
abbrev S800000x128 : Shape := ⟨2, ![800000, 128]⟩
abbrev S50000x128 : Shape := ⟨2, ![50000, 128]⟩
abbrev S1x128x64 : Shape := ⟨3, ![1, 128, 64]⟩
abbrev S128x64 : Shape := ⟨2, ![128, 64]⟩
abbrev S64x64 : Shape := ⟨2, ![64, 64]⟩
abbrev S50000x1 : Shape := ⟨2, ![50000, 1]⟩
abbrev S1x1 : Shape := ⟨2, ![1, 1]⟩

abbrev nBuf : Space → Nat
  | .hbm => 154
  | .vmem => 0
  | .smem => 0
  | _ => 0

abbrev hbmTy0_0 (i : Nat) : BufTy := match i % 128 with
  | 0 => ⟨S50000x64, .f32⟩
  | 1 => ⟨S800000, .f32⟩
  | 2 => ⟨S3x1x64, .f32⟩
  | 3 => ⟨S3x64, .f32⟩
  | 4 => ⟨S3x128x64, .f32⟩
  | 5 => ⟨S3x64, .f32⟩
  | 6 => ⟨S64x1, .f32⟩
  | 7 => ⟨S1, .f32⟩
  | 8 => ⟨S2x800000, .i32⟩
  | 9 => ⟨S50000, .i32⟩
  | 10 => ⟨S1x800000, .i32⟩
  | 11 => ⟨S800000, .i32⟩
  | 12 => ⟨S1x800000, .i32⟩
  | 13 => ⟨S800000, .i32⟩
  | 14 => ⟨S800000x1, .f32⟩
  | 15 => ⟨S1x1x64, .f32⟩
  | 16 => ⟨S1x64, .f32⟩
  | 17 => ⟨S800000x64, .f32⟩
  | 18 => ⟨S1x64, .f32⟩
  | 19 => ⟨S64, .f32⟩
  | 20 => ⟨S1x64, .f32⟩
  | 21 => ⟨S800000x64, .f32⟩
  | 22 => ⟨S800000x64, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x64, .f32⟩
  | 32 => ⟨S800000x128, .f32⟩
  | 33 => ⟨S_, .f32⟩
  | 34 => ⟨S50000x128, .f32⟩
  | 35 => ⟨S800000x1, .i32⟩
  | 36 => ⟨S50000x128, .f32⟩
  | 37 => ⟨S1x128x64, .f32⟩
  | 38 => ⟨S128x64, .f32⟩
  | 39 => ⟨S50000x64, .f32⟩
  | 40 => ⟨S1x64, .f32⟩
  | 41 => ⟨S64, .f32⟩
  | 42 => ⟨S1x64, .f32⟩
  | 43 => ⟨S50000x64, .f32⟩
  | 44 => ⟨S50000x64, .f32⟩
  | 45 => ⟨S_, .f32⟩
  | 46 => ⟨S50000x64, .f32⟩
  | 47 => ⟨S50000x64, .f32⟩
  | 48 => ⟨S_, .f32⟩
  | 49 => ⟨S50000x64, .f32⟩
  | 50 => ⟨S50000x64, .i1⟩
  | 51 => ⟨S_, .f32⟩
  | 52 => ⟨S50000x64, .f32⟩
  | 53 => ⟨S50000x64, .f32⟩
  | 54 => ⟨S50000x64, .f32⟩
  | 55 => ⟨S1x1x64, .f32⟩
  | 56 => ⟨S1x64, .f32⟩
  | 57 => ⟨S800000x64, .f32⟩
  | 58 => ⟨S1x64, .f32⟩
  | 59 => ⟨S64, .f32⟩
  | 60 => ⟨S1x64, .f32⟩
  | 61 => ⟨S800000x64, .f32⟩
  | 62 => ⟨S800000x64, .f32⟩
  | 63 => ⟨S_, .i32⟩
  | 64 => ⟨S800000, .i32⟩
  | 65 => ⟨S800000, .i1⟩
  | 66 => ⟨S_, .i32⟩
  | 67 => ⟨S800000, .i32⟩
  | 68 => ⟨S800000, .i32⟩
  | 69 => ⟨S800000, .i32⟩
  | 70 => ⟨S800000x1, .i32⟩
  | 71 => ⟨S800000x64, .f32⟩
  | 72 => ⟨S800000x128, .f32⟩
  | 73 => ⟨S_, .f32⟩
  | 74 => ⟨S50000x128, .f32⟩
  | 75 => ⟨S800000x1, .i32⟩
  | 76 => ⟨S50000x128, .f32⟩
  | 77 => ⟨S1x128x64, .f32⟩
  | 78 => ⟨S128x64, .f32⟩
  | 79 => ⟨S50000x64, .f32⟩
  | 80 => ⟨S1x64, .f32⟩
  | 81 => ⟨S64, .f32⟩
  | 82 => ⟨S1x64, .f32⟩
  | 83 => ⟨S50000x64, .f32⟩
  | 84 => ⟨S50000x64, .f32⟩
  | 85 => ⟨S_, .f32⟩
  | 86 => ⟨S50000x64, .f32⟩
  | 87 => ⟨S50000x64, .f32⟩
  | 88 => ⟨S_, .f32⟩
  | 89 => ⟨S50000x64, .f32⟩
  | 90 => ⟨S50000x64, .i1⟩
  | 91 => ⟨S_, .f32⟩
  | 92 => ⟨S50000x64, .f32⟩
  | 93 => ⟨S50000x64, .f32⟩
  | 94 => ⟨S50000x64, .f32⟩
  | 95 => ⟨S1x1x64, .f32⟩
  | 96 => ⟨S1x64, .f32⟩
  | 97 => ⟨S800000x64, .f32⟩
  | 98 => ⟨S1x64, .f32⟩
  | 99 => ⟨S64, .f32⟩
  | 100 => ⟨S1x64, .f32⟩
  | 101 => ⟨S800000x64, .f32⟩
  | 102 => ⟨S800000x64, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000x64, .f32⟩
  | 112 => ⟨S800000x128, .f32⟩
  | 113 => ⟨S_, .f32⟩
  | 114 => ⟨S50000x128, .f32⟩
  | 115 => ⟨S800000x1, .i32⟩
  | 116 => ⟨S50000x128, .f32⟩
  | 117 => ⟨S1x128x64, .f32⟩
  | 118 => ⟨S128x64, .f32⟩
  | 119 => ⟨S50000x64, .f32⟩
  | 120 => ⟨S1x64, .f32⟩
  | 121 => ⟨S64, .f32⟩
  | 122 => ⟨S1x64, .f32⟩
  | 123 => ⟨S50000x64, .f32⟩
  | 124 => ⟨S50000x64, .f32⟩
  | 125 => ⟨S_, .f32⟩
  | 126 => ⟨S50000x64, .f32⟩
  | 127 => ⟨S50000x64, .f32⟩
  | _ => ⟨S50000x64, .f32⟩

abbrev hbmTy0_1 (i : Nat) : BufTy := match i % 128 with
  | 0 => ⟨S_, .f32⟩
  | 1 => ⟨S50000x64, .f32⟩
  | 2 => ⟨S50000x64, .i1⟩
  | 3 => ⟨S_, .f32⟩
  | 4 => ⟨S50000x64, .f32⟩
  | 5 => ⟨S50000x64, .f32⟩
  | 6 => ⟨S50000x64, .f32⟩
  | 7 => ⟨S_, .f32⟩
  | 8 => ⟨S64x64, .f32⟩
  | 9 => ⟨S50000x1, .i32⟩
  | 10 => ⟨S64x64, .f32⟩
  | 11 => ⟨S_, .f32⟩
  | 12 => ⟨S50000x1, .f32⟩
  | 13 => ⟨S_, .f32⟩
  | 14 => ⟨S64x1, .f32⟩
  | 15 => ⟨S50000x1, .i32⟩
  | 16 => ⟨S64x1, .f32⟩
  | 17 => ⟨S_, .f32⟩
  | 18 => ⟨S64x1, .f32⟩
  | 19 => ⟨S64x1, .f32⟩
  | 20 => ⟨S64x64, .f32⟩
  | 21 => ⟨S64x64, .f32⟩
  | 22 => ⟨S64x1, .f32⟩
  | 23 => ⟨S1x1, .f32⟩
  | 24 => ⟨S64x1, .f32⟩
  | 25 => ⟨S64x1, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_call0_cst : Ref sig .tc := ⟨.hbm, 45, rfl⟩
abbrev main_call0_v0 : Ref sig .tc := ⟨.hbm, 46, rfl⟩
abbrev main_v32 : Ref sig .tc := ⟨.hbm, 47, rfl⟩
abbrev main_cst_1 : Ref sig .tc := ⟨.hbm, 48, rfl⟩
abbrev main_v33 : Ref sig .tc := ⟨.hbm, 49, rfl⟩
abbrev main_v34 : Ref sig .tc := ⟨.hbm, 50, rfl⟩
abbrev main_cst_2 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_3 : Ref sig .tc := ⟨.hbm, 63, rfl⟩
abbrev main_v46 : Ref sig .tc := ⟨.hbm, 64, rfl⟩
abbrev main_v47 : Ref sig .tc := ⟨.hbm, 65, rfl⟩
abbrev main_c_4 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_5 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_call2_cst : Ref sig .tc := ⟨.hbm, 85, rfl⟩
abbrev main_call2_v0 : Ref sig .tc := ⟨.hbm, 86, rfl⟩
abbrev main_v65 : Ref sig .tc := ⟨.hbm, 87, rfl⟩
abbrev main_cst_6 : Ref sig .tc := ⟨.hbm, 88, rfl⟩
abbrev main_v66 : Ref sig .tc := ⟨.hbm, 89, rfl⟩
abbrev main_v67 : Ref sig .tc := ⟨.hbm, 90, rfl⟩
abbrev main_cst_7 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_c_8 : Ref sig .tc := ⟨.hbm, 103, rfl⟩
abbrev main_v79 : Ref sig .tc := ⟨.hbm, 104, rfl⟩
abbrev main_v80 : Ref sig .tc := ⟨.hbm, 105, rfl⟩
abbrev main_c_9 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_10 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_call4_cst : Ref sig .tc := ⟨.hbm, 125, rfl⟩
abbrev main_call4_v0 : Ref sig .tc := ⟨.hbm, 126, rfl⟩
abbrev main_v98 : Ref sig .tc := ⟨.hbm, 127, rfl⟩
abbrev main_cst_11 : Ref sig .tc := ⟨.hbm, 128, rfl⟩
abbrev main_v99 : Ref sig .tc := ⟨.hbm, 129, rfl⟩
abbrev main_v100 : Ref sig .tc := ⟨.hbm, 130, rfl⟩
abbrev main_cst_12 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_cst_13 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_cst_14 : Ref sig .tc := ⟨.hbm, 139, rfl⟩
abbrev main_v107 : Ref sig .tc := ⟨.hbm, 140, rfl⟩
abbrev main_cst_15 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_cst_16 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S800000_S800000x1 : S800000.ShapeCasts S800000x1
  slices_S3x1x64_S1x1x64_0_0_0 : S3x1x64.Slices ![0, 0, 0] S1x1x64
  shapeCasts_S1x1x64_S1x64 : S1x1x64.ShapeCasts S1x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  bcast_S_S50000x128 : S_.BroadcastsInDim S50000x128 (![] : Fin 0 → Fin S50000x128.rank)
  slices_S3x128x64_S1x128x64_0_0_0 : S3x128x64.Slices ![0, 0, 0] S1x128x64
  shapeCasts_S1x128x64_S128x64 : S1x128x64.ShapeCasts S128x64
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  slices_S3x1x64_S1x1x64_1_0_0 : S3x1x64.Slices ![1, 0, 0] S1x1x64
  slices_S3x64_S1x64_1_0 : S3x64.Slices ![1, 0] S1x64
  slices_S3x128x64_S1x128x64_1_0_0 : S3x128x64.Slices ![1, 0, 0] S1x128x64
  slices_S3x1x64_S1x1x64_2_0_0 : S3x1x64.Slices ![2, 0, 0] S1x1x64
  slices_S3x64_S1x64_2_0 : S3x64.Slices ![2, 0] S1x64
  slices_S3x128x64_S1x128x64_2_0_0 : S3x128x64.Slices ![2, 0, 0] S1x128x64
  bcast_S_S64x64 : S_.BroadcastsInDim S64x64 (![] : Fin 0 → Fin S64x64.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S_S64x1 : S_.BroadcastsInDim S64x1 (![] : Fin 0 → Fin S64x1.rank)
  bcast_S64x1_S64x64_0_1 : S64x1.BroadcastsInDim S64x64 (![0, 1] : Fin 2 → Fin S64x64.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  dot_S800000x1_S1x64_S800000x64_1_0_0_1_n_n_wf : DotDims.WF S800000x1 S1x64 S800000x64 [1] [0] [0] [1] [] []
  gather_S50000x64_S800000x1_S800000x64_1_0_n_n_0_1_164_wf : GatherDims.WF S50000x64 S800000x1 S800000x64 [1] [0] [] [0] [] 1 ![1, 64]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  scatter_S64x64_S50000x1_S50000x64_1_0_0_1_wf : ScatterDims.WF S64x64 S50000x1 S50000x64 [1] [0] [0] 1
  scatter_S64x1_S50000x1_S50000x1_1_0_0_1_wf : ScatterDims.WF S64x1 S50000x1 S50000x1 [1] [0] [0] 1
  dot_S64x64_S64x1_S64x1_1_0_0_1_n_n_wf : DotDims.WF S64x64 S64x1 S64x1 [1] [0] [0] [1] [] []

variable [Facts₀]

def dot_S800000x1_S1x64_S800000x64_1_0_0_1_n_n : DotDims S800000x1 S1x64 S800000x64 where
  lhsContracting := [1]
  rhsContracting := [0]
  lhsNonContracting := [0]
  rhsNonContracting := [1]
  lhsBatch := []
  rhsBatch := []
  wf := dot_S800000x1_S1x64_S800000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def scatter_S64x1_S50000x1_S50000x1_1_0_0_1 : ScatterDims S64x1 S50000x1 S50000x1 where
  updateWindowDims := [1]
  insertedWindowDims := [0]
  scatterDimsToOperandDims := [0]
  indexVectorDim := 1
  wf := scatter_S64x1_S50000x1_S50000x1_1_0_0_1_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

class Facts : Prop extends Facts₀ where

variable [Facts]
-- ==== Proof.Spec.lean ====
/-
  The arithmetic of the three kernel bodies as functions of whole arrays, index by index, on the extended reals.
  An edge embedding is the outer product of the edge attribute column with a weight row plus a bias row; a node update is
  a 128-term inner product per (node, feature) plus a bias, clipped below at zero, then passed through the leaky slope
  (which, after the clip, only ever takes the non-negative branch's form `select (r ≥ 0) r (slope · r)`); the read-out is a
  64-term inner product per graph plus one scalar bias.
-/
import proofs.«404665_j1864015807087_1_alg».proof.KernelIdeal
import Idealize.ShloMosaic.Lib.ValueIdx
import Idealize.ShloMosaic.PureOps.Ideal.Laws

noncomputable section

namespace Cert.Bridge

open Idealize.ShloMosaic Idealize.ShloMosaic.ValueIdx Cert.KernelIdeal

/-- Edge embedding at (e, h): `ea[e, 0] · w[0, h] + b[0, h]`. -/
def edgeIdx (ea : FVec Ideal S800000x1 .f32) (w b : FVec Ideal S1x64 .f32) : FVec Ideal S800000x64 .f32 :=
  fun i => ea (ix2 (n0 := 800000) (n1 := 1) (i 0) 0) * w (ix2 (n0 := 1) (n1 := 64) 0 (i 1))
    + b (ix2 (n0 := 1) (n1 := 64) 0 (i 1))

/-- The zero and the leaky slope as the two f32 words both programs carry. -/
abbrev zeroR : EReal := Ideal.ofBits .f32 0x00000000#32
abbrev slopeR : EReal := Ideal.ofBits .f32 0x3C23D70A#32

/-- Clip at zero, then the leaky branch: `r = max y 0`, result `r` where `r ≥ 0` and `slope · r` elsewhere. -/
def act (y : EReal) : EReal :=
  Scalar.select (FloatOps.cmpf (F := Ideal) (φ := .f32) .oge (max y zeroR) zeroR) (max y zeroR) (slopeR * max y zeroR)

/-- Node update at (n, h): `act (∑ k < 128, a[n, k] · w[k, h] + b[0, h])`. -/
def nodeIdx (a : FVec Ideal S50000x128 .f32) (w : FVec Ideal S128x64 .f32) (b : FVec Ideal S1x64 .f32) :
    FVec Ideal S50000x64 .f32 :=
  fun i => act ((∑ k : Fin 128, a (ix2 (n0 := 50000) (n1 := 128) (i 0) k) * w (ix2 (n0 := 128) (n1 := 64) k (i 1)))
    + b (ix2 (n0 := 1) (n1 := 64) 0 (i 1)))

/-- Read-out at (g, 0): `∑ k < 64, p[g, k] · w[k, 0] + b[0, 0]`. -/
def fcIdx (p : FVec Ideal S64x64 .f32) (w : FVec Ideal S64x1 .f32) (b : FVec Ideal S1x1 .f32) : FVec Ideal S64x1 .f32 :=
  fun i => (∑ k : Fin 64, p (ix2 (n0 := 64) (n1 := 64) (i 0) k) * w (ix2 (n0 := 64) (n1 := 1) k (i 1)))
    + b (ix2 (n0 := 1) (n1 := 1) 0 0)

end Cert.Bridge

end
-- ==== Proof.RegionEdge0.lean ====
/-
  What the first edge-embedding region leaves in its output array, on the extended reals.

  The region walks 50 row blocks of 16000 rows.  At row block t it reads rows 16000·t … 16000·t + 15999 of the edge
  attribute column (an 800000 × 1 array), the whole 1 × 64 weight row and the whole 1 × 64 bias row, and writes rows
  16000·t … 16000·t + 15999 of the 800000 × 64 output.  The body is pointwise: the column is repeated along the 64
  features, the two rows are repeated along the 16000 rows, and out[r, h] = ea[r, 0] · w[0, h] + b[0, h].  Every row r
  lies in exactly the row block r / 16000, every block is written back, so the whole output array is that one formula
  of the three whole input arrays.
-/
import proofs.«404665_j1864015807087_1_alg».proof.Proof.Gen.KernelIdeal.Frame
import proofs.«404665_j1864015807087_1_alg».proof.Proof.Spec
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.Gen
open Idealize.ShloMosaic Idealize.ShloMosaic.TcCoe Idealize.ShloMosaic.ValueIdx Idealize.SL.Sem
open Idealize.ShloMosaic.Pipeline (Dat Cfg Window)
variable (V : (c : Dev nD) → (b : Ref sig .tc) → Buf (Elt Ideal) ((c : Thread nD τ).loc b))

/-- The offsets of an access to a whole block are zero on both axes. -/
theorem edge_zero_off0 : (![0, 0] : Fin 2 → Nat) = fun _ => 0 :=
  funext fun a => by match a with | ⟨0, _⟩ => rfl | ⟨1, _⟩ => rfl

/-- A column `[a, 1]` repeated along a second axis of extent `b` reads, at `(p, h)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's arithmetic at `(p, h)` of a block: the column entry of row `p` times the weight of feature `h`, plus the
    bias of feature `h`. -/
theorem edge_pay0 (x0 : Vec Ideal S16000x1 .f32) (x1 x2 : Vec Ideal S1x64 .f32) (p : Fin 16000) (q : Fin 64) :
    k0_pay1 (F := Ideal) x0 x1 x2 (ix2 p q)
      = x0 (ix2 p (0 : Fin 1)) * x1 (ix2 (0 : Fin 1) q) + x2 (ix2 (0 : Fin 1) q) := by
  unfold k0_pay1
  simp only [shapeCast_self]
  rw [addf_apply, mulf_apply, broadcastTo_a1_ab_apply, broadcastTo_1b_ab_apply, broadcastTo_1b_ab_apply]

/-- The printed index maps over the 50 row blocks: the attribute column's block moves with the output's row block, the
    weight row and the bias row are the one whole block at every point, and the output's row block at point `t` is `t`. -/
theorem edge_idx0 : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is rows `16000·t … 16000·t + 15999` of the edge embedding of the three arrays as the region
    finds them. -/
theorem edge_flushed0 (c : Dev nD) (t : Fin cfg0.N) :
    (dat0 (F := Ideal) V c).flushed 3 t
      = ((cfg0.win 3).blk t).view.read (Elt Ideal) (Cert.Bridge.edgeIdx (V c main_v4) (V c main_v6) (V c main_v9)) := by
  show (cfg0.win 3).cut (grid0.coords t) ((dat0 (F := Ideal) V c).after 3 t) = _
  rw [after0_3]
  unfold out0_3
  rw [View.canon_unit_zero edge_zero_off0]
  simp only [View.ld_unit_zero (S := S16000x1) edge_zero_off0, View.ld_unit_zero (S := S1x64) edge_zero_off0]
  obtain ⟨e0, e1, e2, e3, e4, e5, e6, e7⟩ := edge_idx0 t
  funext j
  obtain ⟨p, q, rfl⟩ : ∃ (p : Fin 16000) (q : Fin 64), j = ix2 p q := ⟨j 0, j 1, eq_ix2 j⟩
  refine (edge_pay0 (iblk0 V c 0 t) (iblk0 V c 1 t) (iblk0 V c 2 t) p q).trans ?_
  -- each input block read where the output's rectangle says
  have h0 : ((cfg0.win 0).blk t).view.emb (ix2 p (0 : Fin 1))
      = ix2 (n0 := 800000) (n1 := 1) ((((cfg0.win 3).blk t).view.emb (ix2 p q)) 0) 0 := by
    funext a; apply Fin.ext
    match a with
    | ⟨0, _⟩ => show win0_0.index t (0 : Fin 2) * 16000 + 1 * p.val = win0_3.index t (0 : Fin 2) * 16000 + 1 * p.val; rw [e0]
    | ⟨1, _⟩ => show win0_0.index t (1 : Fin 2) * 1 + 1 * 0 = 0; omega
  have h1 : ((cfg0.win 1).blk t).view.emb (ix2 (0 : Fin 1) q)
      = ix2 (n0 := 1) (n1 := 64) 0 ((((cfg0.win 3).blk t).view.emb (ix2 p q)) 1) := by
    funext a; apply Fin.ext
    match a with
    | ⟨0, _⟩ => show win0_1.index t (0 : Fin 2) * 1 + 1 * 0 = 0; omega
    | ⟨1, _⟩ => show win0_1.index t (1 : Fin 2) * 64 + 1 * q.val = win0_3.index t (1 : Fin 2) * 64 + 1 * q.val; omega
  have h2 : ((cfg0.win 2).blk t).view.emb (ix2 (0 : Fin 1) q)
      = ix2 (n0 := 1) (n1 := 64) 0 ((((cfg0.win 3).blk t).view.emb (ix2 p q)) 1) := by
    funext a; apply Fin.ext
    match a with
    | ⟨0, _⟩ => show win0_2.index t (0 : Fin 2) * 1 + 1 * 0 = 0; omega
    | ⟨1, _⟩ => show win0_2.index t (1 : Fin 2) * 64 + 1 * q.val = win0_3.index t (1 : Fin 2) * 64 + 1 * q.val; omega
  have r0 : (iblk0 V c 0 t : Vec Ideal S16000x1 .f32) (ix2 p (0 : Fin 1))
      = V c main_v4 (ix2 (n0 := 800000) (n1 := 1) ((((cfg0.win 3).blk t).view.emb (ix2 p q)) 0) 0) := by
    show V c main_v4 (((cfg0.win 0).blk t).view.emb (ix2 p (0 : Fin 1))) = _
    rw [h0]
  have r1 : (iblk0 V c 1 t : Vec Ideal S1x64 .f32) (ix2 (0 : Fin 1) q)
      = V c main_v6 (ix2 (n0 := 1) (n1 := 64) 0 ((((cfg0.win 3).blk t).view.emb (ix2 p q)) 1)) := by
    show V c main_v6 (((cfg0.win 1).blk t).view.emb (ix2 (0 : Fin 1) q)) = _
    rw [h1]
  have r2 : (iblk0 V c 2 t : Vec Ideal S1x64 .f32) (ix2 (0 : Fin 1) q)
      = V c main_v9 (ix2 (n0 := 1) (n1 := 64) 0 ((((cfg0.win 3).blk t).view.emb (ix2 p q)) 1)) := by
    show V c main_v9 (((cfg0.win 2).blk t).view.emb (ix2 (0 : Fin 1) q)) = _
    rw [h2]
  rw [r0, r1, r2]
  rfl

/-- An index of the output array is in point `t`'s block iff each coordinate is in the block's range on its axis. -/
theorem edge_mem_blk0 (t : Fin cfg0.N) (i : S800000x64.Idx) :
    i ∈ ((cfg0.win 3).blk t).view.set ↔ ∀ a : Fin 2, win0_3.index t a * S16000x64.size a ≤ (i a).val
      ∧ (i a).val < win0_3.index t a * S16000x64.size a + S16000x64.size a := by
  show i ∈ ((View.whole main_v10).slice (win0_3.rect t)).set ↔ _
  rw [View.set_slice_whole, Rect.mem_set_unit]
  exact Iff.rfl

/-- Every row `r` of the output lies in the row block `r / 16000`, which is written back. -/
theorem edge_cover0 (i : S800000x64.Idx) :
    ∃ t : Fin cfg0.N, (cfg0.win 3).flush t = true ∧ i ∈ ((cfg0.win 3).blk t).view.set := by
  have hi0 : (i 0).val < 800000 := idx2_lt0 i
  have hi1 : (i 1).val < 64 := idx2_lt1 i
  have hN : cfg0.N = 50 := N_0
  have ht : (i 0).val / 16000 < cfg0.N := by rw [hN]; omega
  obtain ⟨-, -, -, -, -, -, e6, e7⟩ := edge_idx0 ⟨(i 0).val / 16000, ht⟩
  have e6' : win0_3.index ⟨(i 0).val / 16000, ht⟩ (0 : Fin 2) = (i 0).val / 16000 := e6
  refine ⟨⟨(i 0).val / 16000, ht⟩, flush0_3 _, ?_⟩
  rw [edge_mem_blk0]
  intro a
  match a with
  | ⟨0, _⟩ =>
    show win0_3.index ⟨(i 0).val / 16000, ht⟩ (0 : Fin 2) * 16000 ≤ (i 0).val
      ∧ (i 0).val < win0_3.index ⟨(i 0).val / 16000, ht⟩ (0 : Fin 2) * 16000 + 16000
    omega
  | ⟨1, _⟩ =>
    show win0_3.index ⟨(i 0).val / 16000, ht⟩ (1 : Fin 2) * 64 ≤ (i 1).val
      ∧ (i 1).val < win0_3.index ⟨(i 0).val / 16000, ht⟩ (1 : Fin 2) * 64 + 64
    omega

/-- The output array after the region: the edge embedding of the attribute column, the weight row and the bias row as
    the region finds them. -/
theorem edge_final0 (c : Dev nD) :
    (dat0 (F := Ideal) V c).arrAt 3 cfg0.N = Cert.Bridge.edgeIdx (V c main_v4) (V c main_v6) (V c main_v9) :=
  (dat0 (F := Ideal) V c).arrAt_eq_of_cover 3 (Cert.Bridge.edgeIdx (V c main_v4) (V c main_v6) (V c main_v9))
    (fun t _ => edge_flushed0 V c t) edge_cover0

end Cert.KernelIdeal.Gen
end
-- ==== Proof.RegionEdge2.lean ====
/-
  What the second edge-embedding region leaves in its output array, on the extended reals.

  The region walks 50 row blocks of 16000 rows.  At row block t it reads rows 16000·t … 16000·t + 15999 of the edge
  attribute column (an 800000 × 1 array), the whole 1 × 64 weight row and the whole 1 × 64 bias row, and writes rows
  16000·t … 16000·t + 15999 of the 800000 × 64 output.  The body is pointwise: the column is repeated along the 64
  features, the two rows are repeated along the 16000 rows, and out[r, h] = ea[r, 0] · w[0, h] + b[0, h].  Every row r
  lies in exactly the row block r / 16000, every block is written back, so the whole output array is that one formula
  of the three whole input arrays.
-/
import proofs.«404665_j1864015807087_1_alg».proof.Proof.Gen.KernelIdeal.Frame
import proofs.«404665_j1864015807087_1_alg».proof.Proof.Spec
import proofs.«404665_j1864015807087_1_alg».proof.Proof.RegionEdge0
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.Gen
open Idealize.ShloMosaic Idealize.ShloMosaic.TcCoe Idealize.ShloMosaic.ValueIdx Idealize.SL.Sem
open Idealize.ShloMosaic.Pipeline (Dat Cfg Window)
variable (V : (c : Dev nD) → (b : Ref sig .tc) → Buf (Elt Ideal) ((c : Thread nD τ).loc b))

/-- The body's arithmetic at `(p, h)` of a block: the column entry of row `p` times the weight of feature `h`, plus the
    bias of feature `h`. -/
theorem edge_pay2 (x0 : Vec Ideal S16000x1 .f32) (x1 x2 : Vec Ideal S1x64 .f32) (p : Fin 16000) (q : Fin 64) :
    k2_pay1 (F := Ideal) x0 x1 x2 (ix2 p q)
      = x0 (ix2 p (0 : Fin 1)) * x1 (ix2 (0 : Fin 1) q) + x2 (ix2 (0 : Fin 1) q) := by
  unfold k2_pay1
  simp only [shapeCast_self]
  rw [addf_apply, mulf_apply, broadcastTo_a1_ab_apply, broadcastTo_1b_ab_apply, broadcastTo_1b_ab_apply]

/-- The printed index maps over the 50 row blocks: the attribute column's block moves with the output's row block, the
    weight row and the bias row are the one whole block at every point, and the output's row block at point `t` is `t`. -/
theorem edge_idx2 : ∀ t : Fin cfg2.N,
    win2_0.index t (0 : Fin 2) = win2_3.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point `t` writes back is rows `16000·t … 16000·t + 15999` of the edge embedding of the three arrays as the region
    finds them. -/
theorem edge_flushed2 (c : Dev nD) (t : Fin cfg2.N) :
    (dat2 (F := Ideal) V c).flushed 3 t
      = ((cfg2.win 3).blk t).view.read (Elt Ideal) (Cert.Bridge.edgeIdx (V c main_v4) (V c main_v23) (V c main_v26)) := by
  show (cfg2.win 3).cut (grid2.coords t) ((dat2 (F := Ideal) V c).after 3 t) = _
  rw [after2_3]
  unfold out2_3
  rw [View.canon_unit_zero edge_zero_off0]
  simp only [View.ld_unit_zero (S := S16000x1) edge_zero_off0, View.ld_unit_zero (S := S1x64) edge_zero_off0]
  obtain ⟨e0, e1, e2, e3, e4, e5, e6, e7⟩ := edge_idx2 t
  funext j
  obtain ⟨p, q, rfl⟩ : ∃ (p : Fin 16000) (q : Fin 64), j = ix2 p q := ⟨j 0, j 1, eq_ix2 j⟩
  refine (edge_pay2 (iblk2 V c 0 t) (iblk2 V c 1 t) (iblk2 V c 2 t) p q).trans ?_
  -- each input block read where the output's rectangle says
  have h0 : ((cfg2.win 0).blk t).view.emb (ix2 p (0 : Fin 1))
      = ix2 (n0 := 800000) (n1 := 1) ((((cfg2.win 3).blk t).view.emb (ix2 p q)) 0) 0 := by
    funext a; apply Fin.ext
    match a with
    | ⟨0, _⟩ => show win2_0.index t (0 : Fin 2) * 16000 + 1 * p.val = win2_3.index t (0 : Fin 2) * 16000 + 1 * p.val; rw [e0]
    | ⟨1, _⟩ => show win2_0.index t (1 : Fin 2) * 1 + 1 * 0 = 0; omega
  have h1 : ((cfg2.win 1).blk t).view.emb (ix2 (0 : Fin 1) q)
      = ix2 (n0 := 1) (n1 := 64) 0 ((((cfg2.win 3).blk t).view.emb (ix2 p q)) 1) := by
    funext a; apply Fin.ext
    match a with
    | ⟨0, _⟩ => show win2_1.index t (0 : Fin 2) * 1 + 1 * 0 = 0; omega
    | ⟨1, _⟩ => show win2_1.index t (1 : Fin 2) * 64 + 1 * q.val = win2_3.index t (1 : Fin 2) * 64 + 1 * q.val; omega
  have h2 : ((cfg2.win 2).blk t).view.emb (ix2 (0 : Fin 1) q)
      = ix2 (n0 := 1) (n1 := 64) 0 ((((cfg2.win 3).blk t).view.emb (ix2 p q)) 1) := by
    funext a; apply Fin.ext
    match a with
    | ⟨0, _⟩ => show win2_2.index t (0 : Fin 2) * 1 + 1 * 0 = 0; omega
    | ⟨1, _⟩ => show win2_2.index t (1 : Fin 2) * 64 + 1 * q.val = win2_3.index t (1 : Fin 2) * 64 + 1 * q.val; omega
  have r0 : (iblk2 V c 0 t : Vec Ideal S16000x1 .f32) (ix2 p (0 : Fin 1))
      = V c main_v4 (ix2 (n0 := 800000) (n1 := 1) ((((cfg2.win 3).blk t).view.emb (ix2 p q)) 0) 0) := by
    show V c main_v4 (((cfg2.win 0).blk t).view.emb (ix2 p (0 : Fin 1))) = _
    rw [h0]
  have r1 : (iblk2 V c 1 t : Vec Ideal S1x64 .f32) (ix2 (0 : Fin 1) q)
      = V c main_v23 (ix2 (n0 := 1) (n1 := 64) 0 ((((cfg2.win 3).blk t).view.emb (ix2 p q)) 1)) := by
    show V c main_v23 (((cfg2.win 1).blk t).view.emb (ix2 (0 : Fin 1) q)) = _
    rw [h1]
  have r2 : (iblk2 V c 2 t : Vec Ideal S1x64 .f32) (ix2 (0 : Fin 1) q)
      = V c main_v26 (ix2 (n0 := 1) (n1 := 64) 0 ((((cfg2.win 3).blk t).view.emb (ix2 p q)) 1)) := by
    show V c main_v26 (((cfg2.win 2).blk t).view.emb (ix2 (0 : Fin 1) q)) = _
    rw [h2]
  rw [r0, r1, r2]
  rfl

/-- An index of the output array is in point `t`'s block iff each coordinate is in the block's range on its axis. -/
theorem edge_mem_blk2 (t : Fin cfg2.N) (i : S800000x64.Idx) :
    i ∈ ((cfg2.win 3).blk t).view.set ↔ ∀ a : Fin 2, win2_3.index t a * S16000x64.size a ≤ (i a).val
      ∧ (i a).val < win2_3.index t a * S16000x64.size a + S16000x64.size a := by
  show i ∈ ((View.whole main_v27).slice (win2_3.rect t)).set ↔ _
  rw [View.set_slice_whole, Rect.mem_set_unit]
  exact Iff.rfl

/-- Every row `r` of the output lies in the row block `r / 16000`, which is written back. -/
theorem edge_cover2 (i : S800000x64.Idx) :
    ∃ t : Fin cfg2.N, (cfg2.win 3).flush t = true ∧ i ∈ ((cfg2.win 3).blk t).view.set := by
  have hi0 : (i 0).val < 800000 := idx2_lt0 i
  have hi1 : (i 1).val < 64 := idx2_lt1 i
  have hN : cfg2.N = 50 := N_2
  have ht : (i 0).val / 16000 < cfg2.N := by rw [hN]; omega
  obtain ⟨-, -, -, -, -, -, e6, e7⟩ := edge_idx2 ⟨(i 0).val / 16000, ht⟩
  have e6' : win2_3.index ⟨(i 0).val / 16000, ht⟩ (0 : Fin 2) = (i 0).val / 16000 := e6
  refine ⟨⟨(i 0).val / 16000, ht⟩, flush2_3 _, ?_⟩
  rw [edge_mem_blk2]
  intro a
  match a with
  | ⟨0, _⟩ =>
    show win2_3.index ⟨(i 0).val / 16000, ht⟩ (0 : Fin 2) * 16000 ≤ (i 0).val
      ∧ (i 0).val < win2_3.index ⟨(i 0).val / 16000, ht⟩ (0 : Fin 2) * 16000 + 16000
    omega
  | ⟨1, _⟩ =>
    show win2_3.index ⟨(i 0).val / 16000, ht⟩ (1 : Fin 2) * 64 ≤ (i 1).val
      ∧ (i 1).val < win2_3.index ⟨(i 0).val / 16000, ht⟩ (1 : Fin 2) * 64 + 64
    omega

/-- The output array after the region: the edge embedding of the attribute column, the weight row and the bias row as
    the region finds them. -/
theorem edge_final2 (c : Dev nD) :
    (dat2 (F := Ideal) V c).arrAt 3 cfg2.N = Cert.Bridge.edgeIdx (V c main_v4) (V c main_v23) (V c main_v26) :=
  (dat2 (F := Ideal) V c).arrAt_eq_of_cover 3 (Cert.Bridge.edgeIdx (V c main_v4) (V c main_v23) (V c main_v26))
    (fun t _ => edge_flushed2 V c t) edge_cover2

end Cert.KernelIdeal.Gen
end
-- ==== Proof.RegionEdge4.lean ====
/-
  What the third edge-embedding region leaves in its output array, on the extended reals.

  The region walks 50 row blocks of 16000 rows.  At row block t it reads rows 16000·t … 16000·t + 15999 of the edge
  attribute column (an 800000 × 1 array), the whole 1 × 64 weight row and the whole 1 × 64 bias row, and writes rows
  16000·t … 16000·t + 15999 of the 800000 × 64 output.  The body is pointwise: the column is repeated along the 64
  features, the two rows are repeated along the 16000 rows, and out[r, h] = ea[r, 0] · w[0, h] + b[0, h].  Every row r
  lies in exactly the row block r / 16000, every block is written back, so the whole output array is that one formula
  of the three whole input arrays.
-/
import proofs.«404665_j1864015807087_1_alg».proof.Proof.Gen.KernelIdeal.Frame
import proofs.«404665_j1864015807087_1_alg».proof.Proof.Spec
import proofs.«404665_j1864015807087_1_alg».proof.Proof.RegionEdge0
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.Gen
open Idealize.ShloMosaic Idealize.ShloMosaic.TcCoe Idealize.ShloMosaic.ValueIdx Idealize.SL.Sem
open Idealize.ShloMosaic.Pipeline (Dat Cfg Window)
variable (V : (c : Dev nD) → (b : Ref sig .tc) → Buf (Elt Ideal) ((c : Thread nD τ).loc b))

/-- The body's arithmetic at `(p, h)` of a block: the column entry of row `p` times the weight of feature `h`, plus the
    bias of feature `h`. -/
theorem edge_pay4 (x0 : Vec Ideal S16000x1 .f32) (x1 x2 : Vec Ideal S1x64 .f32) (p : Fin 16000) (q : Fin 64) :
    k4_pay1 (F := Ideal) x0 x1 x2 (ix2 p q)
      = x0 (ix2 p (0 : Fin 1)) * x1 (ix2 (0 : Fin 1) q) + x2 (ix2 (0 : Fin 1) q) := by
  unfold k4_pay1
  simp only [shapeCast_self]
  rw [addf_apply, mulf_apply, broadcastTo_a1_ab_apply, broadcastTo_1b_ab_apply, broadcastTo_1b_ab_apply]

/-- The printed index maps over the 50 row blocks: the attribute column's block moves with the output's row block, the
    weight row and the bias row are the one whole block at every point, and the output's row block at point `t` is `t`. -/
theorem edge_idx4 : ∀ t : Fin cfg4.N,
    win4_0.index t (0 : Fin 2) = win4_3.index t (0 : Fin 2) ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What point `t` writes back is rows `16000·t … 16000·t + 15999` of the edge embedding of the three arrays as the region
    finds them. -/
theorem edge_flushed4 (c : Dev nD) (t : Fin cfg4.N) :
    (dat4 (F := Ideal) V c).flushed 3 t
      = ((cfg4.win 3).blk t).view.read (Elt Ideal) (Cert.Bridge.edgeIdx (V c main_v4) (V c main_v40) (V c main_v43)) := by
  show (cfg4.win 3).cut (grid4.coords t) ((dat4 (F := Ideal) V c).after 3 t) = _
  rw [after4_3]
  unfold out4_3
  rw [View.canon_unit_zero edge_zero_off0]
  simp only [View.ld_unit_zero (S := S16000x1) edge_zero_off0, View.ld_unit_zero (S := S1x64) edge_zero_off0]
  obtain ⟨e0, e1, e2, e3, e4, e5, e6, e7⟩ := edge_idx4 t
  funext j
  obtain ⟨p, q, rfl⟩ : ∃ (p : Fin 16000) (q : Fin 64), j = ix2 p q := ⟨j 0, j 1, eq_ix2 j⟩
  refine (edge_pay4 (iblk4 V c 0 t) (iblk4 V c 1 t) (iblk4 V c 2 t) p q).trans ?_
  -- each input block read where the output's rectangle says
  have h0 : ((cfg4.win 0).blk t).view.emb (ix2 p (0 : Fin 1))
      = ix2 (n0 := 800000) (n1 := 1) ((((cfg4.win 3).blk t).view.emb (ix2 p q)) 0) 0 := by
    funext a; apply Fin.ext
    match a with
    | ⟨0, _⟩ => show win4_0.index t (0 : Fin 2) * 16000 + 1 * p.val = win4_3.index t (0 : Fin 2) * 16000 + 1 * p.val; rw [e0]
    | ⟨1, _⟩ => show win4_0.index t (1 : Fin 2) * 1 + 1 * 0 = 0; omega
  have h1 : ((cfg4.win 1).blk t).view.emb (ix2 (0 : Fin 1) q)
      = ix2 (n0 := 1) (n1 := 64) 0 ((((cfg4.win 3).blk t).view.emb (ix2 p q)) 1) := by
    funext a; apply Fin.ext
    match a with
    | ⟨0, _⟩ => show win4_1.index t (0 : Fin 2) * 1 + 1 * 0 = 0; omega
    | ⟨1, _⟩ => show win4_1.index t (1 : Fin 2) * 64 + 1 * q.val = win4_3.index t (1 : Fin 2) * 64 + 1 * q.val; omega
  have h2 : ((cfg4.win 2).blk t).view.emb (ix2 (0 : Fin 1) q)
      = ix2 (n0 := 1) (n1 := 64) 0 ((((cfg4.win 3).blk t).view.emb (ix2 p q)) 1) := by
    funext a; apply Fin.ext
    match a with
    | ⟨0, _⟩ => show win4_2.index t (0 : Fin 2) * 1 + 1 * 0 = 0; omega
    | ⟨1, _⟩ => show win4_2.index t (1 : Fin 2) * 64 + 1 * q.val = win4_3.index t (1 : Fin 2) * 64 + 1 * q.val; omega
  have r0 : (iblk4 V c 0 t : Vec Ideal S16000x1 .f32) (ix2 p (0 : Fin 1))
      = V c main_v4 (ix2 (n0 := 800000) (n1 := 1) ((((cfg4.win 3).blk t).view.emb (ix2 p q)) 0) 0) := by
    show V c main_v4 (((cfg4.win 0).blk t).view.emb (ix2 p (0 : Fin 1))) = _
    rw [h0]
  have r1 : (iblk4 V c 1 t : Vec Ideal S1x64 .f32) (ix2 (0 : Fin 1) q)
      = V c main_v40 (ix2 (n0 := 1) (n1 := 64) 0 ((((cfg4.win 3).blk t).view.emb (ix2 p q)) 1)) := by
    show V c main_v40 (((cfg4.win 1).blk t).view.emb (ix2 (0 : Fin 1) q)) = _
    rw [h1]
  have r2 : (iblk4 V c 2 t : Vec Ideal S1x64 .f32) (ix2 (0 : Fin 1) q)
      = V c main_v43 (ix2 (n0 := 1) (n1 := 64) 0 ((((cfg4.win 3).blk t).view.emb (ix2 p q)) 1)) := by
    show V c main_v43 (((cfg4.win 2).blk t).view.emb (ix2 (0 : Fin 1) q)) = _
    rw [h2]
  rw [r0, r1, r2]
  rfl

/-- An index of the output array is in point `t`'s block iff each coordinate is in the block's range on its axis. -/
theorem edge_mem_blk4 (t : Fin cfg4.N) (i : S800000x64.Idx) :
    i ∈ ((cfg4.win 3).blk t).view.set ↔ ∀ a : Fin 2, win4_3.index t a * S16000x64.size a ≤ (i a).val
      ∧ (i a).val < win4_3.index t a * S16000x64.size a + S16000x64.size a := by
  show i ∈ ((View.whole main_v44).slice (win4_3.rect t)).set ↔ _
  rw [View.set_slice_whole, Rect.mem_set_unit]
  exact Iff.rfl

/-- Every row `r` of the output lies in the row block `r / 16000`, which is written back. -/
theorem edge_cover4 (i : S800000x64.Idx) :
    ∃ t : Fin cfg4.N, (cfg4.win 3).flush t = true ∧ i ∈ ((cfg4.win 3).blk t).view.set := by
  have hi0 : (i 0).val < 800000 := idx2_lt0 i
  have hi1 : (i 1).val < 64 := idx2_lt1 i
  have hN : cfg4.N = 50 := N_4
  have ht : (i 0).val / 16000 < cfg4.N := by rw [hN]; omega
  obtain ⟨-, -, -, -, -, -, e6, e7⟩ := edge_idx4 ⟨(i 0).val / 16000, ht⟩
  have e6' : win4_3.index ⟨(i 0).val / 16000, ht⟩ (0 : Fin 2) = (i 0).val / 16000 := e6
  refine ⟨⟨(i 0).val / 16000, ht⟩, flush4_3 _, ?_⟩
  rw [edge_mem_blk4]
  intro a
  match a with
  | ⟨0, _⟩ =>
    show win4_3.index ⟨(i 0).val / 16000, ht⟩ (0 : Fin 2) * 16000 ≤ (i 0).val
      ∧ (i 0).val < win4_3.index ⟨(i 0).val / 16000, ht⟩ (0 : Fin 2) * 16000 + 16000
    omega
  | ⟨1, _⟩ =>
    show win4_3.index ⟨(i 0).val / 16000, ht⟩ (1 : Fin 2) * 64 ≤ (i 1).val
      ∧ (i 1).val < win4_3.index ⟨(i 0).val / 16000, ht⟩ (1 : Fin 2) * 64 + 64
    omega

/-- The output array after the region: the edge embedding of the attribute column, the weight row and the bias row as
    the region finds them. -/
theorem edge_final4 (c : Dev nD) :
    (dat4 (F := Ideal) V c).arrAt 3 cfg4.N = Cert.Bridge.edgeIdx (V c main_v4) (V c main_v40) (V c main_v43) :=
  (dat4 (F := Ideal) V c).arrAt_eq_of_cover 3 (Cert.Bridge.edgeIdx (V c main_v4) (V c main_v40) (V c main_v43))
    (fun t _ => edge_flushed4 V c t) edge_cover4

end Cert.KernelIdeal.Gen
end
-- ==== Proof.RegionNode1.lean ====
import proofs.«404665_j1864015807087_1_alg».proof.Proof.Gen.KernelIdeal.Frame
import proofs.«404665_j1864015807087_1_alg».proof.Proof.Spec
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.Gen
open Idealize.ShloMosaic Idealize.ShloMosaic.TcCoe Idealize.ShloMosaic.ValueIdx Idealize.SL.Sem
open Idealize.ShloMosaic.Pipeline (Dat Cfg Window)
variable (V : (c : Dev nD) → (b : Ref sig .tc) → Buf (Elt Ideal) ((c : Thread nD τ).loc b))

/-! ## The [10000,128] × [128,64] contraction: its operand indices, and its sum over the 128 inner positions

At output index (r, h) and inner position k the left operand is read at (r, k) and the right operand at (k, h). -/

/-- The left operand's row is the output's row. -/
theorem lhs_dot_S10000x128_S128x64_S10000x64_1_0_0_1_n_n_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
/-- The left operand's column is the inner position. -/
theorem lhs_dot_S10000x128_S128x64_S10000x64_1_0_0_1_n_n_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
/-- The right operand's row is the inner position. -/
theorem rhs_dot_S10000x128_S128x64_S10000x64_1_0_0_1_n_n_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
/-- The right operand's column is the output's column. -/
theorem rhs_dot_S10000x128_S128x64_S10000x64_1_0_0_1_n_n_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The product into the zero accumulator, at (r, h), is the inner product of the left operand's row r with the right
    operand's column h over the 128 inner positions. -/
theorem matmul_dot_S10000x128_S128x64_S10000x64_1_0_0_1_n_n_zero_apply (x : FVec Ideal S10000x128 .bf16) (y : FVec Ideal S128x64 .bf16) (p : Fin 10000) (q : Fin 64) :
    matmul dot_S10000x128_S128x64_S10000x64_1_0_0_1_n_n none x y (constant (F := Ideal) S10000x64 .f32 0x00000000#32) (ix2 p q)
      = ∑ k : Fin 128, x (ix2 (n0 := 10000) (n1 := 128) p k) * y (ix2 (n0 := 128) (n1 := 64) k q) := by
  simp only [matmul]
  rw [Ideal.matmul_constant_zero_apply, ← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p q) ((contrEquiv1 dot_S10000x128_S128x64_S10000x64_1_0_0_1_n_n 128 rfl rfl).symm k) = ix2 (n0 := 10000) (n1 := 128) p k := funext fun a => Fin.ext (by
    match a with
    | ⟨0, _⟩ => exact lhs_dot_S10000x128_S128x64_S10000x64_1_0_0_1_n_n_0 _ _
    | ⟨1, _⟩ => exact (lhs_dot_S10000x128_S128x64_S10000x64_1_0_0_1_n_n_1 _ _).trans hk)
  have er : dot_S10000x128_S128x64_S10000x64_1_0_0_1_n_n.rhsIdx (ix2 p q) ((contrEquiv1 dot_S10000x128_S128x64_S10000x64_1_0_0_1_n_n 128 rfl rfl).symm k) = ix2 (n0 := 128) (n1 := 64) k q := funext fun a => Fin.ext (by
    match a with
    | ⟨0, _⟩ => exact (rhs_dot_S10000x128_S128x64_S10000x64_1_0_0_1_n_n_0 _ _).trans hk
    | ⟨1, _⟩ => exact rhs_dot_S10000x128_S128x64_S10000x64_1_0_0_1_n_n_1 _ _)
  rw [el, er]

/-! ## The node update's arithmetic at one entry of a block -/

/-- The body's value at entry (r, h) of its block: the inner product of row r of the node block with column h of the
    weights, plus the bias at h, clipped at zero and passed through the leaky slope. -/
theorem k1_pay1_apply (x0 : Vec Ideal S10000x128 .f32) (x1 : Vec Ideal S128x64 .f32) (x2 : Vec Ideal S1x64 .f32) (p : Fin 10000) (q : Fin 64) :
    k1_pay1 (F := Ideal) x0 x1 x2 (ix2 p q)
      = Cert.Bridge.act ((∑ k : Fin 128, x0 (ix2 (n0 := 10000) (n1 := 128) p k) * x1 (ix2 (n0 := 128) (n1 := 64) k q))
          + x2 (ix2 (n0 := 1) (n1 := 64) 0 q)) := by
  unfold k1_pay1
  simp only [select_apply, cmpf_apply, mulf_apply, maximumf_apply, addf_apply, broadcast_apply, shapeCast_self]
  rw [matmul_dot_S10000x128_S128x64_S10000x64_1_0_0_1_n_n_zero_apply, broadcastTo_1b_ab_apply]
  simp only [truncf_apply]
  rfl

/-- The entry of a block at (r, h), against the whole arrays: when row r of the node block is row n of the node array, and
    the weights' column and the bias's entry at h are those at the array's column, the body's value there is the node
    update at (n, that column). -/
theorem k1_pay1_eq_nodeIdx (a : FVec Ideal S50000x128 .f32) (w : FVec Ideal S128x64 .f32) (b : FVec Ideal S1x64 .f32)
    (x0 : Vec Ideal S10000x128 .f32) (x1 : Vec Ideal S128x64 .f32) (x2 : Vec Ideal S1x64 .f32)
    (y : S10000x64.Idx) (i : S50000x64.Idx)
    (h0 : ∀ k : Fin 128, x0 (ix2 (n0 := 10000) (n1 := 128) (y 0) k) = a (ix2 (n0 := 50000) (n1 := 128) (i 0) k))
    (h1 : ∀ k : Fin 128, x1 (ix2 (n0 := 128) (n1 := 64) k (y 1)) = w (ix2 (n0 := 128) (n1 := 64) k (i 1)))
    (h2 : x2 (ix2 (n0 := 1) (n1 := 64) 0 (y 1)) = b (ix2 (n0 := 1) (n1 := 64) 0 (i 1))) :
    k1_pay1 (F := Ideal) x0 x1 x2 y = Cert.Bridge.nodeIdx a w b i := by
  obtain ⟨p, q, rfl⟩ : ∃ (p : Fin 10000) (q : Fin 64), y = ix2 p q := ⟨y 0, y 1, eq_ix2 y⟩
  rw [k1_pay1_apply]
  unfold Cert.Bridge.nodeIdx
  refine congrArg Cert.Bridge.act ?_
  refine congrArg₂ (· + ·) (Finset.sum_congr rfl fun k _ => congrArg₂ (· * ·) (h0 k) (h1 k)) h2

/-! ## Region 1: the node update of the node array `main_v15` by the weights `main_v17` and the bias `main_v20`

Five points; point t holds rows 10000·t … 10000·t + 9999 of the node array and of the result, and the whole of the
weights and of the bias. -/

theorem zero_offsets1 : (![0, 0] : Fin 2 → Nat) = fun _ => 0 :=
  funext fun a => match a with | ⟨0, _⟩ => rfl | ⟨1, _⟩ => rfl

/-- The printed index maps over the five points: the node block and the result block are at row block t, column block 0;
    the weights and the bias are at block (0, 0). -/
theorem node_index_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The node block at point t is rows 10000·t … of the node array. -/
theorem node_rows1 (c : Dev nD) (t : Fin cfg1.N) (y : S10000x128.Idx) (i : S50000x128.Idx)
    (h0 : (i 0).val = t.val * 10000 + (y 0).val) (h1 : (i 1).val = (y 1).val) :
    (iblk1 V c 0 t : Vec Ideal S10000x128 .f32) y = (V c main_v15 : S50000x128.Idx → EReal) i := by
  obtain ⟨e0, e1, -⟩ := node_index_facts1 t
  unfold iblk1
  rw [View.read_apply]
  show V c main_v15 _ = V c main_v15 _
  congr 1
  funext a
  apply Fin.ext
  match a with
  | ⟨0, _⟩ => show win1_0.index t 0 * 10000 + 1 * (y 0).val = (i 0).val; rw [e0, h0]; omega
  | ⟨1, _⟩ => show win1_0.index t 1 * 128 + 1 * (y 1).val = (i 1).val; rw [e1, h1]; omega

/-- The weights' block at every point is the weights' array. -/
theorem node_weights1 (c : Dev nD) (t : Fin cfg1.N) (y : S128x64.Idx) :
    (iblk1 V c 1 t : Vec Ideal S128x64 .f32) y = (V c main_v17 : S128x64.Idx → EReal) y := by
  obtain ⟨-, -, e0, e1, -⟩ := node_index_facts1 t
  unfold iblk1
  rw [View.read_apply]
  show V c main_v17 _ = V c main_v17 _
  congr 1
  funext a
  apply Fin.ext
  match a with
  | ⟨0, _⟩ => show win1_1.index t 0 * 128 + 1 * (y 0).val = (y 0).val; rw [e0]; omega
  | ⟨1, _⟩ => show win1_1.index t 1 * 64 + 1 * (y 1).val = (y 1).val; rw [e1]; omega

/-- The bias's block at every point is the bias's array. -/
theorem node_bias1 (c : Dev nD) (t : Fin cfg1.N) (y : S1x64.Idx) :
    (iblk1 V c 2 t : Vec Ideal S1x64 .f32) y = (V c main_v20 : S1x64.Idx → EReal) y := by
  obtain ⟨-, -, -, -, e0, e1, -⟩ := node_index_facts1 t
  unfold iblk1
  rw [View.read_apply]
  show V c main_v20 _ = V c main_v20 _
  congr 1
  funext a
  apply Fin.ext
  match a with
  | ⟨0, _⟩ => show win1_2.index t 0 * 1 + 1 * (y 0).val = (y 0).val; rw [e0]; omega
  | ⟨1, _⟩ => show win1_2.index t 1 * 64 + 1 * (y 1).val = (y 1).val; rw [e1]; omega

/-- What point t writes back is block t of the node update of the three arrays as the region finds them. -/
theorem node_flushed1 (c : Dev nD) (t : Fin cfg1.N) :
    (dat1 (F := Ideal) V c).flushed 3 t
      = ((cfg1.win 3).blk t).view.read (Elt Ideal) (Cert.Bridge.nodeIdx (V c main_v15) (V c main_v17) (V c main_v20)) := by
  show (cfg1.win 3).cut (grid1.coords t) ((dat1 V c).after 3 t) = _
  rw [after1_3]
  unfold out1_3
  rw [View.canon_unit_zero zero_offsets1]
  simp only [View.ld_unit_zero (S := S10000x128) zero_offsets1, View.ld_unit_zero (S := S128x64) zero_offsets1,
    View.ld_unit_zero (S := S1x64) zero_offsets1]
  obtain ⟨-, -, -, -, -, -, e0, e1⟩ := node_index_facts1 t
  funext j
  rw [View.read_apply]
  show k1_pay1 (F := Ideal) (iblk1 V c 0 t) (iblk1 V c 1 t) (iblk1 V c 2 t) (fun a => ⟨(j a).val, _⟩)
    = Cert.Bridge.nodeIdx (V c main_v15) (V c main_v17) (V c main_v20) (((cfg1.win 3).blk t).view.emb j)
  refine k1_pay1_eq_nodeIdx _ _ _ _ _ _ _ _ (fun k => ?_) (fun k => ?_) ?_
  · refine node_rows1 V c t _ _ ?_ rfl
    show win1_3.index t 0 * 10000 + 1 * (j 0).val = t.val * 10000 + (j 0).val
    rw [e0]; omega
  · refine (node_weights1 V c t _).trans (congrArg (V c main_v17 : S128x64.Idx → EReal) ?_)
    funext a
    apply Fin.ext
    match a with
    | ⟨0, _⟩ => rfl
    | ⟨1, _⟩ => show (j 1).val = win1_3.index t 1 * 64 + 1 * (j 1).val; rw [e1]; omega
  · refine (node_bias1 V c t _).trans (congrArg (V c main_v20 : S1x64.Idx → EReal) ?_)
    funext a
    apply Fin.ext
    match a with
    | ⟨0, _⟩ => rfl
    | ⟨1, _⟩ => show (j 1).val = win1_3.index t 1 * 64 + 1 * (j 1).val; rw [e1]; omega

/-- An index of the result array is in point t's block iff each coordinate is in the block's range on its axis. -/
theorem node_mem_blk1 (t : Fin cfg1.N) (i : S50000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v21).slice (win1_3.rect t)).set ↔ _
  rw [View.set_slice_whole, Rect.mem_set_unit]
  exact Iff.rfl

/-- Row n of the result is in the block of point n / 10000. -/
theorem node_cover1 (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  have hN : grid1.N = 5 := N_1
  let t : Fin cfg1.N := ⟨(i 0).val / 10000, by show (i 0).val / 10000 < grid1.N; rw [hN]; omega⟩
  obtain ⟨-, -, -, -, -, -, e0, e1⟩ := node_index_facts1 t
  have ht : t.val = (i 0).val / 10000 := rfl
  refine ⟨t, flush1_3 t, ?_⟩
  rw [node_mem_blk1]
  intro a
  match a with
  | ⟨0, _⟩ => show win1_3.index t (0 : Fin 2) * 10000 ≤ (i 0).val ∧ (i 0).val < win1_3.index t (0 : Fin 2) * 10000 + 10000; rw [e0, ht]; omega
  | ⟨1, _⟩ => show win1_3.index t (1 : Fin 2) * 64 ≤ (i 1).val ∧ (i 1).val < win1_3.index t (1 : Fin 2) * 64 + 64; rw [e1]; omega

/-- The result array after region 1 is the node update of the three input arrays as the region finds them. -/
theorem node_final1 (c : Dev nD) :
    (dat1 (F := Ideal) V c).arrAt 3 cfg1.N = Cert.Bridge.nodeIdx (V c main_v15) (V c main_v17) (V c main_v20) :=
  (dat1 (F := Ideal) V c).arrAt_eq_of_cover 3 (Cert.Bridge.nodeIdx (V c main_v15) (V c main_v17) (V c main_v20))
    (fun t _ => node_flushed1 V c t) node_cover1

end Cert.KernelIdeal.Gen
end
-- ==== Proof.RegionNode3.lean ====
import proofs.«404665_j1864015807087_1_alg».proof.Proof.Gen.KernelIdeal.Frame
import proofs.«404665_j1864015807087_1_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«404665_j1864015807087_1_alg».proof.Proof.RegionNode1
set_option maxRecDepth 16384
noncomputable section
namespace Cert.KernelIdeal.Gen
open Idealize.ShloMosaic Idealize.ShloMosaic.TcCoe Idealize.ShloMosaic.ValueIdx Idealize.SL.Sem
open Idealize.ShloMosaic.Pipeline (Dat Cfg Window)
variable (V : (c : Dev nD) → (b : Ref sig .tc) → Buf (Elt Ideal) ((c : Thread nD τ).loc b))

/-! ## The node update's arithmetic at one entry of a block -/

/-- The body's value at entry (r, h) of its block: the inner product of row r of the node block with column h of the
    weights, plus the bias at h, clipped at zero and passed through the leaky slope. -/
theorem k3_pay1_apply (x0 : Vec Ideal S10000x128 .f32) (x1 : Vec Ideal S128x64 .f32) (x2 : Vec Ideal S1x64 .f32) (p : Fin 10000) (q : Fin 64) :
    k3_pay1 (F := Ideal) x0 x1 x2 (ix2 p q)
      = Cert.Bridge.act ((∑ k : Fin 128, x0 (ix2 (n0 := 10000) (n1 := 128) p k) * x1 (ix2 (n0 := 128) (n1 := 64) k q))
          + x2 (ix2 (n0 := 1) (n1 := 64) 0 q)) := by
  unfold k3_pay1
  simp only [select_apply, cmpf_apply, mulf_apply, maximumf_apply, addf_apply, broadcast_apply, shapeCast_self]
  rw [matmul_dot_S10000x128_S128x64_S10000x64_1_0_0_1_n_n_zero_apply, broadcastTo_1b_ab_apply]
  simp only [truncf_apply]
  rfl

/-- The entry of a block at (r, h), against the whole arrays: when row r of the node block is row n of the node array, and
    the weights' column and the bias's entry at h are those at the array's column, the body's value there is the node
    update at (n, that column). -/
theorem k3_pay1_eq_nodeIdx (a : FVec Ideal S50000x128 .f32) (w : FVec Ideal S128x64 .f32) (b : FVec Ideal S1x64 .f32)
    (x0 : Vec Ideal S10000x128 .f32) (x1 : Vec Ideal S128x64 .f32) (x2 : Vec Ideal S1x64 .f32)
    (y : S10000x64.Idx) (i : S50000x64.Idx)
    (h0 : ∀ k : Fin 128, x0 (ix2 (n0 := 10000) (n1 := 128) (y 0) k) = a (ix2 (n0 := 50000) (n1 := 128) (i 0) k))
    (h1 : ∀ k : Fin 128, x1 (ix2 (n0 := 128) (n1 := 64) k (y 1)) = w (ix2 (n0 := 128) (n1 := 64) k (i 1)))
    (h2 : x2 (ix2 (n0 := 1) (n1 := 64) 0 (y 1)) = b (ix2 (n0 := 1) (n1 := 64) 0 (i 1))) :
    k3_pay1 (F := Ideal) x0 x1 x2 y = Cert.Bridge.nodeIdx a w b i := by
  obtain ⟨p, q, rfl⟩ : ∃ (p : Fin 10000) (q : Fin 64), y = ix2 p q := ⟨y 0, y 1, eq_ix2 y⟩
  rw [k3_pay1_apply]
  unfold Cert.Bridge.nodeIdx
  refine congrArg Cert.Bridge.act ?_
  refine congrArg₂ (· + ·) (Finset.sum_congr rfl fun k _ => congrArg₂ (· * ·) (h0 k) (h1 k)) h2

/-! ## Region 3: the node update of the node array `main_v32` by the weights `main_v34` and the bias `main_v37`

Five points; point t holds rows 10000·t … 10000·t + 9999 of the node array and of the result, and the whole of the
weights and of the bias. -/

theorem zero_offsets3 : (![0, 0] : Fin 2 → Nat) = fun _ => 0 :=
  funext fun a => match a with | ⟨0, _⟩ => rfl | ⟨1, _⟩ => rfl

/-- The printed index maps over the five points: the node block and the result block are at row block t, column block 0;
    the weights and the bias are at block (0, 0). -/
theorem node_index_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The node block at point t is rows 10000·t … of the node array. -/
theorem node_rows3 (c : Dev nD) (t : Fin cfg3.N) (y : S10000x128.Idx) (i : S50000x128.Idx)
    (h0 : (i 0).val = t.val * 10000 + (y 0).val) (h1 : (i 1).val = (y 1).val) :
    (iblk3 V c 0 t : Vec Ideal S10000x128 .f32) y = (V c main_v32 : S50000x128.Idx → EReal) i := by
  obtain ⟨e0, e1, -⟩ := node_index_facts3 t
  unfold iblk3
  rw [View.read_apply]
  show V c main_v32 _ = V c main_v32 _
  congr 1
  funext a
  apply Fin.ext
  match a with
  | ⟨0, _⟩ => show win3_0.index t 0 * 10000 + 1 * (y 0).val = (i 0).val; rw [e0, h0]; omega
  | ⟨1, _⟩ => show win3_0.index t 1 * 128 + 1 * (y 1).val = (i 1).val; rw [e1, h1]; omega

/-- The weights' block at every point is the weights' array. -/
theorem node_weights3 (c : Dev nD) (t : Fin cfg3.N) (y : S128x64.Idx) :
    (iblk3 V c 1 t : Vec Ideal S128x64 .f32) y = (V c main_v34 : S128x64.Idx → EReal) y := by
  obtain ⟨-, -, e0, e1, -⟩ := node_index_facts3 t
  unfold iblk3
  rw [View.read_apply]
  show V c main_v34 _ = V c main_v34 _
  congr 1
  funext a
  apply Fin.ext
  match a with
  | ⟨0, _⟩ => show win3_1.index t 0 * 128 + 1 * (y 0).val = (y 0).val; rw [e0]; omega
  | ⟨1, _⟩ => show win3_1.index t 1 * 64 + 1 * (y 1).val = (y 1).val; rw [e1]; omega

/-- The bias's block at every point is the bias's array. -/
theorem node_bias3 (c : Dev nD) (t : Fin cfg3.N) (y : S1x64.Idx) :
    (iblk3 V c 2 t : Vec Ideal S1x64 .f32) y = (V c main_v37 : S1x64.Idx → EReal) y := by
  obtain ⟨-, -, -, -, e0, e1, -⟩ := node_index_facts3 t
  unfold iblk3
  rw [View.read_apply]
  show V c main_v37 _ = V c main_v37 _
  congr 1
  funext a
  apply Fin.ext
  match a with
  | ⟨0, _⟩ => show win3_2.index t 0 * 1 + 1 * (y 0).val = (y 0).val; rw [e0]; omega
  | ⟨1, _⟩ => show win3_2.index t 1 * 64 + 1 * (y 1).val = (y 1).val; rw [e1]; omega

/-- What point t writes back is block t of the node update of the three arrays as the region finds them. -/
theorem node_flushed3 (c : Dev nD) (t : Fin cfg3.N) :
    (dat3 (F := Ideal) V c).flushed 3 t
      = ((cfg3.win 3).blk t).view.read (Elt Ideal) (Cert.Bridge.nodeIdx (V c main_v32) (V c main_v34) (V c main_v37)) := by
  show (cfg3.win 3).cut (grid3.coords t) ((dat3 V c).after 3 t) = _
  rw [after3_3]
  unfold out3_3
  rw [View.canon_unit_zero zero_offsets3]
  simp only [View.ld_unit_zero (S := S10000x128) zero_offsets3, View.ld_unit_zero (S := S128x64) zero_offsets3,
    View.ld_unit_zero (S := S1x64) zero_offsets3]
  obtain ⟨-, -, -, -, -, -, e0, e1⟩ := node_index_facts3 t
  funext j
  rw [View.read_apply]
  show k3_pay1 (F := Ideal) (iblk3 V c 0 t) (iblk3 V c 1 t) (iblk3 V c 2 t) (fun a => ⟨(j a).val, _⟩)
    = Cert.Bridge.nodeIdx (V c main_v32) (V c main_v34) (V c main_v37) (((cfg3.win 3).blk t).view.emb j)
  refine k3_pay1_eq_nodeIdx _ _ _ _ _ _ _ _ (fun k => ?_) (fun k => ?_) ?_
  · refine node_rows3 V c t _ _ ?_ rfl
    show win3_3.index t 0 * 10000 + 1 * (j 0).val = t.val * 10000 + (j 0).val
    rw [e0]; omega
  · refine (node_weights3 V c t _).trans (congrArg (V c main_v34 : S128x64.Idx → EReal) ?_)
    funext a
    apply Fin.ext
    match a with
    | ⟨0, _⟩ => rfl
    | ⟨1, _⟩ => show (j 1).val = win3_3.index t 1 * 64 + 1 * (j 1).val; rw [e1]; omega
  · refine (node_bias3 V c t _).trans (congrArg (V c main_v37 : S1x64.Idx → EReal) ?_)
    funext a
    apply Fin.ext
    match a with
    | ⟨0, _⟩ => rfl
    | ⟨1, _⟩ => show (j 1).val = win3_3.index t 1 * 64 + 1 * (j 1).val; rw [e1]; omega

/-- An index of the result array is in point t's block iff each coordinate is in the block's range on its axis. -/
theorem node_mem_blk3 (t : Fin cfg3.N) (i : S50000x64.Idx) :
    i ∈ ((cfg3.win 3).blk t).view.set ↔ ∀ a : Fin 2, win3_3.index t a * S10000x64.size a ≤ (i a).val ∧ (i a).val < win3_3.index t a * S10000x64.size a + S10000x64.size a := by
  show i ∈ ((View.whole main_v38).slice (win3_3.rect t)).set ↔ _
  rw [View.set_slice_whole, Rect.mem_set_unit]
  exact Iff.rfl

/-- Row n of the result is in the block of point n / 10000. -/
theorem node_cover3 (i : S50000x64.Idx) :
    ∃ t : Fin cfg3.N, (cfg3.win 3).flush t = true ∧ i ∈ ((cfg3.win 3).blk t).view.set := by
  have hi0 : (i 0).val < 50000 := (i 0).isLt
  have hi1 : (i 1).val < 64 := (i 1).isLt
  have hN : grid3.N = 5 := N_3
  let t : Fin cfg3.N := ⟨(i 0).val / 10000, by show (i 0).val / 10000 < grid3.N; rw [hN]; omega⟩
  obtain ⟨-, -, -, -, -, -, e0, e1⟩ := node_index_facts3 t
  have ht : t.val = (i 0).val / 10000 := rfl
  refine ⟨t, flush3_3 t, ?_⟩
  rw [node_mem_blk3]
  intro a
  match a with
  | ⟨0, _⟩ => show win3_3.index t (0 : Fin 2) * 10000 ≤ (i 0).val ∧ (i 0).val < win3_3.index t (0 : Fin 2) * 10000 + 10000; rw [e0, ht]; omega
  | ⟨1, _⟩ => show win3_3.index t (1 : Fin 2) * 64 ≤ (i 1).val ∧ (i 1).val < win3_3.index t (1 : Fin 2) * 64 + 64; rw [e1]; omega

/-- The result array after region 3 is the node update of the three input arrays as the region finds them. -/
theorem node_final3 (c : Dev nD) :
    (dat3 (F := Ideal) V c).arrAt 3 cfg3.N = Cert.Bridge.nodeIdx (V c main_v32) (V c main_v34) (V c main_v37) :=
  (dat3 (F := Ideal) V c).arrAt_eq_of_cover 3 (Cert.Bridge.nodeIdx (V c main_v32) (V c main_v34) (V c main_v37))
    (fun t _ => node_flushed3 V c t) node_cover3

end Cert.KernelIdeal.Gen
end
-- ==== Proof.RegionNode5.lean ====
import proofs.«404665_j1864015807087_1_alg».proof.Proof.Gen.KernelIdeal.Frame
import proofs.«404665_j1864015807087_1_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«404665_j1864015807087_1_alg».proof.Proof.RegionNode1
set_option maxRecDepth 16384
noncomputable section
namespace Cert.KernelIdeal.Gen
open Idealize.ShloMosaic Idealize.ShloMosaic.TcCoe Idealize.ShloMosaic.ValueIdx Idealize.SL.Sem
open Idealize.ShloMosaic.Pipeline (Dat Cfg Window)
variable (V : (c : Dev nD) → (b : Ref sig .tc) → Buf (Elt Ideal) ((c : Thread nD τ).loc b))

/-! ## The node update's arithmetic at one entry of a block -/

/-- The body's value at entry (r, h) of its block: the inner product of row r of the node block with column h of the
    weights, plus the bias at h, clipped at zero and passed through the leaky slope. -/
theorem k5_pay1_apply (x0 : Vec Ideal S10000x128 .f32) (x1 : Vec Ideal S128x64 .f32) (x2 : Vec Ideal S1x64 .f32) (p : Fin 10000) (q : Fin 64) :
    k5_pay1 (F := Ideal) x0 x1 x2 (ix2 p q)
      = Cert.Bridge.act ((∑ k : Fin 128, x0 (ix2 (n0 := 10000) (n1 := 128) p k) * x1 (ix2 (n0 := 128) (n1 := 64) k q))
          + x2 (ix2 (n0 := 1) (n1 := 64) 0 q)) := by
  unfold k5_pay1
  simp only [select_apply, cmpf_apply, mulf_apply, maximumf_apply, addf_apply, broadcast_apply, shapeCast_self]
  rw [matmul_dot_S10000x128_S128x64_S10000x64_1_0_0_1_n_n_zero_apply, broadcastTo_1b_ab_apply]
  simp only [truncf_apply]
  rfl

/-- The entry of a block at (r, h), against the whole arrays: when row r of the node block is row n of the node array, and
    the weights' column and the bias's entry at h are those at the array's column, the body's value there is the node
    update at (n, that column). -/
theorem k5_pay1_eq_nodeIdx (a : FVec Ideal S50000x128 .f32) (w : FVec Ideal S128x64 .f32) (b : FVec Ideal S1x64 .f32)
    (x0 : Vec Ideal S10000x128 .f32) (x1 : Vec Ideal S128x64 .f32) (x2 : Vec Ideal S1x64 .f32)
    (y : S10000x64.Idx) (i : S50000x64.Idx)
    (h0 : ∀ k : Fin 128, x0 (ix2 (n0 := 10000) (n1 := 128) (y 0) k) = a (ix2 (n0 := 50000) (n1 := 128) (i 0) k))
    (h1 : ∀ k : Fin 128, x1 (ix2 (n0 := 128) (n1 := 64) k (y 1)) = w (ix2 (n0 := 128) (n1 := 64) k (i 1)))
    (h2 : x2 (ix2 (n0 := 1) (n1 := 64) 0 (y 1)) = b (ix2 (n0 := 1) (n1 := 64) 0 (i 1))) :
    k5_pay1 (F := Ideal) x0 x1 x2 y = Cert.Bridge.nodeIdx a w b i := by
  obtain ⟨p, q, rfl⟩ : ∃ (p : Fin 10000) (q : Fin 64), y = ix2 p q := ⟨y 0, y 1, eq_ix2 y⟩
  rw [k5_pay1_apply]
  unfold Cert.Bridge.nodeIdx
  refine congrArg Cert.Bridge.act ?_
  refine congrArg₂ (· + ·) (Finset.sum_congr rfl fun k _ => congrArg₂ (· * ·) (h0 k) (h1 k)) h2

/-! ## Region 5: the node update of the node array `main_v49` by the weights `main_v51` and the bias `main_v54`

Five points; point t holds rows 10000·t … 10000·t + 9999 of the node array and of the result, and the whole of the
weights and of the bias. -/

theorem zero_offsets5 : (![0, 0] : Fin 2 → Nat) = fun _ => 0 :=
  funext fun a => match a with | ⟨0, _⟩ => rfl | ⟨1, _⟩ => rfl

/-- The printed index maps over the five points: the node block and the result block are at row block t, column block 0;
    the weights and the bias are at block (0, 0). -/
theorem node_index_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The node block at point t is rows 10000·t … of the node array. -/
theorem node_rows5 (c : Dev nD) (t : Fin cfg5.N) (y : S10000x128.Idx) (i : S50000x128.Idx)
    (h0 : (i 0).val = t.val * 10000 + (y 0).val) (h1 : (i 1).val = (y 1).val) :
    (iblk5 V c 0 t : Vec Ideal S10000x128 .f32) y = (V c main_v49 : S50000x128.Idx → EReal) i := by
  obtain ⟨e0, e1, -⟩ := node_index_facts5 t
  unfold iblk5
  rw [View.read_apply]
  show V c main_v49 _ = V c main_v49 _
  congr 1
  funext a
  apply Fin.ext
  match a with
  | ⟨0, _⟩ => show win5_0.index t 0 * 10000 + 1 * (y 0).val = (i 0).val; rw [e0, h0]; omega
  | ⟨1, _⟩ => show win5_0.index t 1 * 128 + 1 * (y 1).val = (i 1).val; rw [e1, h1]; omega

/-- The weights' block at every point is the weights' array. -/
theorem node_weights5 (c : Dev nD) (t : Fin cfg5.N) (y : S128x64.Idx) :
    (iblk5 V c 1 t : Vec Ideal S128x64 .f32) y = (V c main_v51 : S128x64.Idx → EReal) y := by
  obtain ⟨-, -, e0, e1, -⟩ := node_index_facts5 t
  unfold iblk5
  rw [View.read_apply]
  show V c main_v51 _ = V c main_v51 _
  congr 1
  funext a
  apply Fin.ext
  match a with
  | ⟨0, _⟩ => show win5_1.index t 0 * 128 + 1 * (y 0).val = (y 0).val; rw [e0]; omega
  | ⟨1, _⟩ => show win5_1.index t 1 * 64 + 1 * (y 1).val = (y 1).val; rw [e1]; omega

/-- The bias's block at every point is the bias's array. -/
theorem node_bias5 (c : Dev nD) (t : Fin cfg5.N) (y : S1x64.Idx) :
    (iblk5 V c 2 t : Vec Ideal S1x64 .f32) y = (V c main_v54 : S1x64.Idx → EReal) y := by
  obtain ⟨-, -, -, -, e0, e1, -⟩ := node_index_facts5 t
  unfold iblk5
  rw [View.read_apply]
  show V c main_v54 _ = V c main_v54 _
  congr 1
  funext a
  apply Fin.ext
  match a with
  | ⟨0, _⟩ => show win5_2.index t 0 * 1 + 1 * (y 0).val = (y 0).val; rw [e0]; omega
  | ⟨1, _⟩ => show win5_2.index t 1 * 64 + 1 * (y 1).val = (y 1).val; rw [e1]; omega

/-- What point t writes back is block t of the node update of the three arrays as the region finds them. -/
theorem node_flushed5 (c : Dev nD) (t : Fin cfg5.N) :
    (dat5 (F := Ideal) V c).flushed 3 t
      = ((cfg5.win 3).blk t).view.read (Elt Ideal) (Cert.Bridge.nodeIdx (V c main_v49) (V c main_v51) (V c main_v54)) := by
  show (cfg5.win 3).cut (grid5.coords t) ((dat5 V c).after 3 t) = _
  rw [after5_3]
  unfold out5_3
  rw [View.canon_unit_zero zero_offsets5]
  simp only [View.ld_unit_zero (S := S10000x128) zero_offsets5, View.ld_unit_zero (S := S128x64) zero_offsets5,
    View.ld_unit_zero (S := S1x64) zero_offsets5]
  obtain ⟨-, -, -, -, -, -, e0, e1⟩ := node_index_facts5 t
  funext j
  rw [View.read_apply]
  show k5_pay1 (F := Ideal) (iblk5 V c 0 t) (iblk5 V c 1 t) (iblk5 V c 2 t) (fun a => ⟨(j a).val, _⟩)
    = Cert.Bridge.nodeIdx (V c main_v49) (V c main_v51) (V c main_v54) (((cfg5.win 3).blk t).view.emb j)
  refine k5_pay1_eq_nodeIdx _ _ _ _ _ _ _ _ (fun k => ?_) (fun k => ?_) ?_
  · refine node_rows5 V c t _ _ ?_ rfl
    show win5_3.index t 0 * 10000 + 1 * (j 0).val = t.val * 10000 + (j 0).val
    rw [e0]; omega
  · refine (node_weights5 V c t _).trans (congrArg (V c main_v51 : S128x64.Idx → EReal) ?_)
    funext a
    apply Fin.ext
    match a with
    | ⟨0, _⟩ => rfl
    | ⟨1, _⟩ => show (j 1).val = win5_3.index t 1 * 64 + 1 * (j 1).val; rw [e1]; omega
  · refine (node_bias5 V c t _).trans (congrArg (V c main_v54 : S1x64.Idx → EReal) ?_)
    funext a
    apply Fin.ext
    match a with
    | ⟨0, _⟩ => rfl
    | ⟨1, _⟩ => show (j 1).val = win5_3.index t 1 * 64 + 1 * (j 1).val; rw [e1]; omega

/-- An index of the result array is in point t's block iff each coordinate is in the block's range on its axis. -/
theorem node_mem_blk5 (t : Fin cfg5.N) (i : S50000x64.Idx) :
    i ∈ ((cfg5.win 3).blk t).view.set ↔ ∀ a : Fin 2, win5_3.index t a * S10000x64.size a ≤ (i a).val ∧ (i a).val < win5_3.index t a * S10000x64.size a + S10000x64.size a := by
  show i ∈ ((View.whole main_v55).slice (win5_3.rect t)).set ↔ _
  rw [View.set_slice_whole, Rect.mem_set_unit]
  exact Iff.rfl

/-- Row n of the result is in the block of point n / 10000. -/
theorem node_cover5 (i : S50000x64.Idx) :
    ∃ t : Fin cfg5.N, (cfg5.win 3).flush t = true ∧ i ∈ ((cfg5.win 3).blk t).view.set := by
  have hi0 : (i 0).val < 50000 := (i 0).isLt
  have hi1 : (i 1).val < 64 := (i 1).isLt
  have hN : grid5.N = 5 := N_5
  let t : Fin cfg5.N := ⟨(i 0).val / 10000, by show (i 0).val / 10000 < grid5.N; rw [hN]; omega⟩
  obtain ⟨-, -, -, -, -, -, e0, e1⟩ := node_index_facts5 t
  have ht : t.val = (i 0).val / 10000 := rfl
  refine ⟨t, flush5_3 t, ?_⟩
  rw [node_mem_blk5]
  intro a
  match a with
  | ⟨0, _⟩ => show win5_3.index t (0 : Fin 2) * 10000 ≤ (i 0).val ∧ (i 0).val < win5_3.index t (0 : Fin 2) * 10000 + 10000; rw [e0, ht]; omega
  | ⟨1, _⟩ => show win5_3.index t (1 : Fin 2) * 64 ≤ (i 1).val ∧ (i 1).val < win5_3.index t (1 : Fin 2) * 64 + 64; rw [e1]; omega

/-- The result array after region 5 is the node update of the three input arrays as the region finds them. -/
theorem node_final5 (c : Dev nD) :
    (dat5 (F := Ideal) V c).arrAt 3 cfg5.N = Cert.Bridge.nodeIdx (V c main_v49) (V c main_v51) (V c main_v54) :=
  (dat5 (F := Ideal) V c).arrAt_eq_of_cover 3 (Cert.Bridge.nodeIdx (V c main_v49) (V c main_v51) (V c main_v54))
    (fun t _ => node_flushed5 V c t) node_cover5

end Cert.KernelIdeal.Gen
end
-- ==== Proof.RegionFc6.lean ====
import proofs.«404665_j1864015807087_1_alg».proof.Proof.Gen.KernelIdeal.Frame
import proofs.«404665_j1864015807087_1_alg».proof.Proof.Spec
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.Gen
open Idealize.ShloMosaic Idealize.ShloMosaic.TcCoe Idealize.ShloMosaic.ValueIdx Idealize.SL.Sem
open Idealize.ShloMosaic.Pipeline (Dat Cfg Window)
variable (V : (c : Dev nD) → (b : Ref sig .tc) → Buf (Elt Ideal) ((c : Thread nD τ).loc b))

/-! # The read-out region

A grid of one point whose four blocks are the whole arrays. Its body forms, per graph g, the 64-term inner product of
row g of the pooled features with the weight column and adds the one bias; narrowing the two operands to bf16 is the
identity on the extended reals and the product accumulates into zero, so the array the region leaves is
`Cert.Bridge.fcIdx` of the three input arrays as the region finds them. -/

/-- The zero offsets of a whole-array rectangle, as the constant function. -/
theorem zero_offsets : (![0, 0] : Fin 2 → Nat) = fun _ => 0 :=
  funext fun a => by match a with | ⟨0, _⟩ => rfl | ⟨1, _⟩ => rfl

/-! ## The contraction of the read-out: rows of the pooled features against the weight column -/

theorem lhs_fc_0 (i : S64x1.Idx) (q : dot_S64x64_S64x1_S64x1_1_0_0_1_n_n.contr.Idx) :
    (dot_S64x64_S64x1_S64x1_1_0_0_1_n_n.lhsIdx i q 0).val = (i 0).val := by
  unfold DotDims.lhsIdx
  rw [dif_neg (show ¬(0 : Fin S64x64.rank) ∈ dot_S64x64_S64x1_S64x1_1_0_0_1_n_n.lhsBatch by decide), dif_pos (show (0 : Fin S64x64.rank) ∈ dot_S64x64_S64x1_S64x1_1_0_0_1_n_n.lhsNonContracting by decide)]
  rfl
theorem lhs_fc_1 (i : S64x1.Idx) (q : dot_S64x64_S64x1_S64x1_1_0_0_1_n_n.contr.Idx) :
    (dot_S64x64_S64x1_S64x1_1_0_0_1_n_n.lhsIdx i q 1).val = (q ⟨0, by decide⟩).val :=
  dot_S64x64_S64x1_S64x1_1_0_0_1_n_n.lhsIdx_val_of_single rfl i q
theorem rhs_fc_0 (i : S64x1.Idx) (q : dot_S64x64_S64x1_S64x1_1_0_0_1_n_n.contr.Idx) :
    (dot_S64x64_S64x1_S64x1_1_0_0_1_n_n.rhsIdx i q 0).val = (q ⟨0, by decide⟩).val :=
  dot_S64x64_S64x1_S64x1_1_0_0_1_n_n.rhsIdx_val_of_single rfl i q
theorem rhs_fc_1 (i : S64x1.Idx) (q : dot_S64x64_S64x1_S64x1_1_0_0_1_n_n.contr.Idx) :
    (dot_S64x64_S64x1_S64x1_1_0_0_1_n_n.rhsIdx i q 1).val = (i 1).val := by
  unfold DotDims.rhsIdx
  rw [dif_neg (show ¬(1 : Fin S64x1.rank) ∈ dot_S64x64_S64x1_S64x1_1_0_0_1_n_n.rhsBatch by decide), dif_pos (show (1 : Fin S64x1.rank) ∈ dot_S64x64_S64x1_S64x1_1_0_0_1_n_n.rhsNonContracting by decide)]
  rfl

/-- The matrix product into the zero splat, read at (g, o): the 64-term inner product of row g with column o. -/
theorem fc_matmul_apply (a : FVec Ideal S64x64 .bf16) (b : FVec Ideal S64x1 .bf16) (p : Fin 64) (q : Fin 1) :
    matmul dot_S64x64_S64x1_S64x1_1_0_0_1_n_n none a b (constant (F := Ideal) S64x1 .f32 0x00000000#32) (ix2 p q)
      = ∑ k : Fin 64, a (ix2 p k) * b (ix2 k q) := by
  simp only [matmul]
  rw [Ideal.matmul_constant_zero_apply, ← Equiv.sum_comp (contrEquiv1 dot_S64x64_S64x1_S64x1_1_0_0_1_n_n 64 rfl rfl).symm]
  refine Finset.sum_congr rfl fun k _ => ?_
  have hk := contrEquiv1_symm_val dot_S64x64_S64x1_S64x1_1_0_0_1_n_n 64 rfl rfl k
  have el : dot_S64x64_S64x1_S64x1_1_0_0_1_n_n.lhsIdx (ix2 p q) ((contrEquiv1 dot_S64x64_S64x1_S64x1_1_0_0_1_n_n 64 rfl rfl).symm k) = ix2 p k := funext fun a => Fin.ext (by
    match a with
    | ⟨0, _⟩ => exact lhs_fc_0 _ _
    | ⟨1, _⟩ => exact (lhs_fc_1 _ _).trans hk)
  have er : dot_S64x64_S64x1_S64x1_1_0_0_1_n_n.rhsIdx (ix2 p q) ((contrEquiv1 dot_S64x64_S64x1_S64x1_1_0_0_1_n_n 64 rfl rfl).symm k) = ix2 k q := funext fun a => Fin.ext (by
    match a with
    | ⟨0, _⟩ => exact (rhs_fc_0 _ _).trans hk
    | ⟨1, _⟩ => exact rhs_fc_1 _ _)
  rw [el, er]

/-! ## The body's arithmetic at an index -/

/-- What the body stores, as one function of its three loaded blocks: the inner product of the pooled row with the
    weight column (both operands' narrowing to bf16 is the identity on the extended reals), plus the one bias. -/
theorem fc_payload (x0 : Vec Ideal S64x64 .f32) (x1 : Vec Ideal S64x1 .f32) (x2 : Vec Ideal S1x1 .f32) :
    k6_pay1 (F := Ideal) x0 x1 x2 = Cert.Bridge.fcIdx x0 x1 x2 := by
  funext j
  obtain ⟨p, q, rfl⟩ : ∃ (p : Fin 64) (q : Fin 1), j = ix2 p q := ⟨j 0, j 1, eq_ix2 j⟩
  unfold k6_pay1 Cert.Bridge.fcIdx
  rw [addf_apply]
  refine congrArg₂ (· + ·) ?_ ?_
  · refine (fc_matmul_apply _ _ p q).trans ?_
    refine Finset.sum_congr rfl fun k _ => ?_
    rw [truncf_apply, truncf_apply, shapeCast_self]
  · rw [shapeCast_self]
    refine (broadcastTo_1b_ab_apply x2 broadcasts_S1x1_S64x1 p q).trans ?_
    obtain rfl : q = 0 := Subsingleton.elim _ _
    rfl

/-! ## From the one block to the array -/

/-- The printed index maps over the one-point grid: every window's block index is zero on both axes, so each block is
    its whole array. -/
theorem fc_idx_facts : ∀ t : Fin cfg6.N,
    win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0 :=
  (by decide +kernel : ∀ t : Fin grid6.N, _)

/-- The pooled-features block at the point is the whole [64,64] array. -/
theorem fc_block_pooled (c : Dev nD) (t : Fin cfg6.N) :
    (iblk6 V c 0 t : Vec Ideal S64x64 .f32) = (V c main_v66 : S64x64.Idx → Elt Ideal .f32) := by
  obtain ⟨e0, e1, -⟩ := fc_idx_facts t
  funext y
  show V c main_v66 (((cfg6.win 0).blk t).view.emb y) = V c main_v66 y
  refine congrArg (V c main_v66 : S64x64.Idx → Elt Ideal .f32) (funext fun a => Fin.ext ?_)
  match a with
  | ⟨0, _⟩ => show win6_0.index t (0 : Fin 2) * 64 + 1 * (y 0).val = (y 0).val; omega
  | ⟨1, _⟩ => show win6_0.index t (1 : Fin 2) * 64 + 1 * (y 1).val = (y 1).val; omega

/-- The weight block at the point is the whole [64,1] column. -/
theorem fc_block_weight (c : Dev nD) (t : Fin cfg6.N) :
    (iblk6 V c 1 t : Vec Ideal S64x1 .f32) = (V c main_arg6 : S64x1.Idx → Elt Ideal .f32) := by
  obtain ⟨-, -, e0, e1, -⟩ := fc_idx_facts t
  funext y
  show V c main_arg6 (((cfg6.win 1).blk t).view.emb y) = V c main_arg6 y
  refine congrArg (V c main_arg6 : S64x1.Idx → Elt Ideal .f32) (funext fun a => Fin.ext ?_)
  match a with
  | ⟨0, _⟩ => show win6_1.index t (0 : Fin 2) * 64 + 1 * (y 0).val = (y 0).val; omega
  | ⟨1, _⟩ => show win6_1.index t (1 : Fin 2) * 1 + 1 * (y 1).val = (y 1).val; omega

/-- The bias block at the point is the whole [1,1] array. -/
theorem fc_block_bias (c : Dev nD) (t : Fin cfg6.N) :
    (iblk6 V c 2 t : Vec Ideal S1x1 .f32) = (V c main_v67 : S1x1.Idx → Elt Ideal .f32) := by
  obtain ⟨-, -, -, -, e0, e1, -⟩ := fc_idx_facts t
  funext y
  show V c main_v67 (((cfg6.win 2).blk t).view.emb y) = V c main_v67 y
  refine congrArg (V c main_v67 : S1x1.Idx → Elt Ideal .f32) (funext fun a => Fin.ext ?_)
  match a with
  | ⟨0, _⟩ => show win6_2.index t (0 : Fin 2) * 1 + 1 * (y 0).val = (y 0).val; omega
  | ⟨1, _⟩ => show win6_2.index t (1 : Fin 2) * 1 + 1 * (y 1).val = (y 1).val; omega

/-- What the point writes back is its block of the read-out of the three arrays as the region finds them. -/
theorem fc_flushed (c : Dev nD) (t : Fin cfg6.N) :
    (dat6 (F := Ideal) V c).flushed 3 t
      = ((cfg6.win 3).blk t).view.read (Elt Ideal) (Cert.Bridge.fcIdx (V c main_v66) (V c main_arg6) (V c main_v67)) := by
  show (cfg6.win 3).cut (grid6.coords t) ((dat6 V c).after 3 t) = _
  rw [after6_3]
  unfold out6_3
  rw [View.canon_unit_zero zero_offsets]
  simp only [View.ld_unit_zero (S := S64x64) zero_offsets, View.ld_unit_zero (S := S64x1) zero_offsets,
    View.ld_unit_zero (S := S1x1) zero_offsets]
  rw [fc_block_pooled V c t, fc_block_weight V c t, fc_block_bias V c t, fc_payload]
  obtain ⟨-, -, -, -, -, -, e0, e1⟩ := fc_idx_facts t
  funext y
  show Cert.Bridge.fcIdx (V c main_v66) (V c main_arg6) (V c main_v67) y
    = Cert.Bridge.fcIdx (V c main_v66) (V c main_arg6) (V c main_v67) (((cfg6.win 3).blk t).view.emb y)
  refine congrArg (Cert.Bridge.fcIdx (V c main_v66) (V c main_arg6) (V c main_v67)) (funext fun a => Fin.ext ?_)
  match a with
  | ⟨0, _⟩ => show (y 0).val = win6_3.index t (0 : Fin 2) * 64 + 1 * (y 0).val; omega
  | ⟨1, _⟩ => show (y 1).val = win6_3.index t (1 : Fin 2) * 1 + 1 * (y 1).val; omega

/-- An index of the output array is in the point's block iff each coordinate is in the block's range on its axis. -/
theorem fc_mem_blk (t : Fin cfg6.N) (i : S64x1.Idx) :
    i ∈ ((cfg6.win 3).blk t).view.set ↔ ∀ a : Fin 2, win6_3.index t a * S64x1.size a ≤ (i a).val ∧ (i a).val < win6_3.index t a * S64x1.size a + S64x1.size a := by
  show i ∈ ((View.whole main_v68).slice (win6_3.rect t)).set ↔ _
  rw [View.set_slice_whole, Rect.mem_set_unit]
  exact Iff.rfl

/-- THE READ-OUT ARRAY after the region: the 64-term inner product per graph plus the bias, of the three input
    arrays as the region finds them. -/
theorem fc_final6 (c : Dev nD) :
    (dat6 (F := Ideal) V c).arrAt 3 cfg6.N = Cert.Bridge.fcIdx (V c main_v66) (V c main_arg6) (V c main_v67) :=
  (dat6 V c).arrAt_eq_of_cover 3 (Cert.Bridge.fcIdx (V c main_v66) (V c main_arg6) (V c main_v67))
    (fun t _ => fc_flushed V c t) fun i => by
      refine ⟨t6_0, flush6_3 t6_0, ?_⟩
      obtain ⟨-, -, -, -, -, -, e0, e1⟩ := fc_idx_facts t6_0
      rw [fc_mem_blk]
      intro a
      have h0 : (i 0).val < 64 := (i 0).isLt
      have h1 : (i 1).val < 1 := (i 1).isLt
      match a with
      | ⟨0, _⟩ => show win6_3.index t6_0 (0 : Fin 2) * 64 ≤ (i 0).val ∧ (i 0).val < win6_3.index t6_0 (0 : Fin 2) * 64 + 64; omega
      | ⟨1, _⟩ => show win6_3.index t6_0 (1 : Fin 2) * 1 ≤ (i 1).val ∧ (i 1).val < win6_3.index t6_0 (1 : Fin 2) * 1 + 1; omega

end Cert.KernelIdeal.Gen
end
-- ==== Proof.KernelValue.lean ====
/-
  What the kernel program's result buffer holds after the run, as ONE function of the argument arrays (extended reals).
  First the program's host arithmetic between its pallas_calls as functions of whole arrays — the per-layer parameter slices,
  the masked row read (rows gathered at the wrapped source indices; a row whose index falls outside the node axis is
  replaced by the fill word), the message matrix (gathered rows beside the edge embedding) scatter-summed over the
  destination indices, and the mean pool (segment sums over the graph ids divided by the clipped segment sizes) —, then the
  value itself: three message-passing layers, each "edge embedding, gather, scatter-sum, node update", the pool, the read-out.
  The buffer contents at each boundary between a host stretch and a pallas_call are folded back to the launch memory: a
  pallas_call leaves its output array at its closed form of its input arrays and every other buffer untouched; a host
  stretch leaves each result at its operation's value of its operands and every other buffer untouched.
-/
import proofs.«404665_j1864015807087_1_alg».proof.Proof.Gen.KernelIdeal.Frame
import proofs.«404665_j1864015807087_1_alg».proof.Proof.Spec
import Idealize.ShloMosaic.Lib.StableHlo.Run

set_option maxRecDepth 16384

noncomputable section

namespace Cert.KHost

open Idealize.ShloMosaic Cert.KernelIdeal Cert.KernelIdeal.Facts₀

/-- Row 0 / row 1 of the index input: the source and the destination node of every edge. -/
def srcOf (a8 : IVec S2x800000 32) : IVec S800000 32 :=
  shapeCast S800000 (extractStridedSlice S1x800000 ![0, 0] a8 slices_S2x800000_S1x800000_0_0) shapeCasts_S1x800000_S800000
def dstOf (a8 : IVec S2x800000 32) : IVec S800000 32 :=
  shapeCast S800000 (extractStridedSlice S1x800000 ![1, 0] a8 slices_S2x800000_S1x800000_1_0) shapeCasts_S1x800000_S800000
/-- The edge attribute as a column. -/
def eaOf (a1 : FVec Ideal S800000 .f32) : FVec Ideal S800000x1 .f32 := shapeCast S800000x1 a1 shapeCasts_S800000_S800000x1

/-- A layer's edge weight row, edge bias (flat), node weight matrix and node bias (flat), cut out of the stacked parameters at
    the layer's start vector. -/
def wE (st : Fin 3 → Nat) (h : S3x1x64.Slices st S1x1x64) (a2 : FVec Ideal S3x1x64 .f32) : FVec Ideal S1x64 .f32 :=
  shapeCast S1x64 (extractStridedSlice S1x1x64 st a2 h) shapeCasts_S1x1x64_S1x64
def b1 (st : Fin 2 → Nat) (h : S3x64.Slices st S1x64) (a3 : FVec Ideal S3x64 .f32) : FVec Ideal S64 .f32 :=
  shapeCast S64 (extractStridedSlice S1x64 st a3 h) shapeCasts_S1x64_S64
def wN (st : Fin 3 → Nat) (h : S3x128x64.Slices st S1x128x64) (a4 : FVec Ideal S3x128x64 .f32) : FVec Ideal S128x64 .f32 :=
  shapeCast S128x64 (extractStridedSlice S1x128x64 st a4 h) shapeCasts_S1x128x64_S128x64
/-- A flat bias as the one-row matrix the kernels read. -/
def row (b : FVec Ideal S64 .f32) : FVec Ideal S1x64 .f32 := shapeCast S1x64 b shapeCasts_S64_S1x64

/-- The gather's index column: negative entries wrapped by the node count. -/
def wrapIdx (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The masked row read: row e is x[idx e] where 0 ≤ idx e ≤ 49999, the fill word elsewhere. -/
def take (x : FVec Ideal S50000x64 .f32) (src : IVec S800000 32) : FVec Ideal S800000x64 .f32 :=
  select
    (broadcastInDim S800000x64 ![0] bcast_S800000_S800000x64_0
      (Host.reduce IntOp.andi
        (andi (cmpi .sge (wrapIdx src) (broadcastInDim S800000x1 ![] bcast_S_S800000x1 (constantI S_ 32 0#32)))
              (cmpi .sle (wrapIdx src) (broadcastInDim S800000x1 ![0, 1] bcast_S1x1_S800000x1_0_1 (broadcastInDim S1x1 ![1] bcast_S1_S1x1_1 (constantI S1 32 49999#32)))))
        (constantI S_ 1 1#1) reducesTo_S800000x1_S800000_d1 h_S_))
    (Host.gather gather_S50000x64_S800000x1_S800000x64_1_0_n_n_0_1_164 x (wrapIdx src))
    (broadcastInDim S800000x64 ![] bcast_S_S800000x64 (constant (F := Ideal) S_ .f32 0x7FC00000#32))

/-- The aggregated messages: the scatter-sum over the destinations of [gathered rows | edge embedding]. -/
def aggr (dst : IVec S800000 32) (xj emb : FVec Ideal S800000x64 .f32) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (concatenate S800000x128 1 [⟨S800000x64, xj⟩, ⟨S800000x64, emb⟩] concatenates_S800000x64_S800000x64_S800000x128_d1)

/-- The mean pool over the graph ids: segment sums divided by the segment sizes clipped below at one. -/
def pool (batch : IVec S50000 32) (x : FVec Ideal S50000x64 .f32) : FVec Ideal S64x64 .f32 :=
  Host.divf
    (Host.scatterAdd scatter_S64x64_S50000x1_S50000x64_1_0_0_1
      (broadcastInDim S64x64 ![] bcast_S_S64x64 (constant (F := Ideal) S_ .f32 0x00000000#32))
      (broadcastInDim S50000x1 ![0] bcast_S50000_S50000x1_0 batch) x)
    (broadcastInDim S64x64 ![0, 1] bcast_S64x1_S64x64_0_1
      (maximumf
        (Host.scatterAdd scatter_S64x1_S50000x1_S50000x1_1_0_0_1
          (broadcastInDim S64x1 ![] bcast_S_S64x1 (constant (F := Ideal) S_ .f32 0x00000000#32))
          (broadcastInDim S50000x1 ![0] bcast_S50000_S50000x1_0 batch)
          (broadcastInDim S50000x1 ![] bcast_S_S50000x1 (constant (F := Ideal) S_ .f32 0x3F800000#32)))
        (broadcastInDim S64x1 ![] bcast_S_S64x1 (constant (F := Ideal) S_ .f32 0x3F800000#32))))

/-- The read-out bias as the 1×1 matrix the last kernel reads. -/
def cell (a7 : FVec Ideal S1 .f32) : FVec Ideal S1x1 .f32 := shapeCast S1x1 a7 shapeCasts_S1_S1x1

open Cert.Bridge

/-- One message-passing layer on the node features `x`: edge embedding, masked gather at the sources, scatter-sum over the
    destinations, node update. The layer's parameters are cut at the start vectors `s3` (rank-3 stacks) and `s2` (rank-2). -/
def layer (s3 : Fin 3 → Nat) (s2 : Fin 2 → Nat) (hE : S3x1x64.Slices s3 S1x1x64) (hB : S3x64.Slices s2 S1x64)
    (hN : S3x128x64.Slices s3 S1x128x64)
    (x1 : FVec Ideal S800000 .f32) (x2 : FVec Ideal S3x1x64 .f32) (x3 : FVec Ideal S3x64 .f32) (x4 : FVec Ideal S3x128x64 .f32)
    (x5 : FVec Ideal S3x64 .f32) (x8 : IVec S2x800000 32) (x : FVec Ideal S50000x64 .f32) : FVec Ideal S50000x64 .f32 :=
  nodeIdx (aggr (dstOf x8) (take x (srcOf x8)) (edgeIdx (eaOf x1) (wE s3 hE x2) (row (b1 s2 hB x3))))
    (wN s3 hN x4) (row (b1 s2 hB x5))

end Cert.KHost

namespace Cert.KernelIdeal.Gen

open Idealize.ShloMosaic Idealize.ShloMosaic.TcCoe Idealize.SL.Sem Idealize.ShloMosaic.StableHlo
open Cert.Bridge Cert.KHost Cert.KernelIdeal.Facts₀

variable (m : (ℓ : Loc nD τ sig) → Buf (Elt Ideal) ℓ) (ρ : Dev nD → PrngReg)

/-! ## A pallas_call leaves every buffer that is not one of its arrays untouched (in the form the simplifier matches) -/

theorem keep2 (c : Dev nD) (b : Ref sig .tc) (hb : ∀ w, Pipeline.arrRef spec0 w ≠ b) :
    W2 m ρ c (no_index (Proc.devRef .tc b)) = W1 m ρ c (Proc.devRef .tc b) := W2_of_ne m ρ c b hb
theorem keep5 (c : Dev nD) (b : Ref sig .tc) (hb : ∀ w, Pipeline.arrRef spec1 w ≠ b) :
    W5 m ρ c (no_index (Proc.devRef .tc b)) = W4 m ρ c (Proc.devRef .tc b) := W5_of_ne m ρ c b hb
theorem keep7 (c : Dev nD) (b : Ref sig .tc) (hb : ∀ w, Pipeline.arrRef spec2 w ≠ b) :
    W7 m ρ c (no_index (Proc.devRef .tc b)) = W6 m ρ c (Proc.devRef .tc b) := W7_of_ne m ρ c b hb
theorem keep10 (c : Dev nD) (b : Ref sig .tc) (hb : ∀ w, Pipeline.arrRef spec3 w ≠ b) :
    W10 m ρ c (no_index (Proc.devRef .tc b)) = W9 m ρ c (Proc.devRef .tc b) := W10_of_ne m ρ c b hb
theorem keep12 (c : Dev nD) (b : Ref sig .tc) (hb : ∀ w, Pipeline.arrRef spec4 w ≠ b) :
    W12 m ρ c (no_index (Proc.devRef .tc b)) = W11 m ρ c (Proc.devRef .tc b) := W12_of_ne m ρ c b hb
theorem keep15 (c : Dev nD) (b : Ref sig .tc) (hb : ∀ w, Pipeline.arrRef spec5 w ≠ b) :
    W15 m ρ c (no_index (Proc.devRef .tc b)) = W14 m ρ c (Proc.devRef .tc b) := W15_of_ne m ρ c b hb

/-- A pallas_call leaves an input array it reads (and a later pallas_call reads again) as it found it. -/
theorem keepIn2 (c : Dev nD) : W2 m ρ c (no_index (Proc.devRef .tc main_v4)) = W1 m ρ c (Proc.devRef .tc main_v4) :=
  (W2_arr m ρ c 0).trans (((dat0 (V1 m ρ) c).arrAt_in 0 rfl _).trans (A_eq0 (V1 m ρ) c 0))
theorem keepIn7 (c : Dev nD) : W7 m ρ c (no_index (Proc.devRef .tc main_v4)) = W6 m ρ c (Proc.devRef .tc main_v4) :=
  (W7_arr m ρ c 0).trans (((dat2 (V6 m ρ) c).arrAt_in 0 rfl _).trans (A_eq2 (V6 m ρ) c 0))

/-- Fold a buffer's contents at a boundary back through the host stretches and the pallas_calls that do not write it. -/
local macro "fold_back" "[" ls:Lean.Parser.Tactic.simpLemma,* "]" : tactic =>
  `(tactic| simp (disch := decide) only [V1, V4, V6, V9, V11, V14, V16, W1, W3, W4, W6, W8, W9, W11, W13, W14, W16,
      hostOps0, hostOps1, hostOps1_1, hostOps2, hostOps3, hostOps3_1, hostOps4, hostOps5, hostOps5_1, hostOps6,
      keep2, keep5, keep7, keep10, keep12, keep15, keepIn2, keepIn7,
      after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', cast_cast, cast_eq, $ls,*])

/-! ## Equal operands give equal stage values -/

theorem edgeIdx_congr {a a' : FVec Ideal S800000x1 .f32} {w w' b b' : FVec Ideal S1x64 .f32} (h1 : a = a') (h2 : w = w')
    (h3 : b = b') : edgeIdx a w b = edgeIdx a' w' b' := by subst h1 h2 h3; rfl
theorem nodeIdx_congr {a a' : FVec Ideal S50000x128 .f32} {w w' : FVec Ideal S128x64 .f32} {b b' : FVec Ideal S1x64 .f32}
    (h1 : a = a') (h2 : w = w') (h3 : b = b') : nodeIdx a w b = nodeIdx a' w' b' := by subst h1 h2 h3; rfl
theorem fcIdx_congr {p p' : FVec Ideal S64x64 .f32} {w w' : FVec Ideal S64x1 .f32} {b b' : FVec Ideal S1x1 .f32}
    (h1 : p = p') (h2 : w = w') (h3 : b = b') : fcIdx p w b = fcIdx p' w' b' := by subst h1 h2 h3; rfl

section Chain

/- The closed forms of the seven pallas_calls (each proved in its own module). -/
variable
  (hE0 : ∀ (V : (c : Dev nD) → (b : Ref sig .tc) → Buf (Elt Ideal) ((c : Thread nD τ).loc b)) (c : Dev nD),
    (dat0 (F := Ideal) V c).arrAt 3 cfg0.N = edgeIdx (V c main_v4) (V c main_v6) (V c main_v9))
  (hN1 : ∀ (V : (c : Dev nD) → (b : Ref sig .tc) → Buf (Elt Ideal) ((c : Thread nD τ).loc b)) (c : Dev nD),
    (dat1 (F := Ideal) V c).arrAt 3 cfg1.N = nodeIdx (V c main_v15) (V c main_v17) (V c main_v20))

include hE0 in
/-- Layer 0's edge embedding. -/
theorem stage0 (c : Dev nD) :
    W2 m ρ c (no_index (Proc.devRef .tc main_v10))
      = edgeIdx (eaOf (m ((c.tc : Thread nD τ).loc main_arg1)))
          (wE ![0, 0, 0] slices_S3x1x64_S1x1x64_0_0_0 (m ((c.tc : Thread nD τ).loc main_arg2)))
          (row (b1 ![0, 0] slices_S3x64_S1x64_0_0 (m ((c.tc : Thread nD τ).loc main_arg3)))) := by
  refine (W2_arr m ρ c 3).trans ((hE0 (V1 m ρ) c).trans (edgeIdx_congr ?_ ?_ ?_))
  · fold_back []
    try rfl
  · fold_back []
    try rfl
  · fold_back []
    try rfl

set_option maxHeartbeats 4000000 in
include hE0 hN1 in
/-- The node features after layer 0. -/
theorem stage1 (c : Dev nD) :
    W5 m ρ c (no_index (Proc.devRef .tc main_v21))
      = layer ![0, 0, 0] ![0, 0] slices_S3x1x64_S1x1x64_0_0_0 slices_S3x64_S1x64_0_0 slices_S3x128x64_S1x128x64_0_0_0
          (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg8))
          (m ((c.tc : Thread nD τ).loc main_arg0)) := by
  refine (W5_arr m ρ c 3).trans ((hN1 (V4 m ρ) c).trans (nodeIdx_congr ?_ ?_ ?_))
  · have h11 : W3 m ρ c (Proc.devRef .tc main_v11) = take (m ((c.tc : Thread nD τ).loc main_arg0)) (srcOf (m ((c.tc : Thread nD τ).loc main_arg8))) := by
      fold_back [stage0 m ρ hE0]
      try rfl
    have h10 : W3 m ρ c (Proc.devRef .tc main_v10) = (edgeIdx (eaOf (m ((c.tc : Thread nD τ).loc main_arg1))) (wE ![0, 0, 0] slices_S3x1x64_S1x1x64_0_0_0 (m ((c.tc : Thread nD τ).loc main_arg2))) (row (b1 ![0, 0] slices_S3x64_S1x64_0_0 (m ((c.tc : Thread nD τ).loc main_arg3))))) := by
      fold_back [stage0 m ρ hE0]
      try rfl
    have h3 : W3 m ρ c (Proc.devRef .tc main_v3) = dstOf (m ((c.tc : Thread nD τ).loc main_arg8)) := by
      fold_back []
      try rfl
    simp only [V4, W4, hostOps1_1]
    generalize W3 m ρ c = W at h11 h10 h3 ⊢
    after_results
    rw [h11, h10, h3]
    rfl
  · fold_back []
    try rfl
  · fold_back []
    try rfl

variable
  (hE2 : ∀ (V : (c : Dev nD) → (b : Ref sig .tc) → Buf (Elt Ideal) ((c : Thread nD τ).loc b)) (c : Dev nD),
    (dat2 (F := Ideal) V c).arrAt 3 cfg2.N = edgeIdx (V c main_v4) (V c main_v23) (V c main_v26))
  (hN3 : ∀ (V : (c : Dev nD) → (b : Ref sig .tc) → Buf (Elt Ideal) ((c : Thread nD τ).loc b)) (c : Dev nD),
    (dat3 (F := Ideal) V c).arrAt 3 cfg3.N = nodeIdx (V c main_v32) (V c main_v34) (V c main_v37))
  (hE4 : ∀ (V : (c : Dev nD) → (b : Ref sig .tc) → Buf (Elt Ideal) ((c : Thread nD τ).loc b)) (c : Dev nD),
    (dat4 (F := Ideal) V c).arrAt 3 cfg4.N = edgeIdx (V c main_v4) (V c main_v40) (V c main_v43))
  (hN5 : ∀ (V : (c : Dev nD) → (b : Ref sig .tc) → Buf (Elt Ideal) ((c : Thread nD τ).loc b)) (c : Dev nD),
    (dat5 (F := Ideal) V c).arrAt 3 cfg5.N = nodeIdx (V c main_v49) (V c main_v51) (V c main_v54))
  (hF6 : ∀ (V : (c : Dev nD) → (b : Ref sig .tc) → Buf (Elt Ideal) ((c : Thread nD τ).loc b)) (c : Dev nD),
    (dat6 (F := Ideal) V c).arrAt 3 cfg6.N = fcIdx (V c main_v66) (V c main_arg6) (V c main_v67))

include hE2 in
/-- Layer 1's edge embedding. -/
theorem stage2 (c : Dev nD) :
    W7 m ρ c (no_index (Proc.devRef .tc main_v27))
      = edgeIdx (eaOf (m ((c.tc : Thread nD τ).loc main_arg1)))
          (wE ![1, 0, 0] slices_S3x1x64_S1x1x64_1_0_0 (m ((c.tc : Thread nD τ).loc main_arg2)))
          (row (b1 ![1, 0] slices_S3x64_S1x64_1_0 (m ((c.tc : Thread nD τ).loc main_arg3)))) := by
  refine (W7_arr m ρ c 3).trans ((hE2 (V6 m ρ) c).trans (edgeIdx_congr ?_ ?_ ?_))
  · fold_back []
    try rfl
  · fold_back []
    try rfl
  · fold_back []
    try rfl

set_option maxHeartbeats 4000000 in
include hE0 hN1 hE2 hN3 in
/-- The node features after layer 1. -/
theorem stage3 (c : Dev nD) :
    W10 m ρ c (no_index (Proc.devRef .tc main_v38))
      = layer ![1, 0, 0] ![1, 0] slices_S3x1x64_S1x1x64_1_0_0 slices_S3x64_S1x64_1_0 slices_S3x128x64_S1x128x64_1_0_0
          (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg8))
          (layer ![0, 0, 0] ![0, 0] slices_S3x1x64_S1x1x64_0_0_0 slices_S3x64_S1x64_0_0 slices_S3x128x64_S1x128x64_0_0_0
          (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg8))
          (m ((c.tc : Thread nD τ).loc main_arg0))) := by
  refine (W10_arr m ρ c 3).trans ((hN3 (V9 m ρ) c).trans (nodeIdx_congr ?_ ?_ ?_))
  · have h11 : W8 m ρ c (Proc.devRef .tc main_v28) = take (layer ![0, 0, 0] ![0, 0] slices_S3x1x64_S1x1x64_0_0_0 slices_S3x64_S1x64_0_0 slices_S3x128x64_S1x128x64_0_0_0
          (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg8))
          (m ((c.tc : Thread nD τ).loc main_arg0))) (srcOf (m ((c.tc : Thread nD τ).loc main_arg8))) := by
      fold_back [stage1 m ρ hE0 hN1, stage2 m ρ hE2]
      try rfl
    have h10 : W8 m ρ c (Proc.devRef .tc main_v27) = (edgeIdx (eaOf (m ((c.tc : Thread nD τ).loc main_arg1))) (wE ![1, 0, 0] slices_S3x1x64_S1x1x64_1_0_0 (m ((c.tc : Thread nD τ).loc main_arg2))) (row (b1 ![1, 0] slices_S3x64_S1x64_1_0 (m ((c.tc : Thread nD τ).loc main_arg3))))) := by
      fold_back [stage1 m ρ hE0 hN1, stage2 m ρ hE2]
      try rfl
    have h3 : W8 m ρ c (Proc.devRef .tc main_v3) = dstOf (m ((c.tc : Thread nD τ).loc main_arg8)) := by
      fold_back []
      try rfl
    simp only [V9, W9, hostOps3_1]
    generalize W8 m ρ c = W at h11 h10 h3 ⊢
    after_results
    rw [h11, h10, h3]
    rfl
  · fold_back []
    try rfl
  · fold_back []
    try rfl

include hE4 in
/-- Layer 2's edge embedding. -/
theorem stage4 (c : Dev nD) :
    W12 m ρ c (no_index (Proc.devRef .tc main_v44))
      = edgeIdx (eaOf (m ((c.tc : Thread nD τ).loc main_arg1)))
          (wE ![2, 0, 0] slices_S3x1x64_S1x1x64_2_0_0 (m ((c.tc : Thread nD τ).loc main_arg2)))
          (row (b1 ![2, 0] slices_S3x64_S1x64_2_0 (m ((c.tc : Thread nD τ).loc main_arg3)))) := by
  refine (W12_arr m ρ c 3).trans ((hE4 (V11 m ρ) c).trans (edgeIdx_congr ?_ ?_ ?_))
  · fold_back []
    try rfl
  · fold_back []
    try rfl
  · fold_back []
    try rfl

set_option maxHeartbeats 4000000 in
include hE0 hN1 hE2 hN3 hE4 hN5 in
/-- The node features after layer 2. -/
theorem stage5 (c : Dev nD) :
    W15 m ρ c (no_index (Proc.devRef .tc main_v55))
      = layer ![2, 0, 0] ![2, 0] slices_S3x1x64_S1x1x64_2_0_0 slices_S3x64_S1x64_2_0 slices_S3x128x64_S1x128x64_2_0_0
          (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg8))
          (layer ![1, 0, 0] ![1, 0] slices_S3x1x64_S1x1x64_1_0_0 slices_S3x64_S1x64_1_0 slices_S3x128x64_S1x128x64_1_0_0
          (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg8))
          (layer ![0, 0, 0] ![0, 0] slices_S3x1x64_S1x1x64_0_0_0 slices_S3x64_S1x64_0_0 slices_S3x128x64_S1x128x64_0_0_0
          (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg8))
          (m ((c.tc : Thread nD τ).loc main_arg0)))) := by
  refine (W15_arr m ρ c 3).trans ((hN5 (V14 m ρ) c).trans (nodeIdx_congr ?_ ?_ ?_))
  · have h11 : W13 m ρ c (Proc.devRef .tc main_v45) = take (layer ![1, 0, 0] ![1, 0] slices_S3x1x64_S1x1x64_1_0_0 slices_S3x64_S1x64_1_0 slices_S3x128x64_S1x128x64_1_0_0
          (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg8))
          (layer ![0, 0, 0] ![0, 0] slices_S3x1x64_S1x1x64_0_0_0 slices_S3x64_S1x64_0_0 slices_S3x128x64_S1x128x64_0_0_0
          (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg8))
          (m ((c.tc : Thread nD τ).loc main_arg0)))) (srcOf (m ((c.tc : Thread nD τ).loc main_arg8))) := by
      fold_back [stage3 m ρ hE0 hN1 hE2 hN3, stage4 m ρ hE4]
      try rfl
    have h10 : W13 m ρ c (Proc.devRef .tc main_v44) = (edgeIdx (eaOf (m ((c.tc : Thread nD τ).loc main_arg1))) (wE ![2, 0, 0] slices_S3x1x64_S1x1x64_2_0_0 (m ((c.tc : Thread nD τ).loc main_arg2))) (row (b1 ![2, 0] slices_S3x64_S1x64_2_0 (m ((c.tc : Thread nD τ).loc main_arg3))))) := by
      fold_back [stage3 m ρ hE0 hN1 hE2 hN3, stage4 m ρ hE4]
      try rfl
    have h3 : W13 m ρ c (Proc.devRef .tc main_v3) = dstOf (m ((c.tc : Thread nD τ).loc main_arg8)) := by
      fold_back []
      try rfl
    simp only [V14, W14, hostOps5_1]
    generalize W13 m ρ c = W at h11 h10 h3 ⊢
    after_results
    rw [h11, h10, h3]
    rfl
  · fold_back []
    try rfl
  · fold_back []
    try rfl

set_option maxHeartbeats 4000000 in
include hE0 hN1 hE2 hN3 hE4 hN5 hF6 in
/-- THE RESULT: the read-out of the mean-pooled node features after the three layers. -/
theorem result_value (c : Dev nD) :
    W17 m ρ c (Proc.devRef .tc main_v68)
      = fcIdx (pool (m ((c.tc : Thread nD τ).loc main_arg9))
          (layer ![2, 0, 0] ![2, 0] slices_S3x1x64_S1x1x64_2_0_0 slices_S3x64_S1x64_2_0 slices_S3x128x64_S1x128x64_2_0_0
          (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg8))
          (layer ![1, 0, 0] ![1, 0] slices_S3x1x64_S1x1x64_1_0_0 slices_S3x64_S1x64_1_0 slices_S3x128x64_S1x128x64_1_0_0
          (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg8))
          (layer ![0, 0, 0] ![0, 0] slices_S3x1x64_S1x1x64_0_0_0 slices_S3x64_S1x64_0_0 slices_S3x128x64_S1x128x64_0_0_0
          (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg8))
          (m ((c.tc : Thread nD τ).loc main_arg0))))))
          (m ((c.tc : Thread nD τ).loc main_arg6)) (cell (m ((c.tc : Thread nD τ).loc main_arg7))) := by
  refine (W17_arr m ρ c 3).trans ((hF6 (V16 m ρ) c).trans (fcIdx_congr ?_ ?_ ?_))
  · fold_back [stage5 m ρ hE0 hN1 hE2 hN3 hE4 hN5]
    try rfl
  · fold_back []
    try rfl
  · fold_back []
    try rfl

end Chain

end Cert.KernelIdeal.Gen

end
-- ==== Proof.RefValue.lean ====
/-
  What the reference program's result buffer holds after the run, as ONE function of the argument arrays. The program is
  a straight line of host operations, taken in four chunks with a cut before each concatenate; what every chunk leaves in
  the buffers the later ones read is folded back to the launch contents chunk by chunk. The value: three message-passing
  layers, each "edge embedding (a one-term inner product plus a bias), gather at the wrapped source indices, scatter-sum over
  the destinations, 128-term inner product plus bias, clip at zero, leaky slope", then the mean pool and the read-out.
-/
import proofs.«404665_j1864015807087_1_alg».proof.Proof.RefRunBase
import Idealize.ShloMosaic.PureOps.Ideal

set_option maxRecDepth 16384

noncomputable section

namespace Cert.RHost

open Idealize.ShloMosaic Cert.ReferenceIdeal Cert.ReferenceIdeal.Facts₀

def srcOf (a8 : IVec S2x800000 32) : IVec S800000 32 :=
  shapeCast S800000 (extractStridedSlice S1x800000 ![0, 0] a8 slices_S2x800000_S1x800000_0_0) shapeCasts_S1x800000_S800000
def dstOf (a8 : IVec S2x800000 32) : IVec S800000 32 :=
  shapeCast S800000 (extractStridedSlice S1x800000 ![1, 0] a8 slices_S2x800000_S1x800000_1_0) shapeCasts_S1x800000_S800000
def eaOf (a1 : FVec Ideal S800000 .f32) : FVec Ideal S800000x1 .f32 := shapeCast S800000x1 a1 shapeCasts_S800000_S800000x1
def wE (st : Fin 3 → Nat) (h : S3x1x64.Slices st S1x1x64) (a2 : FVec Ideal S3x1x64 .f32) : FVec Ideal S1x64 .f32 :=
  shapeCast S1x64 (extractStridedSlice S1x1x64 st a2 h) shapeCasts_S1x1x64_S1x64
def b1 (st : Fin 2 → Nat) (h : S3x64.Slices st S1x64) (a3 : FVec Ideal S3x64 .f32) : FVec Ideal S64 .f32 :=
  shapeCast S64 (extractStridedSlice S1x64 st a3 h) shapeCasts_S1x64_S64
def wN (st : Fin 3 → Nat) (h : S3x128x64.Slices st S1x128x64) (a4 : FVec Ideal S3x128x64 .f32) : FVec Ideal S128x64 .f32 :=
  shapeCast S128x64 (extractStridedSlice S1x128x64 st a4 h) shapeCasts_S1x128x64_S128x64

/-- The gather's index column: negative entries wrapped by the node count. -/
def wrapIdx (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)
/-- Rows of `x` at the wrapped source indices. -/
def gath (x : FVec Ideal S50000x64 .f32) (src : IVec S800000 32) : FVec Ideal S800000x64 .f32 :=
  Host.gather gather_S50000x64_S800000x1_S800000x64_1_0_n_n_0_1_164 x (wrapIdx src)
/-- The edge embedding: the edge attribute column times the weight row, plus the bias on every row. -/
def emb (ea : FVec Ideal S800000x1 .f32) (w : FVec Ideal S1x64 .f32) (b : FVec Ideal S64 .f32) : FVec Ideal S800000x64 .f32 :=
  addf (Host.dotGeneral dot_S800000x1_S1x64_S800000x64_1_0_0_1_n_n none ea w)
    (broadcastInDim S800000x64 ![0, 1] bcast_S1x64_S800000x64_0_1 (broadcastInDim S1x64 ![1] bcast_S64_S1x64_1 b))
/-- The scatter-sum over the destinations of [gathered rows | edge embedding]. -/
def aggr (dst : IVec S800000 32) (xj e : FVec Ideal S800000x64 .f32) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (concatenate S800000x128 1 [⟨S800000x64, xj⟩, ⟨S800000x64, e⟩] concatenates_S800000x64_S800000x64_S800000x128_d1)
/-- The node update: inner products plus bias, clipped at zero, then the leaky slope. -/
def node (a : FVec Ideal S50000x128 .f32) (w : FVec Ideal S128x64 .f32) (b : FVec Ideal S64 .f32) : FVec Ideal S50000x64 .f32 :=
  let r : FVec Ideal S50000x64 .f32 := maximumf (addf (Host.dotGeneral dot_S50000x128_S128x64_S50000x64_1_0_0_1_n_n none a w)
        (broadcastInDim S50000x64 ![0, 1] bcast_S1x64_S50000x64_0_1 (broadcastInDim S1x64 ![1] bcast_S64_S1x64_1 b)))
        (broadcastInDim S50000x64 ![] bcast_S_S50000x64 (constant (F := Ideal) S_ .f32 0x00000000#32))
  select (cmpf .oge r (broadcastInDim S50000x64 ![] bcast_S_S50000x64 (constant (F := Ideal) S_ .f32 0x00000000#32))) r
    (mulf (broadcastInDim S50000x64 ![] bcast_S_S50000x64 (constant (F := Ideal) S_ .f32 0x3C23D70A#32)) r)
/-- One message-passing layer on the node features `x`. -/
def layer (s3 : Fin 3 → Nat) (s2 : Fin 2 → Nat) (hE : S3x1x64.Slices s3 S1x1x64) (hB : S3x64.Slices s2 S1x64)
    (hN : S3x128x64.Slices s3 S1x128x64)
    (x1 : FVec Ideal S800000 .f32) (x2 : FVec Ideal S3x1x64 .f32) (x3 : FVec Ideal S3x64 .f32) (x4 : FVec Ideal S3x128x64 .f32)
    (x5 : FVec Ideal S3x64 .f32) (x8 : IVec S2x800000 32) (x : FVec Ideal S50000x64 .f32) : FVec Ideal S50000x64 .f32 :=
  node (aggr (dstOf x8) (gath x (srcOf x8)) (emb (eaOf x1) (wE s3 hE x2) (b1 s2 hB x3))) (wN s3 hN x4) (b1 s2 hB x5)
/-- The mean pool over the graph ids. -/
def pool (batch : IVec S50000 32) (x : FVec Ideal S50000x64 .f32) : FVec Ideal S64x64 .f32 :=
  Host.divf
    (Host.scatterAdd scatter_S64x64_S50000x1_S50000x64_1_0_0_1
      (broadcastInDim S64x64 ![] bcast_S_S64x64 (constant (F := Ideal) S_ .f32 0x00000000#32))
      (broadcastInDim S50000x1 ![0] bcast_S50000_S50000x1_0 batch) x)
    (broadcastInDim S64x64 ![0, 1] bcast_S64x1_S64x64_0_1
      (maximumf
        (Host.scatterAdd scatter_S64x1_S50000x1_S50000x1_1_0_0_1
          (broadcastInDim S64x1 ![] bcast_S_S64x1 (constant (F := Ideal) S_ .f32 0x00000000#32))
          (broadcastInDim S50000x1 ![0] bcast_S50000_S50000x1_0 batch)
          (broadcastInDim S50000x1 ![] bcast_S_S50000x1 (constant (F := Ideal) S_ .f32 0x3F800000#32)))
        (broadcastInDim S64x1 ![] bcast_S_S64x1 (constant (F := Ideal) S_ .f32 0x3F800000#32))))
/-- The read-out: 64-term inner products plus the scalar bias. -/
def out (p : FVec Ideal S64x64 .f32) (w : FVec Ideal S64x1 .f32) (b : FVec Ideal S1 .f32) : FVec Ideal S64x1 .f32 :=
  addf (Host.dotGeneral dot_S64x64_S64x1_S64x1_1_0_0_1_n_n none p w)
    (broadcastInDim S64x1 ![0, 1] bcast_S1x1_S64x1_0_1 (broadcastInDim S1x1 ![1] bcast_S1_S1x1_1 b))

end Cert.RHost

namespace Cert.ReferenceIdeal.ValueP

open Cert.ReferenceIdeal Cert.ReferenceIdeal.Gen Idealize.ShloMosaic Idealize.ShloMosaic.TcCoe Idealize.SL.Sem Idealize.ShloMosaic.StableHlo
open Cert.RHost

variable (m : (ℓ : Loc nD τ sig) → Buf (Elt Ideal) ℓ)

/-- One chunk's fold: each operation's result at its own buffer is its function's value of its operands, every other
    buffer is what it was; the typed references' transports cancel. -/
local macro "fold_r" : tactic =>
  `(tactic| simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', cast_cast, cast_eq])

/-! ## After the first chunk -/

theorem A1 (d : Dev nD) : (after opsA (launchContents m d)) (Proc.devRef .tc main_v1) = srcOf (m ((d.tc : Thread nD τ).loc main_arg8)) := by
  simp only [opsA]
  fold_r
  try rfl

theorem A3 (d : Dev nD) : (after opsA (launchContents m d)) (Proc.devRef .tc main_v3) = dstOf (m ((d.tc : Thread nD τ).loc main_arg8)) := by
  simp only [opsA]
  fold_r
  try rfl

theorem A4 (d : Dev nD) : (after opsA (launchContents m d)) (Proc.devRef .tc main_v4) = eaOf (m ((d.tc : Thread nD τ).loc main_arg1)) := by
  simp only [opsA]
  fold_r
  try rfl

theorem A19 (d : Dev nD) : (after opsA (launchContents m d)) (Proc.devRef .tc main_v19) = gath (m ((d.tc : Thread nD τ).loc main_arg0)) (srcOf (m ((d.tc : Thread nD τ).loc main_arg8))) := by
  simp only [opsA]
  fold_r
  try rfl

theorem A12 (d : Dev nD) : (after opsA (launchContents m d)) (Proc.devRef .tc main_v12) = (emb (eaOf (m ((d.tc : Thread nD τ).loc main_arg1))) (wE ![0, 0, 0] Facts₀.slices_S3x1x64_S1x1x64_0_0_0 (m ((d.tc : Thread nD τ).loc main_arg2))) (b1 ![0, 0] Facts₀.slices_S3x64_S1x64_0_0 (m ((d.tc : Thread nD τ).loc main_arg3)))) := by
  simp only [opsA]
  fold_r
  try rfl

theorem Aa0 (d : Dev nD) : (after opsA (launchContents m d)) (Proc.devRef .tc main_arg0) = (m ((d.tc : Thread nD τ).loc main_arg0)) := by
  simp only [opsA]
  fold_r
  try rfl

theorem Aa1 (d : Dev nD) : (after opsA (launchContents m d)) (Proc.devRef .tc main_arg1) = (m ((d.tc : Thread nD τ).loc main_arg1)) := by
  simp only [opsA]
  fold_r
  try rfl

theorem Aa2 (d : Dev nD) : (after opsA (launchContents m d)) (Proc.devRef .tc main_arg2) = (m ((d.tc : Thread nD τ).loc main_arg2)) := by
  simp only [opsA]
  fold_r
  try rfl

theorem Aa3 (d : Dev nD) : (after opsA (launchContents m d)) (Proc.devRef .tc main_arg3) = (m ((d.tc : Thread nD τ).loc main_arg3)) := by
  simp only [opsA]
  fold_r
  try rfl

theorem Aa4 (d : Dev nD) : (after opsA (launchContents m d)) (Proc.devRef .tc main_arg4) = (m ((d.tc : Thread nD τ).loc main_arg4)) := by
  simp only [opsA]
  fold_r
  try rfl

theorem Aa5 (d : Dev nD) : (after opsA (launchContents m d)) (Proc.devRef .tc main_arg5) = (m ((d.tc : Thread nD τ).loc main_arg5)) := by
  simp only [opsA]
  fold_r
  try rfl

theorem Aa6 (d : Dev nD) : (after opsA (launchContents m d)) (Proc.devRef .tc main_arg6) = (m ((d.tc : Thread nD τ).loc main_arg6)) := by
  simp only [opsA]
  fold_r
  try rfl

theorem Aa7 (d : Dev nD) : (after opsA (launchContents m d)) (Proc.devRef .tc main_arg7) = (m ((d.tc : Thread nD τ).loc main_arg7)) := by
  simp only [opsA]
  fold_r
  try rfl

theorem Aa8 (d : Dev nD) : (after opsA (launchContents m d)) (Proc.devRef .tc main_arg8) = (m ((d.tc : Thread nD τ).loc main_arg8)) := by
  simp only [opsA]
  fold_r
  try rfl

theorem Aa9 (d : Dev nD) : (after opsA (launchContents m d)) (Proc.devRef .tc main_arg9) = (m ((d.tc : Thread nD τ).loc main_arg9)) := by
  simp only [opsA]
  fold_r
  try rfl

/-! ## After the second chunk -/

theorem B1 (d : Dev nD) : (after opsB (after opsA (launchContents m d))) (Proc.devRef .tc main_v1) = srcOf (m ((d.tc : Thread nD τ).loc main_arg8)) := by
  have h := A1 m d
  generalize (after opsA (launchContents m d)) = W at h ⊢
  simp only [opsB]
  fold_r
  try rw [h]

theorem B3 (d : Dev nD) : (after opsB (after opsA (launchContents m d))) (Proc.devRef .tc main_v3) = dstOf (m ((d.tc : Thread nD τ).loc main_arg8)) := by
  have h := A3 m d
  generalize (after opsA (launchContents m d)) = W at h ⊢
  simp only [opsB]
  fold_r
  try rw [h]

theorem B4 (d : Dev nD) : (after opsB (after opsA (launchContents m d))) (Proc.devRef .tc main_v4) = eaOf (m ((d.tc : Thread nD τ).loc main_arg1)) := by
  have h := A4 m d
  generalize (after opsA (launchContents m d)) = W at h ⊢
  simp only [opsB]
  fold_r
  try rw [h]

theorem Ba0 (d : Dev nD) : (after opsB (after opsA (launchContents m d))) (Proc.devRef .tc main_arg0) = (m ((d.tc : Thread nD τ).loc main_arg0)) := by
  have h := Aa0 m d
  generalize (after opsA (launchContents m d)) = W at h ⊢
  simp only [opsB]
  fold_r
  try rw [h]

theorem Ba1 (d : Dev nD) : (after opsB (after opsA (launchContents m d))) (Proc.devRef .tc main_arg1) = (m ((d.tc : Thread nD τ).loc main_arg1)) := by
  have h := Aa1 m d
  generalize (after opsA (launchContents m d)) = W at h ⊢
  simp only [opsB]
  fold_r
  try rw [h]

theorem Ba2 (d : Dev nD) : (after opsB (after opsA (launchContents m d))) (Proc.devRef .tc main_arg2) = (m ((d.tc : Thread nD τ).loc main_arg2)) := by
  have h := Aa2 m d
  generalize (after opsA (launchContents m d)) = W at h ⊢
  simp only [opsB]
  fold_r
  try rw [h]

theorem Ba3 (d : Dev nD) : (after opsB (after opsA (launchContents m d))) (Proc.devRef .tc main_arg3) = (m ((d.tc : Thread nD τ).loc main_arg3)) := by
  have h := Aa3 m d
  generalize (after opsA (launchContents m d)) = W at h ⊢
  simp only [opsB]
  fold_r
  try rw [h]

theorem Ba4 (d : Dev nD) : (after opsB (after opsA (launchContents m d))) (Proc.devRef .tc main_arg4) = (m ((d.tc : Thread nD τ).loc main_arg4)) := by
  have h := Aa4 m d
  generalize (after opsA (launchContents m d)) = W at h ⊢
  simp only [opsB]
  fold_r
  try rw [h]

theorem Ba5 (d : Dev nD) : (after opsB (after opsA (launchContents m d))) (Proc.devRef .tc main_arg5) = (m ((d.tc : Thread nD τ).loc main_arg5)) := by
  have h := Aa5 m d
  generalize (after opsA (launchContents m d)) = W at h ⊢
  simp only [opsB]
  fold_r
  try rw [h]

theorem Ba6 (d : Dev nD) : (after opsB (after opsA (launchContents m d))) (Proc.devRef .tc main_arg6) = (m ((d.tc : Thread nD τ).loc main_arg6)) := by
  have h := Aa6 m d
  generalize (after opsA (launchContents m d)) = W at h ⊢
  simp only [opsB]
  fold_r
  try rw [h]

theorem Ba7 (d : Dev nD) : (after opsB (after opsA (launchContents m d))) (Proc.devRef .tc main_arg7) = (m ((d.tc : Thread nD τ).loc main_arg7)) := by
  have h := Aa7 m d
  generalize (after opsA (launchContents m d)) = W at h ⊢
  simp only [opsB]
  fold_r
  try rw [h]

theorem Ba8 (d : Dev nD) : (after opsB (after opsA (launchContents m d))) (Proc.devRef .tc main_arg8) = (m ((d.tc : Thread nD τ).loc main_arg8)) := by
  have h := Aa8 m d
  generalize (after opsA (launchContents m d)) = W at h ⊢
  simp only [opsB]
  fold_r
  try rw [h]

theorem Ba9 (d : Dev nD) : (after opsB (after opsA (launchContents m d))) (Proc.devRef .tc main_arg9) = (m ((d.tc : Thread nD τ).loc main_arg9)) := by
  have h := Aa9 m d
  generalize (after opsA (launchContents m d)) = W at h ⊢
  simp only [opsB]
  fold_r
  try rw [h]

set_option maxHeartbeats 4000000 in
theorem B52 (d : Dev nD) : (after opsB (after opsA (launchContents m d))) (Proc.devRef .tc main_v52) = gath (layer ![0, 0, 0] ![0, 0] Facts₀.slices_S3x1x64_S1x1x64_0_0_0 Facts₀.slices_S3x64_S1x64_0_0 Facts₀.slices_S3x128x64_S1x128x64_0_0_0 (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg8)) (m ((d.tc : Thread nD τ).loc main_arg0))) (srcOf (m ((d.tc : Thread nD τ).loc main_arg8))) := by
  have h19 := A19 m d; have h12 := A12 m d; have h3 := A3 m d; have h1 := A1 m d
  have h4 := Aa4 m d; have h5 := Aa5 m d
  generalize (after opsA (launchContents m d)) = W at h19 h12 h3 h1 h4 h5 ⊢
  simp only [opsB]
  fold_r
  rw [h19, h12]
  simp only [h3, h1, h4, h5]
  try rfl

set_option maxHeartbeats 4000000 in
theorem B45 (d : Dev nD) : (after opsB (after opsA (launchContents m d))) (Proc.devRef .tc main_v45) = (emb (eaOf (m ((d.tc : Thread nD τ).loc main_arg1))) (wE ![1, 0, 0] Facts₀.slices_S3x1x64_S1x1x64_1_0_0 (m ((d.tc : Thread nD τ).loc main_arg2))) (b1 ![1, 0] Facts₀.slices_S3x64_S1x64_1_0 (m ((d.tc : Thread nD τ).loc main_arg3)))) := by
  have h4 := A4 m d; have h2 := Aa2 m d; have h3 := Aa3 m d
  generalize (after opsA (launchContents m d)) = W at h4 h2 h3 ⊢
  simp only [opsB]
  fold_r
  simp only [h4, h2, h3]
  try rfl

/-! ## After the third chunk -/

theorem C3 (d : Dev nD) : (after opsC (after opsB (after opsA (launchContents m d)))) (Proc.devRef .tc main_v3) = dstOf (m ((d.tc : Thread nD τ).loc main_arg8)) := by
  have h := B3 m d
  generalize (after opsB (after opsA (launchContents m d))) = W at h ⊢
  simp only [opsC]
  fold_r
  try rw [h]

theorem Ca0 (d : Dev nD) : (after opsC (after opsB (after opsA (launchContents m d)))) (Proc.devRef .tc main_arg0) = (m ((d.tc : Thread nD τ).loc main_arg0)) := by
  have h := Ba0 m d
  generalize (after opsB (after opsA (launchContents m d))) = W at h ⊢
  simp only [opsC]
  fold_r
  try rw [h]

theorem Ca1 (d : Dev nD) : (after opsC (after opsB (after opsA (launchContents m d)))) (Proc.devRef .tc main_arg1) = (m ((d.tc : Thread nD τ).loc main_arg1)) := by
  have h := Ba1 m d
  generalize (after opsB (after opsA (launchContents m d))) = W at h ⊢
  simp only [opsC]
  fold_r
  try rw [h]

theorem Ca2 (d : Dev nD) : (after opsC (after opsB (after opsA (launchContents m d)))) (Proc.devRef .tc main_arg2) = (m ((d.tc : Thread nD τ).loc main_arg2)) := by
  have h := Ba2 m d
  generalize (after opsB (after opsA (launchContents m d))) = W at h ⊢
  simp only [opsC]
  fold_r
  try rw [h]

theorem Ca3 (d : Dev nD) : (after opsC (after opsB (after opsA (launchContents m d)))) (Proc.devRef .tc main_arg3) = (m ((d.tc : Thread nD τ).loc main_arg3)) := by
  have h := Ba3 m d
  generalize (after opsB (after opsA (launchContents m d))) = W at h ⊢
  simp only [opsC]
  fold_r
  try rw [h]

theorem Ca4 (d : Dev nD) : (after opsC (after opsB (after opsA (launchContents m d)))) (Proc.devRef .tc main_arg4) = (m ((d.tc : Thread nD τ).loc main_arg4)) := by
  have h := Ba4 m d
  generalize (after opsB (after opsA (launchContents m d))) = W at h ⊢
  simp only [opsC]
  fold_r
  try rw [h]

theorem Ca5 (d : Dev nD) : (after opsC (after opsB (after opsA (launchContents m d)))) (Proc.devRef .tc main_arg5) = (m ((d.tc : Thread nD τ).loc main_arg5)) := by
  have h := Ba5 m d
  generalize (after opsB (after opsA (launchContents m d))) = W at h ⊢
  simp only [opsC]
  fold_r
  try rw [h]

theorem Ca6 (d : Dev nD) : (after opsC (after opsB (after opsA (launchContents m d)))) (Proc.devRef .tc main_arg6) = (m ((d.tc : Thread nD τ).loc main_arg6)) := by
  have h := Ba6 m d
  generalize (after opsB (after opsA (launchContents m d))) = W at h ⊢
  simp only [opsC]
  fold_r
  try rw [h]

theorem Ca7 (d : Dev nD) : (after opsC (after opsB (after opsA (launchContents m d)))) (Proc.devRef .tc main_arg7) = (m ((d.tc : Thread nD τ).loc main_arg7)) := by
  have h := Ba7 m d
  generalize (after opsB (after opsA (launchContents m d))) = W at h ⊢
  simp only [opsC]
  fold_r
  try rw [h]

theorem Ca8 (d : Dev nD) : (after opsC (after opsB (after opsA (launchContents m d)))) (Proc.devRef .tc main_arg8) = (m ((d.tc : Thread nD τ).loc main_arg8)) := by
  have h := Ba8 m d
  generalize (after opsB (after opsA (launchContents m d))) = W at h ⊢
  simp only [opsC]
  fold_r
  try rw [h]

theorem Ca9 (d : Dev nD) : (after opsC (after opsB (after opsA (launchContents m d)))) (Proc.devRef .tc main_arg9) = (m ((d.tc : Thread nD τ).loc main_arg9)) := by
  have h := Ba9 m d
  generalize (after opsB (after opsA (launchContents m d))) = W at h ⊢
  simp only [opsC]
  fold_r
  try rw [h]

set_option maxHeartbeats 4000000 in
theorem C85 (d : Dev nD) : (after opsC (after opsB (after opsA (launchContents m d)))) (Proc.devRef .tc main_v85) = gath (layer ![1, 0, 0] ![1, 0] Facts₀.slices_S3x1x64_S1x1x64_1_0_0 Facts₀.slices_S3x64_S1x64_1_0 Facts₀.slices_S3x128x64_S1x128x64_1_0_0 (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg8)) (layer ![0, 0, 0] ![0, 0] Facts₀.slices_S3x1x64_S1x1x64_0_0_0 Facts₀.slices_S3x64_S1x64_0_0 Facts₀.slices_S3x128x64_S1x128x64_0_0_0 (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg8)) (m ((d.tc : Thread nD τ).loc main_arg0)))) (srcOf (m ((d.tc : Thread nD τ).loc main_arg8))) := by
  have h52 := B52 m d; have h45 := B45 m d; have h3 := B3 m d; have h1 := B1 m d
  have h4 := Ba4 m d; have h5 := Ba5 m d
  generalize (after opsB (after opsA (launchContents m d))) = W at h52 h45 h3 h1 h4 h5 ⊢
  simp only [opsC]
  fold_r
  rw [h52, h45]
  simp only [h3, h1, h4, h5]
  try rfl

set_option maxHeartbeats 4000000 in
theorem C78 (d : Dev nD) : (after opsC (after opsB (after opsA (launchContents m d)))) (Proc.devRef .tc main_v78) = (emb (eaOf (m ((d.tc : Thread nD τ).loc main_arg1))) (wE ![2, 0, 0] Facts₀.slices_S3x1x64_S1x1x64_2_0_0 (m ((d.tc : Thread nD τ).loc main_arg2))) (b1 ![2, 0] Facts₀.slices_S3x64_S1x64_2_0 (m ((d.tc : Thread nD τ).loc main_arg3)))) := by
  have h4 := B4 m d; have h2 := Ba2 m d; have h3 := Ba3 m d
  generalize (after opsB (after opsA (launchContents m d))) = W at h4 h2 h3 ⊢
  simp only [opsC]
  fold_r
  simp only [h4, h2, h3]
  try rfl

/-! ## After the last chunk: the result -/

set_option maxHeartbeats 4000000 in
theorem D118 (d : Dev nD) : (after opsD (after opsC (after opsB (after opsA (launchContents m d))))) (Proc.devRef .tc main_v118) = out (pool (m ((d.tc : Thread nD τ).loc main_arg9)) (layer ![2, 0, 0] ![2, 0] Facts₀.slices_S3x1x64_S1x1x64_2_0_0 Facts₀.slices_S3x64_S1x64_2_0 Facts₀.slices_S3x128x64_S1x128x64_2_0_0 (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg8)) (layer ![1, 0, 0] ![1, 0] Facts₀.slices_S3x1x64_S1x1x64_1_0_0 Facts₀.slices_S3x64_S1x64_1_0 Facts₀.slices_S3x128x64_S1x128x64_1_0_0 (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg8)) (layer ![0, 0, 0] ![0, 0] Facts₀.slices_S3x1x64_S1x1x64_0_0_0 Facts₀.slices_S3x64_S1x64_0_0 Facts₀.slices_S3x128x64_S1x128x64_0_0_0 (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg8)) (m ((d.tc : Thread nD τ).loc main_arg0)))))) (m ((d.tc : Thread nD τ).loc main_arg6)) (m ((d.tc : Thread nD τ).loc main_arg7)) := by
  have h85 := C85 m d; have h78 := C78 m d; have h3 := C3 m d
  have h4 := Ca4 m d; have h5 := Ca5 m d; have h6 := Ca6 m d; have h7 := Ca7 m d; have h9 := Ca9 m d
  generalize (after opsC (after opsB (after opsA (launchContents m d)))) = W at h85 h78 h3 h4 h5 h6 h7 h9 ⊢
  simp only [opsD]
  fold_r
  rw [h85, h78]
  simp only [h3, h4, h5, h6, h7, h9]
  try rfl

theorem Da0 (d : Dev nD) : (after opsD (after opsC (after opsB (after opsA (launchContents m d))))) (Proc.devRef .tc main_arg0) = (m ((d.tc : Thread nD τ).loc main_arg0)) := by
  have h := Ca0 m d
  generalize (after opsC (after opsB (after opsA (launchContents m d)))) = W at h ⊢
  simp only [opsD]
  fold_r
  try rw [h]

theorem Da1 (d : Dev nD) : (after opsD (after opsC (after opsB (after opsA (launchContents m d))))) (Proc.devRef .tc main_arg1) = (m ((d.tc : Thread nD τ).loc main_arg1)) := by
  have h := Ca1 m d
  generalize (after opsC (after opsB (after opsA (launchContents m d)))) = W at h ⊢
  simp only [opsD]
  fold_r
  try rw [h]

theorem Da2 (d : Dev nD) : (after opsD (after opsC (after opsB (after opsA (launchContents m d))))) (Proc.devRef .tc main_arg2) = (m ((d.tc : Thread nD τ).loc main_arg2)) := by
  have h := Ca2 m d
  generalize (after opsC (after opsB (after opsA (launchContents m d)))) = W at h ⊢
  simp only [opsD]
  fold_r
  try rw [h]

theorem Da3 (d : Dev nD) : (after opsD (after opsC (after opsB (after opsA (launchContents m d))))) (Proc.devRef .tc main_arg3) = (m ((d.tc : Thread nD τ).loc main_arg3)) := by
  have h := Ca3 m d
  generalize (after opsC (after opsB (after opsA (launchContents m d)))) = W at h ⊢
  simp only [opsD]
  fold_r
  try rw [h]

theorem Da4 (d : Dev nD) : (after opsD (after opsC (after opsB (after opsA (launchContents m d))))) (Proc.devRef .tc main_arg4) = (m ((d.tc : Thread nD τ).loc main_arg4)) := by
  have h := Ca4 m d
  generalize (after opsC (after opsB (after opsA (launchContents m d)))) = W at h ⊢
  simp only [opsD]
  fold_r
  try rw [h]

theorem Da5 (d : Dev nD) : (after opsD (after opsC (after opsB (after opsA (launchContents m d))))) (Proc.devRef .tc main_arg5) = (m ((d.tc : Thread nD τ).loc main_arg5)) := by
  have h := Ca5 m d
  generalize (after opsC (after opsB (after opsA (launchContents m d)))) = W at h ⊢
  simp only [opsD]
  fold_r
  try rw [h]

theorem Da6 (d : Dev nD) : (after opsD (after opsC (after opsB (after opsA (launchContents m d))))) (Proc.devRef .tc main_arg6) = (m ((d.tc : Thread nD τ).loc main_arg6)) := by
  have h := Ca6 m d
  generalize (after opsC (after opsB (after opsA (launchContents m d)))) = W at h ⊢
  simp only [opsD]
  fold_r
  try rw [h]

theorem Da7 (d : Dev nD) : (after opsD (after opsC (after opsB (after opsA (launchContents m d))))) (Proc.devRef .tc main_arg7) = (m ((d.tc : Thread nD τ).loc main_arg7)) := by
  have h := Ca7 m d
  generalize (after opsC (after opsB (after opsA (launchContents m d)))) = W at h ⊢
  simp only [opsD]
  fold_r
  try rw [h]

theorem Da8 (d : Dev nD) : (after opsD (after opsC (after opsB (after opsA (launchContents m d))))) (Proc.devRef .tc main_arg8) = (m ((d.tc : Thread nD τ).loc main_arg8)) := by
  have h := Ca8 m d
  generalize (after opsC (after opsB (after opsA (launchContents m d)))) = W at h ⊢
  simp only [opsD]
  fold_r
  try rw [h]

theorem Da9 (d : Dev nD) : (after opsD (after opsC (after opsB (after opsA (launchContents m d))))) (Proc.devRef .tc main_arg9) = (m ((d.tc : Thread nD τ).loc main_arg9)) := by
  have h := Ca9 m d
  generalize (after opsC (after opsB (after opsA (launchContents m d)))) = W at h ⊢
  simp only [opsD]
  fold_r
  try rw [h]

/-! ## The whole line -/

/-- The result buffer after the whole line. -/
theorem result (d : Dev nD) :
    after ops (launchContents m d) (Proc.devRef .tc main_v118)
      = out (pool (m ((d.tc : Thread nD τ).loc main_arg9)) (layer ![2, 0, 0] ![2, 0] Facts₀.slices_S3x1x64_S1x1x64_2_0_0 Facts₀.slices_S3x64_S1x64_2_0 Facts₀.slices_S3x128x64_S1x128x64_2_0_0 (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg8)) (layer ![1, 0, 0] ![1, 0] Facts₀.slices_S3x1x64_S1x1x64_1_0_0 Facts₀.slices_S3x64_S1x64_1_0 Facts₀.slices_S3x128x64_S1x128x64_1_0_0 (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg8)) (layer ![0, 0, 0] ![0, 0] Facts₀.slices_S3x1x64_S1x1x64_0_0_0 Facts₀.slices_S3x64_S1x64_0_0 Facts₀.slices_S3x128x64_S1x128x64_0_0_0 (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg8)) (m ((d.tc : Thread nD τ).loc main_arg0)))))) (m ((d.tc : Thread nD τ).loc main_arg6)) (m ((d.tc : Thread nD τ).loc main_arg7)) := by
  rw [after_ops]; exact D118 m d

/-- Argument 0 is written by no operation. -/
theorem kept0 (d : Dev nD) : after ops (launchContents m d) (Proc.devRef .tc main_arg0) = (m ((d.tc : Thread nD τ).loc main_arg0)) := by
  rw [after_ops]; exact Da0 m d
/-- Argument 1 is written by no operation. -/
theorem kept1 (d : Dev nD) : after ops (launchContents m d) (Proc.devRef .tc main_arg1) = (m ((d.tc : Thread nD τ).loc main_arg1)) := by
  rw [after_ops]; exact Da1 m d
/-- Argument 2 is written by no operation. -/
theorem kept2 (d : Dev nD) : after ops (launchContents m d) (Proc.devRef .tc main_arg2) = (m ((d.tc : Thread nD τ).loc main_arg2)) := by
  rw [after_ops]; exact Da2 m d
/-- Argument 3 is written by no operation. -/
theorem kept3 (d : Dev nD) : after ops (launchContents m d) (Proc.devRef .tc main_arg3) = (m ((d.tc : Thread nD τ).loc main_arg3)) := by
  rw [after_ops]; exact Da3 m d
/-- Argument 4 is written by no operation. -/
theorem kept4 (d : Dev nD) : after ops (launchContents m d) (Proc.devRef .tc main_arg4) = (m ((d.tc : Thread nD τ).loc main_arg4)) := by
  rw [after_ops]; exact Da4 m d
/-- Argument 5 is written by no operation. -/
theorem kept5 (d : Dev nD) : after ops (launchContents m d) (Proc.devRef .tc main_arg5) = (m ((d.tc : Thread nD τ).loc main_arg5)) := by
  rw [after_ops]; exact Da5 m d
/-- Argument 6 is written by no operation. -/
theorem kept6 (d : Dev nD) : after ops (launchContents m d) (Proc.devRef .tc main_arg6) = (m ((d.tc : Thread nD τ).loc main_arg6)) := by
  rw [after_ops]; exact Da6 m d
/-- Argument 7 is written by no operation. -/
theorem kept7 (d : Dev nD) : after ops (launchContents m d) (Proc.devRef .tc main_arg7) = (m ((d.tc : Thread nD τ).loc main_arg7)) := by
  rw [after_ops]; exact Da7 m d
/-- Argument 8 is written by no operation. -/
theorem kept8 (d : Dev nD) : after ops (launchContents m d) (Proc.devRef .tc main_arg8) = (m ((d.tc : Thread nD τ).loc main_arg8)) := by
  rw [after_ops]; exact Da8 m d
/-- Argument 9 is written by no operation. -/
theorem kept9 (d : Dev nD) : after ops (launchContents m d) (Proc.devRef .tc main_arg9) = (m ((d.tc : Thread nD τ).loc main_arg9)) := by
  rw [after_ops]; exact Da9 m d

end Cert.ReferenceIdeal.ValueP

end
-- ==== Proof.RefStages.lean ====
/-
  The reference's host expression of each of the three stages, read index by index on the extended reals:
  a contraction over one axis is the finite sum of products along that axis, a broadcast along a unit axis reads
  the operand at coordinate zero there, and a reshape of a vector to a one-row matrix keeps the row-major position.
  Each stage therefore equals its index formula, for arbitrary operand arrays.
-/
import proofs.«404665_j1864015807087_1_alg».proof.ReferenceIdeal
import proofs.«404665_j1864015807087_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge

open Idealize.ShloMosaic Idealize.ShloMosaic.ValueIdx Cert.ReferenceIdeal

variable [Cert.ReferenceIdeal.Facts]

open Cert.ReferenceIdeal.Facts₀

/-! ## Edge stage: contraction over an axis of extent one -/

/-- The left operand's index keeps the output's row on axis 0. -/
theorem lhs_edge_0 (i : S800000x64.Idx) (q : dot_S800000x1_S1x64_S800000x64_1_0_0_1_n_n.contr.Idx) :
    (dot_S800000x1_S1x64_S800000x64_1_0_0_1_n_n.lhsIdx i q 0).val = (i 0).val := by
  unfold DotDims.lhsIdx
  rw [dif_neg (show ¬(0 : Fin S800000x1.rank) ∈ dot_S800000x1_S1x64_S800000x64_1_0_0_1_n_n.lhsBatch from List.not_mem_nil), dif_pos (show (0 : Fin S800000x1.rank) ∈ dot_S800000x1_S1x64_S800000x64_1_0_0_1_n_n.lhsNonContracting from List.mem_singleton.mpr rfl)]
  rfl
/-- The left operand's index carries the contraction coordinate on axis 1. -/
theorem lhs_edge_1 (i : S800000x64.Idx) (q : dot_S800000x1_S1x64_S800000x64_1_0_0_1_n_n.contr.Idx) :
    (dot_S800000x1_S1x64_S800000x64_1_0_0_1_n_n.lhsIdx i q 1).val = (q ⟨0, Nat.one_pos⟩).val :=
  dot_S800000x1_S1x64_S800000x64_1_0_0_1_n_n.lhsIdx_val_of_single rfl i q
/-- The right operand's index carries the contraction coordinate on axis 0. -/
theorem rhs_edge_0 (i : S800000x64.Idx) (q : dot_S800000x1_S1x64_S800000x64_1_0_0_1_n_n.contr.Idx) :
    (dot_S800000x1_S1x64_S800000x64_1_0_0_1_n_n.rhsIdx i q 0).val = (q ⟨0, Nat.one_pos⟩).val :=
  dot_S800000x1_S1x64_S800000x64_1_0_0_1_n_n.rhsIdx_val_of_single rfl i q
/-- The right operand's index keeps the output's column on axis 1. -/
theorem rhs_edge_1 (i : S800000x64.Idx) (q : dot_S800000x1_S1x64_S800000x64_1_0_0_1_n_n.contr.Idx) :
    (dot_S800000x1_S1x64_S800000x64_1_0_0_1_n_n.rhsIdx i q 1).val = (i 1).val := by
  unfold DotDims.rhsIdx
  rw [dif_neg (show ¬(1 : Fin S1x64.rank) ∈ dot_S800000x1_S1x64_S800000x64_1_0_0_1_n_n.rhsBatch from List.not_mem_nil), dif_pos (show (1 : Fin S1x64.rank) ∈ dot_S800000x1_S1x64_S800000x64_1_0_0_1_n_n.rhsNonContracting from List.mem_singleton.mpr rfl)]
  rfl

/-- The edge contraction at (e, h) is the sum over the one contracted coordinate of ea[e, k] · w[k, h]. -/
theorem edge_dot_apply (ea : FVec Ideal S800000x1 .f32) (w : FVec Ideal S1x64 .f32) (i : S800000x64.Idx) :
    Host.dotGeneral dot_S800000x1_S1x64_S800000x64_1_0_0_1_n_n none ea w i
      = ∑ k : Fin 1, ea (ix2 (n0 := 800000) (n1 := 1) (i 0) k) * w (ix2 (n0 := 1) (n1 := 64) k (i 1)) := by
  simp only [Host.dotGeneral]
  rw [Ideal.dotGeneral_apply, ← Equiv.sum_comp (contrEquiv1 dot_S800000x1_S1x64_S800000x64_1_0_0_1_n_n 1 rfl rfl).symm]
  refine Finset.sum_congr rfl fun k _ => ?_
  have hk := contrEquiv1_symm_val dot_S800000x1_S1x64_S800000x64_1_0_0_1_n_n 1 rfl rfl k
  have el : dot_S800000x1_S1x64_S800000x64_1_0_0_1_n_n.lhsIdx i ((contrEquiv1 dot_S800000x1_S1x64_S800000x64_1_0_0_1_n_n 1 rfl rfl).symm k)
      = ix2 (n0 := 800000) (n1 := 1) (i 0) k := funext fun a => Fin.ext (by
    match a with
    | ⟨0, _⟩ => exact lhs_edge_0 _ _
    | ⟨1, _⟩ => exact (lhs_edge_1 _ _).trans hk)
  have er : dot_S800000x1_S1x64_S800000x64_1_0_0_1_n_n.rhsIdx i ((contrEquiv1 dot_S800000x1_S1x64_S800000x64_1_0_0_1_n_n 1 rfl rfl).symm k)
      = ix2 (n0 := 1) (n1 := 64) k (i 1) := funext fun a => Fin.ext (by
    match a with
    | ⟨0, _⟩ => exact (rhs_edge_0 _ _).trans hk
    | ⟨1, _⟩ => exact rhs_edge_1 _ _)
  rw [el, er]

/-- A bias vector broadcast to one row and then down every row of a matrix with 64 columns, read at (r, h), is
    the vector reshaped to one row read at (0, h). -/
theorem bias_row_apply (b : FVec Ideal S64 .f32)
    (hsc : Cert.KernelIdeal.S64.ShapeCasts Cert.KernelIdeal.S1x64) (c : Fin 64) :
    broadcastInDim S1x64 ![1] bcast_S64_S1x64_1 b (ix2 (n0 := 1) (n1 := 64) 0 c)
      = shapeCast Cert.KernelIdeal.S1x64 b hsc (ix2 (n0 := 1) (n1 := 64) 0 c) := by
  rw [broadcastInDim_apply _ bcast_S64_S1x64_1 b (ix2 (n0 := 1) (n1 := 64) 0 c) (ix1 (n := 64) c) (fun a => match a with
    | ⟨0, _⟩ => by show c.val = if (64 : Nat) = 1 then 0 else c.val; rw [if_neg (by decide)])]
  symm
  exact shapeCast_apply b hsc (ix2 (n0 := 1) (n1 := 64) 0 c) (ix1 (n := 64) c)
    (by rewrite [Shape.rowMajor_val_two, Shape.rowMajor_val_one]; show c.val = 0 * 64 + c.val; omega)

theorem edge_ref (ea : FVec Ideal S800000x1 .f32) (w : FVec Ideal S1x64 .f32) (b : FVec Ideal S64 .f32)
    (hsc : Cert.KernelIdeal.S64.ShapeCasts Cert.KernelIdeal.S1x64) :
    addf (Host.dotGeneral dot_S800000x1_S1x64_S800000x64_1_0_0_1_n_n none ea w)
      (broadcastInDim S800000x64 ![0, 1] bcast_S1x64_S800000x64_0_1 (broadcastInDim S1x64 ![1] bcast_S64_S1x64_1 b))
    = edgeIdx ea w (shapeCast Cert.KernelIdeal.S1x64 b hsc) := by
  funext i
  rw [addf_apply, edge_dot_apply, Fin.sum_univ_one]
  rw [broadcastInDim_apply _ bcast_S1x64_S800000x64_0_1 _ i (ix2 (n0 := 1) (n1 := 64) 0 (i 1)) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])]
  rw [bias_row_apply b hsc (i 1)]
  rfl

/-! ## Read-out stage: contraction over an axis of extent 64 -/

/-- The left operand's index keeps the output's row on axis 0. -/
theorem lhs_fc_0 (i : S64x1.Idx) (q : dot_S64x64_S64x1_S64x1_1_0_0_1_n_n.contr.Idx) :
    (dot_S64x64_S64x1_S64x1_1_0_0_1_n_n.lhsIdx i q 0).val = (i 0).val := by
  unfold DotDims.lhsIdx
  rw [dif_neg (show ¬(0 : Fin S64x64.rank) ∈ dot_S64x64_S64x1_S64x1_1_0_0_1_n_n.lhsBatch from List.not_mem_nil), dif_pos (show (0 : Fin S64x64.rank) ∈ dot_S64x64_S64x1_S64x1_1_0_0_1_n_n.lhsNonContracting from List.mem_singleton.mpr rfl)]
  rfl
/-- The left operand's index carries the contraction coordinate on axis 1. -/
theorem lhs_fc_1 (i : S64x1.Idx) (q : dot_S64x64_S64x1_S64x1_1_0_0_1_n_n.contr.Idx) :
    (dot_S64x64_S64x1_S64x1_1_0_0_1_n_n.lhsIdx i q 1).val = (q ⟨0, Nat.one_pos⟩).val :=
  dot_S64x64_S64x1_S64x1_1_0_0_1_n_n.lhsIdx_val_of_single rfl i q
/-- The right operand's index carries the contraction coordinate on axis 0. -/
theorem rhs_fc_0 (i : S64x1.Idx) (q : dot_S64x64_S64x1_S64x1_1_0_0_1_n_n.contr.Idx) :
    (dot_S64x64_S64x1_S64x1_1_0_0_1_n_n.rhsIdx i q 0).val = (q ⟨0, Nat.one_pos⟩).val :=
  dot_S64x64_S64x1_S64x1_1_0_0_1_n_n.rhsIdx_val_of_single rfl i q
/-- The right operand's index keeps the output's column on axis 1. -/
theorem rhs_fc_1 (i : S64x1.Idx) (q : dot_S64x64_S64x1_S64x1_1_0_0_1_n_n.contr.Idx) :
    (dot_S64x64_S64x1_S64x1_1_0_0_1_n_n.rhsIdx i q 1).val = (i 1).val := by
  unfold DotDims.rhsIdx
  rw [dif_neg (show ¬(1 : Fin S64x1.rank) ∈ dot_S64x64_S64x1_S64x1_1_0_0_1_n_n.rhsBatch from List.not_mem_nil), dif_pos (show (1 : Fin S64x1.rank) ∈ dot_S64x64_S64x1_S64x1_1_0_0_1_n_n.rhsNonContracting from List.mem_singleton.mpr rfl)]
  rfl

/-- The read-out contraction at (g, c) is the sum over k < 64 of p[g, k] · w[k, c]. -/
theorem fc_dot_apply (p : FVec Ideal S64x64 .f32) (w : FVec Ideal S64x1 .f32) (i : S64x1.Idx) :
    Host.dotGeneral dot_S64x64_S64x1_S64x1_1_0_0_1_n_n none p w i
      = ∑ k : Fin 64, p (ix2 (n0 := 64) (n1 := 64) (i 0) k) * w (ix2 (n0 := 64) (n1 := 1) k (i 1)) := by
  simp only [Host.dotGeneral]
  rw [Ideal.dotGeneral_apply, ← Equiv.sum_comp (contrEquiv1 dot_S64x64_S64x1_S64x1_1_0_0_1_n_n 64 rfl rfl).symm]
  refine Finset.sum_congr rfl fun k _ => ?_
  have hk := contrEquiv1_symm_val dot_S64x64_S64x1_S64x1_1_0_0_1_n_n 64 rfl rfl k
  have el : dot_S64x64_S64x1_S64x1_1_0_0_1_n_n.lhsIdx i ((contrEquiv1 dot_S64x64_S64x1_S64x1_1_0_0_1_n_n 64 rfl rfl).symm k)
      = ix2 (n0 := 64) (n1 := 64) (i 0) k := funext fun a => Fin.ext (by
    match a with
    | ⟨0, _⟩ => exact lhs_fc_0 _ _
    | ⟨1, _⟩ => exact (lhs_fc_1 _ _).trans hk)
  have er : dot_S64x64_S64x1_S64x1_1_0_0_1_n_n.rhsIdx i ((contrEquiv1 dot_S64x64_S64x1_S64x1_1_0_0_1_n_n 64 rfl rfl).symm k)
      = ix2 (n0 := 64) (n1 := 1) k (i 1) := funext fun a => Fin.ext (by
    match a with
    | ⟨0, _⟩ => exact (rhs_fc_0 _ _).trans hk
    | ⟨1, _⟩ => exact rhs_fc_1 _ _)
  rw [el, er]

/-- A one-element bias broadcast to a 1×1 matrix, read at (0, 0), is the vector reshaped to 1×1 read there. -/
theorem bias_one_apply (b : FVec Ideal S1 .f32)
    (hsc : Cert.KernelIdeal.S1.ShapeCasts Cert.KernelIdeal.S1x1) :
    broadcastInDim S1x1 ![1] bcast_S1_S1x1_1 b (ix2 (n0 := 1) (n1 := 1) 0 0)
      = shapeCast Cert.KernelIdeal.S1x1 b hsc (ix2 (n0 := 1) (n1 := 1) 0 0) := by
  rw [broadcastInDim_apply _ bcast_S1_S1x1_1 b (ix2 (n0 := 1) (n1 := 1) 0 0) (ix1 (n := 1) 0) (fun a => match a with
    | ⟨0, _⟩ => by show 0 = if (1 : Nat) = 1 then 0 else 0; rw [if_pos rfl])]
  symm
  exact shapeCast_apply b hsc (ix2 (n0 := 1) (n1 := 1) 0 0) (ix1 (n := 1) 0)
    (by rewrite [Shape.rowMajor_val_two, Shape.rowMajor_val_one]; show 0 = 0 * 1 + 0; omega)

theorem fc_ref (p : FVec Ideal S64x64 .f32) (w : FVec Ideal S64x1 .f32) (b : FVec Ideal S1 .f32)
    (hsc : Cert.KernelIdeal.S1.ShapeCasts Cert.KernelIdeal.S1x1) :
    addf (Host.dotGeneral dot_S64x64_S64x1_S64x1_1_0_0_1_n_n none p w)
      (broadcastInDim S64x1 ![0, 1] bcast_S1x1_S64x1_0_1 (broadcastInDim S1x1 ![1] bcast_S1_S1x1_1 b))
    = fcIdx p w (shapeCast Cert.KernelIdeal.S1x1 b hsc) := by
  funext i
  rw [addf_apply, fc_dot_apply]
  rw [broadcastInDim_apply _ bcast_S1x1_S64x1_0_1 _ i (ix2 (n0 := 1) (n1 := 1) 0 0) (fun a => match a with
    | ⟨0, _⟩ => by show 0 = if (1 : Nat) = 1 then 0 else (i 0).val; rw [if_pos rfl]
    | ⟨1, _⟩ => by show 0 = if (1 : Nat) = 1 then 0 else (i 1).val; rw [if_pos rfl])]
  rw [bias_one_apply b hsc]
  rfl

/-! ## Node stage: contraction over an axis of extent 128, then the clip and the leaky branch -/

/-- The left operand's index keeps the output's row on axis 0. -/
theorem lhs_node_0 (i : S50000x64.Idx) (q : dot_S50000x128_S128x64_S50000x64_1_0_0_1_n_n.contr.Idx) :
    (dot_S50000x128_S128x64_S50000x64_1_0_0_1_n_n.lhsIdx i q 0).val = (i 0).val := by
  unfold DotDims.lhsIdx
  rw [dif_neg (show ¬(0 : Fin S50000x128.rank) ∈ dot_S50000x128_S128x64_S50000x64_1_0_0_1_n_n.lhsBatch from List.not_mem_nil), dif_pos (show (0 : Fin S50000x128.rank) ∈ dot_S50000x128_S128x64_S50000x64_1_0_0_1_n_n.lhsNonContracting from List.mem_singleton.mpr rfl)]
  rfl
/-- The left operand's index carries the contraction coordinate on axis 1. -/
theorem lhs_node_1 (i : S50000x64.Idx) (q : dot_S50000x128_S128x64_S50000x64_1_0_0_1_n_n.contr.Idx) :
    (dot_S50000x128_S128x64_S50000x64_1_0_0_1_n_n.lhsIdx i q 1).val = (q ⟨0, Nat.one_pos⟩).val :=
  dot_S50000x128_S128x64_S50000x64_1_0_0_1_n_n.lhsIdx_val_of_single rfl i q
/-- The right operand's index carries the contraction coordinate on axis 0. -/
theorem rhs_node_0 (i : S50000x64.Idx) (q : dot_S50000x128_S128x64_S50000x64_1_0_0_1_n_n.contr.Idx) :
    (dot_S50000x128_S128x64_S50000x64_1_0_0_1_n_n.rhsIdx i q 0).val = (q ⟨0, Nat.one_pos⟩).val :=
  dot_S50000x128_S128x64_S50000x64_1_0_0_1_n_n.rhsIdx_val_of_single rfl i q
/-- The right operand's index keeps the output's column on axis 1. -/
theorem rhs_node_1 (i : S50000x64.Idx) (q : dot_S50000x128_S128x64_S50000x64_1_0_0_1_n_n.contr.Idx) :
    (dot_S50000x128_S128x64_S50000x64_1_0_0_1_n_n.rhsIdx i q 1).val = (i 1).val := by
  unfold DotDims.rhsIdx
  rw [dif_neg (show ¬(1 : Fin S128x64.rank) ∈ dot_S50000x128_S128x64_S50000x64_1_0_0_1_n_n.rhsBatch from List.not_mem_nil), dif_pos (show (1 : Fin S128x64.rank) ∈ dot_S50000x128_S128x64_S50000x64_1_0_0_1_n_n.rhsNonContracting from List.mem_singleton.mpr rfl)]
  rfl

/-- The node contraction at (n, h) is the sum over k < 128 of a[n, k] · w[k, h]. -/
theorem node_dot_apply (a : FVec Ideal S50000x128 .f32) (w : FVec Ideal S128x64 .f32) (i : S50000x64.Idx) :
    Host.dotGeneral dot_S50000x128_S128x64_S50000x64_1_0_0_1_n_n none a w i
      = ∑ k : Fin 128, a (ix2 (n0 := 50000) (n1 := 128) (i 0) k) * w (ix2 (n0 := 128) (n1 := 64) k (i 1)) := by
  simp only [Host.dotGeneral]
  rw [Ideal.dotGeneral_apply, ← Equiv.sum_comp (contrEquiv1 dot_S50000x128_S128x64_S50000x64_1_0_0_1_n_n 128 rfl rfl).symm]
  refine Finset.sum_congr rfl fun k _ => ?_
  have hk := contrEquiv1_symm_val dot_S50000x128_S128x64_S50000x64_1_0_0_1_n_n 128 rfl rfl k
  have el : dot_S50000x128_S128x64_S50000x64_1_0_0_1_n_n.lhsIdx i ((contrEquiv1 dot_S50000x128_S128x64_S50000x64_1_0_0_1_n_n 128 rfl rfl).symm k)
      = ix2 (n0 := 50000) (n1 := 128) (i 0) k := funext fun a => Fin.ext (by
    match a with
    | ⟨0, _⟩ => exact lhs_node_0 _ _
    | ⟨1, _⟩ => exact (lhs_node_1 _ _).trans hk)
  have er : dot_S50000x128_S128x64_S50000x64_1_0_0_1_n_n.rhsIdx i ((contrEquiv1 dot_S50000x128_S128x64_S50000x64_1_0_0_1_n_n 128 rfl rfl).symm k)
      = ix2 (n0 := 128) (n1 := 64) k (i 1) := funext fun a => Fin.ext (by
    match a with
    | ⟨0, _⟩ => exact (rhs_node_0 _ _).trans hk
    | ⟨1, _⟩ => exact rhs_node_1 _ _)
  rw [el, er]

/-- A scalar constant broadcast over the node matrix reads, everywhere, the extended real of its word. -/
theorem node_scalar_apply (z : BitVec 32) (i : S50000x64.Idx) :
    broadcastInDim S50000x64 ![] bcast_S_S50000x64 (constant (F := Ideal) S_ .f32 z) i = Ideal.ofBits .f32 z := by
  rw [broadcastInDim_apply _ bcast_S_S50000x64 (constant (F := Ideal) S_ .f32 z) i ix0 (fun a => a.elim0)]
  rfl

/-- The bias row broadcast down the node matrix, read at (n, h), is the vector reshaped to one row read at (0, h). -/
theorem node_bias_apply (b : FVec Ideal S64 .f32)
    (hsc : Cert.KernelIdeal.S64.ShapeCasts Cert.KernelIdeal.S1x64) (i : S50000x64.Idx) :
    broadcastInDim S50000x64 ![0, 1] bcast_S1x64_S50000x64_0_1 (broadcastInDim S1x64 ![1] bcast_S64_S1x64_1 b) i
      = shapeCast Cert.KernelIdeal.S1x64 b hsc (ix2 (n0 := 1) (n1 := 64) 0 (i 1)) := by
  rw [broadcastInDim_apply _ bcast_S1x64_S50000x64_0_1 _ i (ix2 (n0 := 1) (n1 := 64) 0 (i 1)) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])]
  exact bias_row_apply b hsc (i 1)

theorem node_ref (a : FVec Ideal S50000x128 .f32) (w : FVec Ideal S128x64 .f32) (b : FVec Ideal S64 .f32)
    (hsc : Cert.KernelIdeal.S64.ShapeCasts Cert.KernelIdeal.S1x64) :
    (let r : FVec Ideal S50000x64 .f32 := maximumf (addf (Host.dotGeneral dot_S50000x128_S128x64_S50000x64_1_0_0_1_n_n none a w)
          (broadcastInDim S50000x64 ![0, 1] bcast_S1x64_S50000x64_0_1 (broadcastInDim S1x64 ![1] bcast_S64_S1x64_1 b)))
          (broadcastInDim S50000x64 ![] bcast_S_S50000x64 (constant (F := Ideal) S_ .f32 0x00000000#32))
     select (cmpf .oge r (broadcastInDim S50000x64 ![] bcast_S_S50000x64 (constant (F := Ideal) S_ .f32 0x00000000#32))) r
       (mulf (broadcastInDim S50000x64 ![] bcast_S_S50000x64 (constant (F := Ideal) S_ .f32 0x3C23D70A#32)) r))
    = nodeIdx a w (shapeCast Cert.KernelIdeal.S1x64 b hsc) := by
  funext i
  simp only [select_apply, cmpf_apply, maximumf_apply, mulf_apply, addf_apply, node_scalar_apply, node_dot_apply, node_bias_apply b hsc]
  rfl

end Cert.Bridge

end
-- ==== Proof.SrcRange.lean ====
/-
  The index input's row 0 under the precondition, and the masked row read against the plain gather.

  The host code reads node rows with out-of-range rows replaced by NaN: a row index is first wrapped (a negative entry
  has the axis length 50000 added), then tested against [0, 49999]; where the test fails the gathered row is replaced
  by NaN. The precondition's last conjunct says every entry of row 0 of the int32[2, 800000] index input lies in
  [0, 50000). `src_range` reads that conjunct back as the two signed inequalities at each entry; `take_eq_gather`
  shows that with every entry in range the wrap leaves the entry alone, the test holds everywhere, the mask is all
  ones, and the select is therefore the gather itself.
-/
import proofs.«404665_j1864015807087_1_alg».proof.KernelIdeal
import proofs.«404665_j1864015807087_1_alg».proof.Pre_finite_inputs
import Idealize.ShloMosaic.Lib.ValueIdx
import Idealize.ShloMosaic.Lib.Pipeline.Value
import Idealize.ShloMosaic.Lib.ReduceAll
import Idealize.ShloMosaic.Lib.StableHlo.Predicate

set_option maxRecDepth 16384

noncomputable section

namespace Cert.Bridge
open Idealize.ShloMosaic Idealize.ShloMosaic.ValueIdx Cert.KernelIdeal
variable [Cert.KernelIdeal.Facts]
open Cert.KernelIdeal.Facts₀

/-- Row 0 of the index input as a vector of 800000 words (the same two operations both programs and the precondition apply). -/
def srcOf (a8 : IVec S2x800000 32) : IVec S800000 32 :=
  shapeCast S800000 (extractStridedSlice S1x800000 ![0, 0] a8 slices_S2x800000_S1x800000_0_0) shapeCasts_S1x800000_S800000

/-- The index vector both programs gather with: negative entries wrapped by the axis length, as a column. -/
def wrapIdx (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- (1) The precondition gives the range of every entry. -/
theorem src_range [Cert.Pre_finite_inputs.Facts] (a0 : FVec Ideal S50000x64 .f32) (a1 : FVec Ideal S800000 .f32) (a2 : FVec Ideal S3x1x64 .f32) (a3 : FVec Ideal S3x64 .f32)
    (a4 : FVec Ideal S3x128x64 .f32) (a5 : FVec Ideal S3x64 .f32) (a6 : FVec Ideal S64x1 .f32) (a7 : FVec Ideal S1 .f32) (a8 : IVec S2x800000 32) (a9 : IVec S50000 32)
    (h : Cert.Pre_finite_inputs.fn (F := Ideal) a0 a1 a2 a3 a4 a5 a6 a7 a8 a9 = fun _ => 1#1) (e : S800000.Idx) :
    0 ≤ (srcOf a8 e).toInt ∧ (srcOf a8 e).toInt < 50000 := by
  haveI : Subsingleton Cert.Pre_finite_inputs.S_.Idx := ⟨fun a b => funext fun d => d.elim0⟩
  have p := congrFun h ValueIdx.ix0
  dsimp only [Cert.Pre_finite_inputs.fn, Cert.Pre_finite_inputs.fn_part1, Cert.Pre_finite_inputs.fn_part2] at p
  have p2 := (IntOp.andi_eq_one.1 p).2
  have p3 := Host.reduce_andi_all _ _ _ _ _ p2 e
  obtain ⟨hge, hlt⟩ := IntOp.andi_eq_one.1 p3
  have h0 := IntOp.cmpi_sge.1 hge
  have h1 := IntOp.cmpi_slt.1 hlt
  exact ⟨h0, h1⟩

/-- A left fold by `and` from 1 over one-bit words that are all 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, hl => by
    rw [List.foldl_cons, hl a List.mem_cons_self, show IntOp.andi 1#1 1#1 = 1#1 from by decide]
    exact foldl_andi_ones f l fun n hn => hl n (List.mem_cons_of_mem _ hn)

/-- A word that is not negative is kept by the wrap (the select on "below zero" takes its last operand). -/
theorem wrap_word (s : BitVec 32) (h0 : 0 ≤ s.toInt) :
    Scalar.select (IntOp.cmpi .slt s 0#32) (IntOp.addi s 50000#32) s = s := by
  have hn : ¬ IntOp.cmpi .slt s 0#32 = 1#1 := fun hc => by
    have hlt := IntOp.cmpi_slt.1 hc
    have z : (0#32 : BitVec 32).toInt = 0 := by decide
    omega
  rw [eq_zero_of_ne_one hn, select_zero]

/-- A word in [0, 50000) passes the test against [0, 49999]. -/
theorem test_word (s : BitVec 32) (h0 : 0 ≤ s.toInt) (h1 : s.toInt < 50000) :
    IntOp.andi (IntOp.cmpi .sge s 0#32) (IntOp.cmpi .sle s 49999#32) = 1#1 := by
  have z : (0#32 : BitVec 32).toInt = 0 := by decide
  have n : (49999#32 : BitVec 32).toInt = 49999 := by decide
  exact IntOp.andi_eq_one.2 ⟨IntOp.cmpi_sge.2 (by omega), IntOp.cmpi_sle.2 (by omega)⟩

/-- With every entry not negative, each row of the wrapped column is an entry of `src`, unchanged. -/
theorem wrapIdx_apply (src : IVec S800000 32) (h : ∀ e : S800000.Idx, 0 ≤ (src e).toInt ∧ (src e).toInt < 50000)
    (k : S800000x1.Idx) : ∃ e : S800000.Idx, wrapIdx src k = src e := by
  unfold wrapIdx broadcastInDim
  exact ⟨_, wrap_word _ (h _).1⟩

/-- With every entry in range the test holds at every row of the column. -/
theorem test_apply (src : IVec S800000 32) (h : ∀ e : S800000.Idx, 0 ≤ (src e).toInt ∧ (src e).toInt < 50000)
    (k : S800000x1.Idx) :
    andi (cmpi .sge (wrapIdx src) (broadcastInDim S800000x1 ![] bcast_S_S800000x1 (constantI S_ 32 0#32)))
         (cmpi .sle (wrapIdx src) (broadcastInDim S800000x1 ![0, 1] bcast_S1x1_S800000x1_0_1 (broadcastInDim S1x1 ![1] bcast_S1_S1x1_1 (constantI S1 32 49999#32)))) k
      = 1#1 := by
  obtain ⟨e, he⟩ := wrapIdx_apply src h k
  show IntOp.andi (IntOp.cmpi .sge (wrapIdx src k) 0#32) (IntOp.cmpi .sle (wrapIdx src k) 49999#32) = 1#1
  rw [he]
  exact test_word _ (h e).1 (h e).2

/-- So the reduction of the test by `and` over the column's unit axis is 1 at every row. -/
theorem mask_apply (src : IVec S800000 32) (h : ∀ e : S800000.Idx, 0 ≤ (src e).toInt ∧ (src e).toInt < 50000)
    (j : S800000.Idx) :
    Host.reduce IntOp.andi
        (andi (cmpi .sge (wrapIdx src) (broadcastInDim S800000x1 ![] bcast_S_S800000x1 (constantI S_ 32 0#32)))
              (cmpi .sle (wrapIdx src) (broadcastInDim S800000x1 ![0, 1] bcast_S1x1_S800000x1_0_1 (broadcastInDim S1x1 ![1] bcast_S1_S1x1_1 (constantI S1 32 49999#32)))))
        (constantI S_ 1 1#1) reducesTo_S800000x1_S800000_d1 h_S_ j
      = 1#1 := by
  rw [Host.reduce_eq_foldl]
  exact foldl_andi_ones _ _ fun k _ => test_apply src h k

/-- A select on a mask of ones broadcast along the rows is its first operand. -/
theorem select_ones {α : Type} (m : IVec S800000 1) (hm : ∀ j, m j = 1#1) (a b : S800000x64.Idx → α) :
    select (broadcastInDim S800000x64 ![0] bcast_S800000_S800000x64_0 m) a b = a := by
  funext i
  rw [select_apply]
  have hi : broadcastInDim S800000x64 ![0] bcast_S800000_S800000x64_0 m i = 1#1 := hm _
  rw [hi, select_one]

/-- (2) With every entry in range the masked read is the plain gather at the wrapped indices. -/
theorem take_eq_gather (x : FVec Ideal S50000x64 .f32) (src : IVec S800000 32)
    (h : ∀ e : S800000.Idx, 0 ≤ (src e).toInt ∧ (src e).toInt < 50000) :
    select
      (broadcastInDim S800000x64 ![0] bcast_S800000_S800000x64_0
        (Host.reduce IntOp.andi
          (andi (cmpi .sge (wrapIdx src) (broadcastInDim S800000x1 ![] bcast_S_S800000x1 (constantI S_ 32 0#32)))
                (cmpi .sle (wrapIdx src) (broadcastInDim S800000x1 ![0, 1] bcast_S1x1_S800000x1_0_1 (broadcastInDim S1x1 ![1] bcast_S1_S1x1_1 (constantI S1 32 49999#32)))))
          (constantI S_ 1 1#1) reducesTo_S800000x1_S800000_d1 h_S_))
      (Host.gather gather_S50000x64_S800000x1_S800000x64_1_0_n_n_0_1_164 x (wrapIdx src))
      (broadcastInDim S800000x64 ![] bcast_S_S800000x64 (constant (F := Ideal) S_ .f32 0x7FC00000#32))
    = Host.gather gather_S50000x64_S800000x1_S800000x64_1_0_n_n_0_1_164 x (wrapIdx src) :=
  select_ones _ (mask_apply src h) _ _

end Cert.Bridge

end
-- ==== Proof.Equal.lean ====
/-
  The two programs compute one function. Layer by layer: the kernel's masked row read is the plain gather once every source
  index lies in [0, 50000) (the mask is then all ones); its edge embedding `ea[e,0]·w[0,h] + b[h]` is the reference's one-term
  inner product plus broadcast bias; its node update `act (∑ₖ a[n,k]·w[k,h] + b[h])` is the reference's inner product, bias,
  clip and leaky select; the scatter-sums, the concatenation and the mean pool are the same host operations on both sides;
  the read-out `∑ₖ p[g,k]·w[k,0] + b` is the reference's last inner product plus bias. No law of the extended reals beyond
  reading a sum at an index is used, so finiteness of the float inputs plays no part.
-/
import proofs.«404665_j1864015807087_1_alg».proof.Proof.KernelValue
import proofs.«404665_j1864015807087_1_alg».proof.Proof.RefValue
import proofs.«404665_j1864015807087_1_alg».proof.Proof.RefStages
import proofs.«404665_j1864015807087_1_alg».proof.Proof.SrcRange

set_option maxRecDepth 16384

noncomputable section

namespace Cert.Bridge

open Idealize.ShloMosaic

section
variable (x1 : FVec Ideal Cert.KernelIdeal.S800000 .f32) (x2 : FVec Ideal Cert.KernelIdeal.S3x1x64 .f32)
  (x3 : FVec Ideal Cert.KernelIdeal.S3x64 .f32) (x4 : FVec Ideal Cert.KernelIdeal.S3x128x64 .f32)
  (x5 : FVec Ideal Cert.KernelIdeal.S3x64 .f32) (x8 : IVec Cert.KernelIdeal.S2x800000 32)

/-- One layer of the kernel program is one layer of the reference, on any node features, when every source index is in range. -/
theorem layer_eq (s3 : Fin 3 → Nat) (s2 : Fin 2 → Nat)
    (hE : Cert.KernelIdeal.S3x1x64.Slices s3 Cert.KernelIdeal.S1x1x64) (hB : Cert.KernelIdeal.S3x64.Slices s2 Cert.KernelIdeal.S1x64)
    (hN : Cert.KernelIdeal.S3x128x64.Slices s3 Cert.KernelIdeal.S1x128x64)
    (hE' : Cert.ReferenceIdeal.S3x1x64.Slices s3 Cert.ReferenceIdeal.S1x1x64) (hB' : Cert.ReferenceIdeal.S3x64.Slices s2 Cert.ReferenceIdeal.S1x64)
    (hN' : Cert.ReferenceIdeal.S3x128x64.Slices s3 Cert.ReferenceIdeal.S1x128x64)
    (x : FVec Ideal Cert.KernelIdeal.S50000x64 .f32)
    (hsrc : ∀ e : Cert.KernelIdeal.S800000.Idx, 0 ≤ (Cert.KHost.srcOf x8 e).toInt ∧ (Cert.KHost.srcOf x8 e).toInt < 50000) :
    Cert.KHost.layer s3 s2 hE hB hN x1 x2 x3 x4 x5 x8 x = Cert.RHost.layer s3 s2 hE' hB' hN' x1 x2 x3 x4 x5 x8 x := by
  have ht : Cert.KHost.take x (Cert.KHost.srcOf x8) = Cert.RHost.gath x (Cert.RHost.srcOf x8) :=
    take_eq_gather x (Cert.KHost.srcOf x8) hsrc
  have he : edgeIdx (Cert.KHost.eaOf x1) (Cert.KHost.wE s3 hE x2) (Cert.KHost.row (Cert.KHost.b1 s2 hB x3))
      = Cert.RHost.emb (Cert.RHost.eaOf x1) (Cert.RHost.wE s3 hE' x2) (Cert.RHost.b1 s2 hB' x3) :=
    (edge_ref (Cert.RHost.eaOf x1) (Cert.RHost.wE s3 hE' x2) (Cert.RHost.b1 s2 hB' x3) Cert.KernelIdeal.Facts₀.shapeCasts_S64_S1x64).symm
  unfold Cert.KHost.layer Cert.RHost.layer
  rw [ht, he]
  exact (node_ref (Cert.RHost.aggr (Cert.RHost.dstOf x8) (Cert.RHost.gath x (Cert.RHost.srcOf x8))
      (Cert.RHost.emb (Cert.RHost.eaOf x1) (Cert.RHost.wE s3 hE' x2) (Cert.RHost.b1 s2 hB' x3)))
    (Cert.RHost.wN s3 hN' x4) (Cert.RHost.b1 s2 hB' x5) Cert.KernelIdeal.Facts₀.shapeCasts_S64_S1x64).symm

/-- THE TWO RESULTS ARE ONE FUNCTION of the argument arrays. -/
theorem total_eq (x0 : FVec Ideal Cert.KernelIdeal.S50000x64 .f32) (x6 : FVec Ideal Cert.KernelIdeal.S64x1 .f32)
    (x7 : FVec Ideal Cert.KernelIdeal.S1 .f32) (x9 : IVec Cert.KernelIdeal.S50000 32)
    (hsrc : ∀ e : Cert.KernelIdeal.S800000.Idx, 0 ≤ (Cert.KHost.srcOf x8 e).toInt ∧ (Cert.KHost.srcOf x8 e).toInt < 50000) :
    fcIdx (Cert.KHost.pool x9 (Cert.KHost.layer ![2, 0, 0] ![2, 0] Cert.KernelIdeal.Facts₀.slices_S3x1x64_S1x1x64_2_0_0 Cert.KernelIdeal.Facts₀.slices_S3x64_S1x64_2_0 Cert.KernelIdeal.Facts₀.slices_S3x128x64_S1x128x64_2_0_0 x1 x2 x3 x4 x5 x8 (Cert.KHost.layer ![1, 0, 0] ![1, 0] Cert.KernelIdeal.Facts₀.slices_S3x1x64_S1x1x64_1_0_0 Cert.KernelIdeal.Facts₀.slices_S3x64_S1x64_1_0 Cert.KernelIdeal.Facts₀.slices_S3x128x64_S1x128x64_1_0_0 x1 x2 x3 x4 x5 x8 (Cert.KHost.layer ![0, 0, 0] ![0, 0] Cert.KernelIdeal.Facts₀.slices_S3x1x64_S1x1x64_0_0_0 Cert.KernelIdeal.Facts₀.slices_S3x64_S1x64_0_0 Cert.KernelIdeal.Facts₀.slices_S3x128x64_S1x128x64_0_0_0 x1 x2 x3 x4 x5 x8 x0)))) x6 (Cert.KHost.cell x7)
      = Cert.RHost.out (Cert.RHost.pool x9 (Cert.RHost.layer ![2, 0, 0] ![2, 0] Cert.ReferenceIdeal.Facts₀.slices_S3x1x64_S1x1x64_2_0_0 Cert.ReferenceIdeal.Facts₀.slices_S3x64_S1x64_2_0 Cert.ReferenceIdeal.Facts₀.slices_S3x128x64_S1x128x64_2_0_0 x1 x2 x3 x4 x5 x8 (Cert.RHost.layer ![1, 0, 0] ![1, 0] Cert.ReferenceIdeal.Facts₀.slices_S3x1x64_S1x1x64_1_0_0 Cert.ReferenceIdeal.Facts₀.slices_S3x64_S1x64_1_0 Cert.ReferenceIdeal.Facts₀.slices_S3x128x64_S1x128x64_1_0_0 x1 x2 x3 x4 x5 x8 (Cert.RHost.layer ![0, 0, 0] ![0, 0] Cert.ReferenceIdeal.Facts₀.slices_S3x1x64_S1x1x64_0_0_0 Cert.ReferenceIdeal.Facts₀.slices_S3x64_S1x64_0_0 Cert.ReferenceIdeal.Facts₀.slices_S3x128x64_S1x128x64_0_0_0 x1 x2 x3 x4 x5 x8 x0)))) x6 x7 := by
  rw [layer_eq x1 x2 x3 x4 x5 x8 ![0, 0, 0] ![0, 0] Cert.KernelIdeal.Facts₀.slices_S3x1x64_S1x1x64_0_0_0 Cert.KernelIdeal.Facts₀.slices_S3x64_S1x64_0_0 Cert.KernelIdeal.Facts₀.slices_S3x128x64_S1x128x64_0_0_0 Cert.ReferenceIdeal.Facts₀.slices_S3x1x64_S1x1x64_0_0_0 Cert.ReferenceIdeal.Facts₀.slices_S3x64_S1x64_0_0 Cert.ReferenceIdeal.Facts₀.slices_S3x128x64_S1x128x64_0_0_0 x0 hsrc]
  rw [layer_eq x1 x2 x3 x4 x5 x8 ![1, 0, 0] ![1, 0] Cert.KernelIdeal.Facts₀.slices_S3x1x64_S1x1x64_1_0_0 Cert.KernelIdeal.Facts₀.slices_S3x64_S1x64_1_0 Cert.KernelIdeal.Facts₀.slices_S3x128x64_S1x128x64_1_0_0 Cert.ReferenceIdeal.Facts₀.slices_S3x1x64_S1x1x64_1_0_0 Cert.ReferenceIdeal.Facts₀.slices_S3x64_S1x64_1_0 Cert.ReferenceIdeal.Facts₀.slices_S3x128x64_S1x128x64_1_0_0 (Cert.RHost.layer ![0, 0, 0] ![0, 0] Cert.ReferenceIdeal.Facts₀.slices_S3x1x64_S1x1x64_0_0_0 Cert.ReferenceIdeal.Facts₀.slices_S3x64_S1x64_0_0 Cert.ReferenceIdeal.Facts₀.slices_S3x128x64_S1x128x64_0_0_0 x1 x2 x3 x4 x5 x8 x0) hsrc]
  rw [layer_eq x1 x2 x3 x4 x5 x8 ![2, 0, 0] ![2, 0] Cert.KernelIdeal.Facts₀.slices_S3x1x64_S1x1x64_2_0_0 Cert.KernelIdeal.Facts₀.slices_S3x64_S1x64_2_0 Cert.KernelIdeal.Facts₀.slices_S3x128x64_S1x128x64_2_0_0 Cert.ReferenceIdeal.Facts₀.slices_S3x1x64_S1x1x64_2_0_0 Cert.ReferenceIdeal.Facts₀.slices_S3x64_S1x64_2_0 Cert.ReferenceIdeal.Facts₀.slices_S3x128x64_S1x128x64_2_0_0 (Cert.RHost.layer ![1, 0, 0] ![1, 0] Cert.ReferenceIdeal.Facts₀.slices_S3x1x64_S1x1x64_1_0_0 Cert.ReferenceIdeal.Facts₀.slices_S3x64_S1x64_1_0 Cert.ReferenceIdeal.Facts₀.slices_S3x128x64_S1x128x64_1_0_0 x1 x2 x3 x4 x5 x8 (Cert.RHost.layer ![0, 0, 0] ![0, 0] Cert.ReferenceIdeal.Facts₀.slices_S3x1x64_S1x1x64_0_0_0 Cert.ReferenceIdeal.Facts₀.slices_S3x64_S1x64_0_0 Cert.ReferenceIdeal.Facts₀.slices_S3x128x64_S1x128x64_0_0_0 x1 x2 x3 x4 x5 x8 x0)) hsrc]
  exact (fc_ref (Cert.RHost.pool x9 (Cert.RHost.layer ![2, 0, 0] ![2, 0] Cert.ReferenceIdeal.Facts₀.slices_S3x1x64_S1x1x64_2_0_0 Cert.ReferenceIdeal.Facts₀.slices_S3x64_S1x64_2_0 Cert.ReferenceIdeal.Facts₀.slices_S3x128x64_S1x128x64_2_0_0 x1 x2 x3 x4 x5 x8 (Cert.RHost.layer ![1, 0, 0] ![1, 0] Cert.ReferenceIdeal.Facts₀.slices_S3x1x64_S1x1x64_1_0_0 Cert.ReferenceIdeal.Facts₀.slices_S3x64_S1x64_1_0 Cert.ReferenceIdeal.Facts₀.slices_S3x128x64_S1x128x64_1_0_0 x1 x2 x3 x4 x5 x8 (Cert.RHost.layer ![0, 0, 0] ![0, 0] Cert.ReferenceIdeal.Facts₀.slices_S3x1x64_S1x1x64_0_0_0 Cert.ReferenceIdeal.Facts₀.slices_S3x64_S1x64_0_0 Cert.ReferenceIdeal.Facts₀.slices_S3x128x64_S1x128x64_0_0_0 x1 x2 x3 x4 x5 x8 x0)))) x6 x7 Cert.KernelIdeal.Facts₀.shapeCasts_S1_S1x1).symm

end

end Cert.Bridge

end
-- ==== Proof.lean ====
/-
  The certificate: the kernel program (three message-passing layers run as seven pallas_calls between host gathers and
  scatter-sums, then a mean pool and a read-out) against its plain reference, over the extended reals.
  Frames: the two kernel programs' frames are the generated several-region frame certificates; the reference is a straight
  line of host operations and its frame is its run with the result dropped. Nothing was rewritten by the ideal pass, so there
  is nothing to preserve. The value: the kernel program's result buffer ends at the read-out of the pooled features after
  three layers (each pallas_call's output array in closed form, the host stretches folded back to the launch memory), the
  reference's at the same function once every source index lies in [0, 50000): there the kernel's masked row read never
  masks, and the remaining differences are the spelling of a one-term and two many-term inner products and of the biases'
  broadcasts. The precondition's last conjunct is exactly that range.
-/
import proofs.«404665_j1864015807087_1_alg».proof.Defs
import proofs.«404665_j1864015807087_1_alg».proof.Proof.Gen.Kernel
import proofs.«404665_j1864015807087_1_alg».proof.Proof.Gen.Kernel.Frame
import proofs.«404665_j1864015807087_1_alg».proof.Proof.Gen.KernelIdeal
import proofs.«404665_j1864015807087_1_alg».proof.Proof.Gen.KernelIdeal.Frame
import proofs.«404665_j1864015807087_1_alg».proof.Proof.Gen.ReferenceIdeal
import proofs.«404665_j1864015807087_1_alg».proof.Proof.Gen.Pre_finite_inputs
import proofs.«404665_j1864015807087_1_alg».proof.Proof.RunResult
import proofs.«404665_j1864015807087_1_alg».proof.Proof.RegionEdge0
import proofs.«404665_j1864015807087_1_alg».proof.Proof.RegionEdge2
import proofs.«404665_j1864015807087_1_alg».proof.Proof.RegionEdge4
import proofs.«404665_j1864015807087_1_alg».proof.Proof.RegionNode1
import proofs.«404665_j1864015807087_1_alg».proof.Proof.RegionNode3
import proofs.«404665_j1864015807087_1_alg».proof.Proof.RegionNode5
import proofs.«404665_j1864015807087_1_alg».proof.Proof.RegionFc6
import proofs.«404665_j1864015807087_1_alg».proof.Proof.KernelValue
import proofs.«404665_j1864015807087_1_alg».proof.Proof.RefValue
import proofs.«404665_j1864015807087_1_alg».proof.Proof.Equal
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ

/-- The reference's frame: its run, each argument array read back through the fold unchanged. -/
theorem frame_ri : Cert.frame_ReferenceIdeal := fun m ρ _ =>
  (θ_run Cert.ReferenceIdeal.defs _ _).mono (fun r h c =>
    ⟨(h c _).trans (Cert.ReferenceIdeal.ValueP.kept0 m c), (h c _).trans (Cert.ReferenceIdeal.ValueP.kept1 m c),
     (h c _).trans (Cert.ReferenceIdeal.ValueP.kept2 m c), (h c _).trans (Cert.ReferenceIdeal.ValueP.kept3 m c),
     (h c _).trans (Cert.ReferenceIdeal.ValueP.kept4 m c), (h c _).trans (Cert.ReferenceIdeal.ValueP.kept5 m c),
     (h c _).trans (Cert.ReferenceIdeal.ValueP.kept6 m c), (h c _).trans (Cert.ReferenceIdeal.ValueP.kept7 m c),
     (h c _).trans (Cert.ReferenceIdeal.ValueP.kept8 m c), (h c _).trans (Cert.ReferenceIdeal.ValueP.kept9 m c)⟩)
    (Cert.ReferenceIdeal.ValueP.run_fold (F := Ideal) m ρ)

/-- The kernel program's result, in closed form of the launch memory. -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W17 m ρ c (Proc.devRef .tc Cert.KernelIdeal.main_v68)
      = Cert.Bridge.fcIdx (Cert.KHost.pool (m ((c.tc : Thread Cert.KernelIdeal.nD Cert.KernelIdeal.τ).loc Cert.KernelIdeal.main_arg9)) (Cert.KHost.layer ![2, 0, 0] ![2, 0] Cert.KernelIdeal.Facts₀.slices_S3x1x64_S1x1x64_2_0_0 Cert.KernelIdeal.Facts₀.slices_S3x64_S1x64_2_0 Cert.KernelIdeal.Facts₀.slices_S3x128x64_S1x128x64_2_0_0 (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (Cert.KHost.layer ![1, 0, 0] ![1, 0] Cert.KernelIdeal.Facts₀.slices_S3x1x64_S1x1x64_1_0_0 Cert.KernelIdeal.Facts₀.slices_S3x64_S1x64_1_0 Cert.KernelIdeal.Facts₀.slices_S3x128x64_S1x128x64_1_0_0 (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (Cert.KHost.layer ![0, 0, 0] ![0, 0] Cert.KernelIdeal.Facts₀.slices_S3x1x64_S1x1x64_0_0_0 Cert.KernelIdeal.Facts₀.slices_S3x64_S1x64_0_0 Cert.KernelIdeal.Facts₀.slices_S3x128x64_S1x128x64_0_0_0 (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg0)))))) (m ((c.tc : Thread Cert.KernelIdeal.nD Cert.KernelIdeal.τ).loc Cert.KernelIdeal.main_arg6)) (Cert.KHost.cell (m ((c.tc : Thread Cert.KernelIdeal.nD Cert.KernelIdeal.τ).loc Cert.KernelIdeal.main_arg7))) :=
  Cert.KernelIdeal.Gen.result_value m ρ (fun V c => Cert.KernelIdeal.Gen.edge_final0 V c) (fun V c => Cert.KernelIdeal.Gen.node_final1 V c)
    (fun V c => Cert.KernelIdeal.Gen.edge_final2 V c) (fun V c => Cert.KernelIdeal.Gen.node_final3 V c)
    (fun V c => Cert.KernelIdeal.Gen.edge_final4 V c) (fun V c => Cert.KernelIdeal.Gen.node_final5 V c)
    (fun V c => Cert.KernelIdeal.Gen.fc_final6 V c) c

/-- Both programs end at the reference's function of the (agreeing) arguments; the precondition's range conjunct is what makes
    the kernel's masked row read the reference's plain one. -/
theorem algebraic : Cert.algebraic_KernelIdeal_ReferenceIdeal := by
  intro m ρ m' ρ' hpre hagree
  refine ⟨fun c => Cert.RHost.out (Cert.RHost.pool (m ((c.tc : Thread Cert.KernelIdeal.nD Cert.KernelIdeal.τ).loc Cert.KernelIdeal.main_arg9)) (Cert.RHost.layer ![2, 0, 0] ![2, 0] Cert.ReferenceIdeal.Facts₀.slices_S3x1x64_S1x1x64_2_0_0 Cert.ReferenceIdeal.Facts₀.slices_S3x64_S1x64_2_0 Cert.ReferenceIdeal.Facts₀.slices_S3x128x64_S1x128x64_2_0_0 (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (Cert.RHost.layer ![1, 0, 0] ![1, 0] Cert.ReferenceIdeal.Facts₀.slices_S3x1x64_S1x1x64_1_0_0 Cert.ReferenceIdeal.Facts₀.slices_S3x64_S1x64_1_0 Cert.ReferenceIdeal.Facts₀.slices_S3x128x64_S1x128x64_1_0_0 (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (Cert.RHost.layer ![0, 0, 0] ![0, 0] Cert.ReferenceIdeal.Facts₀.slices_S3x1x64_S1x1x64_0_0_0 Cert.ReferenceIdeal.Facts₀.slices_S3x64_S1x64_0_0 Cert.ReferenceIdeal.Facts₀.slices_S3x128x64_S1x128x64_0_0_0 (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg0)))))) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun r h c => ?_) (Cert.KernelIdeal.Gen.run_result (F := Ideal) m ρ)
    refine ⟨(h c).1.trans ((kernel_result m ρ c).trans ?_), (h c).2⟩
    exact Cert.Bridge.total_eq _ _ _ _ _ _ _ _ _ _ (fun e => Cert.Bridge.src_range _ _ _ _ _ _ _ _ _ _ (hpre c) e)
  · refine (θ_run Cert.ReferenceIdeal.defs _ _).mono (fun r h c => ?_) (Cert.ReferenceIdeal.ValueP.run_fold (F := Ideal) m' ρ')
    obtain ⟨e0, e1, e2, e3, e4, e5, e6, e7, e8, e9⟩ := hagree c
    refine ⟨(h c _).trans ((Cert.ReferenceIdeal.ValueP.result m' c).trans ?_),
      (h c _).trans (Cert.ReferenceIdeal.ValueP.kept0 m' c), (h c _).trans (Cert.ReferenceIdeal.ValueP.kept1 m' c),
      (h c _).trans (Cert.ReferenceIdeal.ValueP.kept2 m' c), (h c _).trans (Cert.ReferenceIdeal.ValueP.kept3 m' c),
      (h c _).trans (Cert.ReferenceIdeal.ValueP.kept4 m' c), (h c _).trans (Cert.ReferenceIdeal.ValueP.kept5 m' c),
      (h c _).trans (Cert.ReferenceIdeal.ValueP.kept6 m' c), (h c _).trans (Cert.ReferenceIdeal.ValueP.kept7 m' c),
      (h c _).trans (Cert.ReferenceIdeal.ValueP.kept8 m' c), (h c _).trans (Cert.ReferenceIdeal.ValueP.kept9 m' c)⟩
    rw [e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
